-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x65536x128 : Shape := ⟨3, ![4, 65536, 128]⟩
abbrev S65536 : Shape := ⟨1, ![65536]⟩
abbrev S128x128 : Shape := ⟨2, ![128, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x65536x128 : S_.BroadcastsInDim S4x65536x128 (![] : Fin 0 → Fin S4x65536x128.rank)
  reducesTo_S4x65536x128_S_d0_1_2 : S4x65536x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S65536 : S_.BroadcastsInDim S65536 (![] : Fin 0 → Fin S65536.rank)
  reducesTo_S65536_S_d0 : S65536.ReducesTo [0] S_

variable [Facts]

def fn_part4 {F : FTy → Type} [FloatOps F] (main_arg3 : IVec S65536 32) (main_v66 : IVec S_ 1) (main_c_26 : IVec S_ 32) : IVec S_ 1 :=
  let main_v67 : IVec S65536 32 := broadcastInDim S65536 ![] bcast_S_S65536 main_c_26
  let main_v68 : IVec S65536 1 := cmpi .sge main_arg3 main_v67
  let main_c_27 : IVec S_ 1 := constantI S_ 1 1#1
  let main_v69 : IVec S_ 1 := (fun x v => Host.reduce IntOp.andi x v reducesTo_S65536_S_d0 h_S_) main_v68 main_c_27
  let main_v70 : IVec S_ 1 := andi main_v66 main_v69
  let main_c_28 : IVec S_ 32 := constantI S_ 32 4096#32
  let main_v71 : IVec S65536 32 := broadcastInDim S65536 ![] bcast_S_S65536 main_c_28
  let main_v72 : IVec S65536 1 := cmpi .slt main_arg3 main_v71
  let main_c_29 : IVec S_ 1 := constantI S_ 1 1#1
  let main_v73 : IVec S_ 1 := (fun x v => Host.reduce IntOp.andi x v reducesTo_S65536_S_d0 h_S_) main_v72 main_c_29
  let main_v74 : IVec S_ 1 := andi main_v70 main_v73
  main_v74

def fn_part3 {F : FTy → Type} [FloatOps F] (main_arg2 : IVec S65536 32) (main_arg3 : IVec S65536 32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S65536 32 := broadcastInDim S65536 ![] bcast_S_S65536 main_c_22
  let main_v60 : IVec S65536 1 := cmpi .sge main_arg2 main_v59
  let main_c_23 : IVec S_ 1 := constantI S_ 1 1#1
  let main_v61 : IVec S_ 1 := (fun x v => Host.reduce IntOp.andi x v reducesTo_S65536_S_d0 h_S_) main_v60 main_c_23
  let main_v62 : IVec S_ 1 := andi main_v58 main_v61
  let main_c_24 : IVec S_ 32 := constantI S_ 32 4096#32
  let main_v63 : IVec S65536 32 := broadcastInDim S65536 ![] bcast_S_S65536 main_c_24
  let main_v64 : IVec S65536 1 := cmpi .slt main_arg2 main_v63
  let main_c_25 : IVec S_ 1 := constantI S_ 1 1#1
  let main_v65 : IVec S_ 1 := (fun x v => Host.reduce IntOp.andi x v reducesTo_S65536_S_d0 h_S_) main_v64 main_c_25
  let main_v66 : IVec S_ 1 := andi main_v62 main_v65
  let main_c_26 : IVec S_ 32 := constantI S_ 32 0#32
  fn_part4 (F := F) main_arg3 main_v66 main_c_26

def fn_part2 {F : FTy → Type} [FloatOps F] (main_arg2 : IVec S65536 32) (main_arg3 : IVec S65536 32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_v48 main_v49 main_v50

def fn_part1 {F : FTy → Type} [FloatOps F] (main_arg2 : IVec S65536 32) (main_arg3 : IVec S65536 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_v33

def fn {F : FTy → Type} [FloatOps F] (main_arg0 : FVec F S4x4096x128 .f32) (main_arg1 : FVec F S4x65536x128 .f32) (main_arg2 : IVec S65536 32) (main_arg3 : IVec S65536 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x65536x128 .f32 := Host.absf main_arg1
  let main_cst_0 : FVec F S_ .f32 := constant S_ .f32 0x7F800000#32
  let main_v5 : FVec F S4x65536x128 .f32 := broadcastInDim S4x65536x128 ![] bcast_S_S4x65536x128 main_cst_0
  let main_v6 : IVec S4x65536x128 1 := cmpf .olt main_v4 main_v5
  let main_c_1 : IVec S_ 1 := constantI S_ 1 1#1
  let main_v7 : IVec S_ 1 := (fun x v => Host.reduce IntOp.andi x v reducesTo_S4x65536x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_v13 main_v16
-- ==== Kernel.lean ====
abbrev S4x4096x128 : Shape := ⟨3, ![4, 4096, 128]⟩
abbrev S4x65536x128 : Shape := ⟨3, ![4, 65536, 128]⟩
abbrev S65536 : Shape := ⟨1, ![65536]⟩
abbrev S128x128 : Shape := ⟨2, ![128, 128]⟩
abbrev S128 : Shape := ⟨1, ![128]⟩
abbrev S1x65536 : Shape := ⟨2, ![1, 65536]⟩
abbrev S256x128 : Shape := ⟨2, ![256, 128]⟩
abbrev S256 : Shape := ⟨1, ![256]⟩
abbrev S1x4096x128 : Shape := ⟨3, ![1, 4096, 128]⟩
abbrev S1x512x128 : Shape := ⟨3, ![1, 512, 128]⟩
abbrev S1x512 : Shape := ⟨2, ![1, 512]⟩
abbrev S4096x128 : Shape := ⟨2, ![4096, 128]⟩
abbrev S4096x256 : Shape := ⟨2, ![4096, 256]⟩
abbrev S1x128 : Shape := ⟨2, ![1, 128]⟩
abbrev S128x256 : Shape := ⟨2, ![128, 256]⟩
abbrev S1x256 : Shape := ⟨2, ![1, 256]⟩
abbrev S1x4096 : Shape := ⟨2, ![1, 4096]⟩
abbrev S512x1 : Shape := ⟨2, ![512, 1]⟩
abbrev S512x4096 : Shape := ⟨2, ![512, 4096]⟩
abbrev S512x128 : Shape := ⟨2, ![512, 128]⟩
abbrev S512x256 : Shape := ⟨2, ![512, 256]⟩

abbrev nBuf : Space → Nat
  | .hbm => 20
  | .vmem => 23
  | .smem => 0
  | _ => 0

abbrev bufTy : (tb : Table) → Fin (tcTables nBuf tb) → BufTy
  | .hbm, ⟨0, _⟩ => ⟨S4x4096x128, .f32⟩
  | .hbm, ⟨1, _⟩ => ⟨S4x65536x128, .f32⟩
  | .hbm, ⟨2, _⟩ => ⟨S65536, .i32⟩
  | .hbm, ⟨3, _⟩ => ⟨S65536, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x65536, .i32⟩
  | .hbm, ⟨15, _⟩ => ⟨S1x65536, .i32⟩
  | .hbm, ⟨16, _⟩ => ⟨S256x128, .f32⟩
  | .hbm, ⟨17, _⟩ => ⟨S256, .f32⟩
  | .hbm, ⟨18, _⟩ => ⟨S4x4096x128, .f32⟩
  | .hbm, ⟨19, _⟩ => ⟨S4x65536x128, .f32⟩
  | .local _ .vmem, ⟨0, _⟩ => ⟨S1x4096x128, .f32⟩
  | .local _ .vmem, ⟨1, _⟩ => ⟨S1x4096x128, .f32⟩
  | .local _ .vmem, ⟨2, _⟩ => ⟨S1x512x128, .f32⟩
  | .local _ .vmem, ⟨3, _⟩ => ⟨S1x512x128, .f32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S128x128, .f32⟩
  | .local _ .vmem, ⟨9, _⟩ => ⟨S128, .f32⟩
  | .local _ .vmem, ⟨10, _⟩ => ⟨S256x128, .f32⟩
  | .local _ .vmem, ⟨11, _⟩ => ⟨S256, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S1x4096x128, .f32⟩
  | .local _ .vmem, ⟨17, _⟩ => ⟨S1x4096x128, .f32⟩
  | .local _ .vmem, ⟨18, _⟩ => ⟨S1x512x128, .f32⟩
  | .local _ .vmem, ⟨19, _⟩ => ⟨S1x512x128, .f32⟩
  | .local _ .vmem, ⟨20, _⟩ => ⟨S4096x128, .bf16⟩
  | .local _ .vmem, ⟨21, _⟩ => ⟨S4096x256, .bf16⟩
  | .local _ .vmem, ⟨22, _⟩ => ⟨S4096x256, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 128], ![false, false]⟩

def k0_cond2 (i : grid0.Coords) : BitVec 1 :=
  let arg1 : BitVec 32 := BitVec.ofNat 32 (i 1).val
  let c127_i32 : BitVec 32 := 127#32
  let v57 : BitVec 1 := Scalar.cmpi .eq arg1 c127_i32
  let v58 : BitVec 32 := Scalar.extui v57
  let c0_i32_24 : BitVec 32 := 0#32
  let v59 : BitVec 1 := Scalar.cmpi .ne v58 c0_i32_24
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S65536_S1x65536 : S65536.ShapeCasts S1x65536
  concatenates_S128x128_S128x128_S256x128_d0 : Shape.Concatenates [S128x128, S128x128] S256x128 0
  concatenates_S128_S128_S256_d0 : Shape.Concatenates [S128, S128] S256 0
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  transposes_S256x128_p1_0_S128x256 : S256x128.Transposes [1, 0] S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  iota_S1x4096_d1_w32 : S1x4096.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1x512_p1_0_S512x1 : S1x512.Transposes [1, 0] S512x1
  broadcasts_S512x1_S512x4096 : S512x1.Broadcasts S512x4096
  broadcasts_S1x4096_S512x4096 : S1x4096.Broadcasts S512x4096
  natLt_1_32 : 1 < 32
  slices_S512x256_o0_0_S512x128 : S512x256.Slices ![0, 0] S512x128
  slices_S512x256_o0_128_S512x128 : S512x256.Slices ![0, 128] S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  broadcasts_S1x128_S512x128 : S1x128.Broadcasts S512x128
  concatenates_S512x128_S512x128_S512x256_d1 : Shape.Concatenates [S512x128, S512x128] S512x256 1
  shapeCasts_S512x128_S1x512x128 : S512x128.ShapeCasts S1x512x128
  inb_S4096x256_S4096x128_0_0 : ∀ a, (![0, 0] : Fin 2 → Nat) a + S4096x128.size a ≤ S4096x256.size a
  inb_S4096x256_S4096x128_0_128 : ∀ a, (![0, 128] : Fin 2 → Nat) a + S4096x128.size a ≤ S4096x256.size a
  shapeCasts_S4096x128_S1x4096x128 : S4096x128.ShapeCasts S1x4096x128
  dot_S4096x128_S128x128_S4096x128_1_0_0_1_n_n_wf : DotDims.WF S4096x128 S128x128 S4096x128 [1] [0] [0] [1] [] []
  dot_S4096x128_S128x256_S4096x256_1_0_0_1_n_n_wf : DotDims.WF S4096x128 S128x256 S4096x256 [1] [0] [0] [1] [] []
  dot_S512x4096_S4096x128_S512x128_1_0_0_1_n_n_wf : DotDims.WF S512x4096 S4096x128 S512x128 [1] [0] [0] [1] [] []
  dot_S512x4096_S4096x256_S512x256_1_0_0_1_n_n_wf : DotDims.WF S512x4096 S4096x256 S512x256 [1] [0] [0] [1] [] []
  dot_S512x128_S128x128_S512x128_1_0_0_1_n_n_wf : DotDims.WF S512x128 S128x128 S512x128 [1] [0] [0] [1] [] []
  dot_S512x4096_S512x256_S4096x256_0_0_1_1_n_n_wf : DotDims.WF S512x4096 S512x256 S4096x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x65536x128.size a
  hwx0_1 : ∀ i : grid0.Coords, EltTy.bits .f32 = 32 ∨ (Rect.block (s := S4x65536x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x65536.size a
  hwx0_2 : ∀ i : grid0.Coords, EltTy.bits .i32 = 32 ∨ (Rect.block (s := S1x65536) S1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x65536.size a
  hwx0_3 : ∀ i : grid0.Coords, EltTy.bits .i32 = 32 ∨ (Rect.block (s := S1x65536) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x4096x128.size a ≤ S4x4096x128.size a
  hwx0_12 : ∀ i : grid0.Coords, EltTy.bits .f32 = 32 ∨ (Rect.block (s := S4x4096x128) S1x4096x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x128.size a ≤ S4x65536x128.size a
  hwx0_13 : ∀ i : grid0.Coords, EltTy.bits .f32 = 32 ∨ (Rect.block (s := S4x65536x128) S1x512x128.size (cc0_transform_13 i) (hinb0_13 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x4096_S512x256_S4096x256_0_0_1_1_n_n : DotDims S512x4096 S512x256 S4096x256 where
  lhsContracting := [0]
  rhsContracting := [0]
  lhsNonContracting := [1]
  rhsNonContracting := [1]
  lhsBatch := []
  rhsBatch := []
  wf := dot_S512x4096_S512x256_S4096x256_0_0_1_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4_0) S1x4096x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_1) S1x512x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | 13 => fun _ => false | ⟨_ + 14, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S4x65536x128 : Shape := ⟨3, ![4, 65536, 128]⟩
abbrev S65536 : Shape := ⟨1, ![65536]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S65536x1 : Shape := ⟨2, ![65536, 1]⟩

abbrev nBuf : Space → Nat
  | .hbm => 117
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x65536x128, .f32⟩
  | .hbm, ⟨2, _⟩ => ⟨S65536, .i32⟩
  | .hbm, ⟨3, _⟩ => ⟨S65536, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S4x4096x128, .f32⟩
  | .hbm, ⟨15, _⟩ => ⟨S1x1x128, .f32⟩
  | .hbm, ⟨16, _⟩ => ⟨S4x4096x128, .f32⟩
  | .hbm, ⟨17, _⟩ => ⟨S4x4096x128, .f32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S4x65536x128, .f32⟩
  | .hbm, ⟨27, _⟩ => ⟨S4x4096x128, .f32⟩
  | .hbm, ⟨28, _⟩ => ⟨S1x1x128, .f32⟩
  | .hbm, ⟨29, _⟩ => ⟨S4x4096x128, .f32⟩
  | .hbm, ⟨30, _⟩ => ⟨S4x4096x128, .f32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S4x65536x128, .f32⟩
  | .hbm, ⟨40, _⟩ => ⟨S4x65536x128, .f32⟩
  | .hbm, ⟨41, _⟩ => ⟨S4x65536x128, .f32⟩
  | .hbm, ⟨42, _⟩ => ⟨S1x1x128, .f32⟩
  | .hbm, ⟨43, _⟩ => ⟨S4x65536x128, .f32⟩
  | .hbm, ⟨44, _⟩ => ⟨S4x65536x128, .f32⟩
  | .hbm, ⟨45, _⟩ => ⟨S4x65536x128, .f32⟩
  | .hbm, ⟨46, _⟩ => ⟨S4x65536x128, .f32⟩
  | .hbm, ⟨47, _⟩ => ⟨S4x65536x128, .f32⟩
  | .hbm, ⟨48, _⟩ => ⟨S_, .f32⟩
  | .hbm, ⟨49, _⟩ => ⟨S4x65536x128, .f32⟩
  | .hbm, ⟨50, _⟩ => ⟨S4x65536x128, .f32⟩
  | .hbm, ⟨51, _⟩ => ⟨S_, .f32⟩
  | .hbm, ⟨52, _⟩ => ⟨S4x65536x128, .f32⟩
  | .hbm, ⟨53, _⟩ => ⟨S4x65536x128, .f32⟩
  | .hbm, ⟨54, _⟩ => ⟨S4x4096x128, .f32⟩
  | .hbm, ⟨55, _⟩ => ⟨S1x1x128, .f32⟩
  | .hbm, ⟨56, _⟩ => ⟨S4x4096x128, .f32⟩
  | .hbm, ⟨57, _⟩ => ⟨S4x4096x128, .f32⟩
  | .hbm, ⟨58, _⟩ => ⟨S_, .i32⟩
  | .hbm, ⟨59, _⟩ => ⟨S65536, .i32⟩
  | .hbm, ⟨60, _⟩ => ⟨S65536, .i1⟩
  | .hbm, ⟨61, _⟩ => ⟨S_, .i32⟩
  | .hbm, ⟨62, _⟩ => ⟨S65536, .i32⟩
  | .hbm, ⟨63, _⟩ => ⟨S65536, .i32⟩
  | .hbm, ⟨64, _⟩ => ⟨S65536, .i32⟩
  | .hbm, ⟨65, _⟩ => ⟨S65536x1, .i32⟩
  | .hbm, ⟨66, _⟩ => ⟨S4x65536x128, .f32⟩
  | .hbm, ⟨67, _⟩ => ⟨S4x65536x128, .f32⟩
  | .hbm, ⟨68, _⟩ => ⟨S_, .f32⟩
  | .hbm, ⟨69, _⟩ => ⟨S4x4096x128, .f32⟩
  | .hbm, ⟨70, _⟩ => ⟨S_, .i32⟩
  | .hbm, ⟨71, _⟩ => ⟨S65536, .i32⟩
  | .hbm, ⟨72, _⟩ => ⟨S65536, .i1⟩
  | .hbm, ⟨73, _⟩ => ⟨S_, .i32⟩
  | .hbm, ⟨74, _⟩ => ⟨S65536, .i32⟩
  | .hbm, ⟨75, _⟩ => ⟨S65536, .i32⟩
  | .hbm, ⟨76, _⟩ => ⟨S65536, .i32⟩
  | .hbm, ⟨77, _⟩ => ⟨S65536x1, .i32⟩
  | .hbm, ⟨78, _⟩ => ⟨S4x4096x128, .f32⟩
  | .hbm, ⟨79, _⟩ => ⟨S_, .i32⟩
  | .hbm, ⟨80, _⟩ => ⟨S65536, .i32⟩
  | .hbm, ⟨81, _⟩ => ⟨S65536, .i1⟩
  | .hbm, ⟨82, _⟩ => ⟨S_, .i32⟩
  | .hbm, ⟨83, _⟩ => ⟨S65536, .i32⟩
  | .hbm, ⟨84, _⟩ => ⟨S65536, .i32⟩
  | .hbm, ⟨85, _⟩ => ⟨S65536, .i32⟩
  | .hbm, ⟨86, _⟩ => ⟨S65536x1, .i32⟩
  | .hbm, ⟨87, _⟩ => ⟨S4x4096x128, .f32⟩
  | .hbm, ⟨88, _⟩ => ⟨S_, .f32⟩
  | .hbm, ⟨89, _⟩ => ⟨S4x4096x128, .f32⟩
  | .hbm, ⟨90, _⟩ => ⟨S4x4096x128, .f32⟩
  | .hbm, ⟨91, _⟩ => ⟨S4x4096x128, .f32⟩
  | .hbm, ⟨92, _⟩ => ⟨S4x4096x128, .f32⟩
  | .hbm, ⟨93, _⟩ => ⟨S1x1x128, .f32⟩
  | .hbm, ⟨94, _⟩ => ⟨S4x4096x128, .f32⟩
  | .hbm, ⟨95, _⟩ => ⟨S4x4096x128, .f32⟩
  | .hbm, ⟨96, _⟩ => ⟨S4x4096x128, .f32⟩
  | .hbm, ⟨97, _⟩ => ⟨S4x4096x128, .f32⟩
  | .hbm, ⟨98, _⟩ => ⟨S4x4096x128, .f32⟩
  | .hbm, ⟨99, _⟩ => ⟨S_, .f32⟩
  | .hbm, ⟨100, _⟩ => ⟨S4x4096x128, .f32⟩
  | .hbm, ⟨101, _⟩ => ⟨S4x4096x128, .f32⟩
  | .hbm, ⟨102, _⟩ => ⟨S_, .f32⟩
  | .hbm, ⟨103, _⟩ => ⟨S4x4096x128, .f32⟩
  | .hbm, ⟨104, _⟩ => ⟨S4x4096x128, .f32⟩
  | .hbm, ⟨105, _⟩ => ⟨S4x4096x128, .f32⟩
  | .hbm, ⟨106, _⟩ => ⟨S4x65536x128, .f32⟩
  | .hbm, ⟨107, _⟩ => ⟨S4x65536x128, .f32⟩
  | .hbm, ⟨108, _⟩ => ⟨S_, .f32⟩
  | .hbm, ⟨109, _⟩ => ⟨S4x65536x128, .f32⟩
  | .hbm, ⟨110, _⟩ => ⟨S4x65536x128, .f32⟩
  | .hbm, ⟨111, _⟩ => ⟨S_, .f32⟩
  | .hbm, ⟨112, _⟩ => ⟨S4x65536x128, .f32⟩
  | .hbm, ⟨113, _⟩ => ⟨S4x65536x128, .f32⟩
  | .hbm, ⟨114, _⟩ => ⟨S4x65536x128, .f32⟩
  | .hbm, ⟨115, _⟩ => ⟨S4x4096x128, .f32⟩
  | .hbm, ⟨116, _⟩ => ⟨S4x65536x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_call0_v5 : Ref sig .tc := ⟨.hbm, 104, rfl⟩
abbrev main_v69 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  bcast_S_S65536 : S_.BroadcastsInDim S65536 (![] : Fin 0 → Fin S65536.rank)
  bcast_S65536_S65536x1_0 : S65536.BroadcastsInDim S65536x1 (![0] : Fin 1 → Fin S65536x1.rank)
  bcast_S1x1x128_S4x65536x128_0_1_2 : S1x1x128.BroadcastsInDim S4x65536x128 (![0, 1, 2] : Fin 3 → Fin S4x65536x128.rank)
  bcast_S_S4x65536x128 : S_.BroadcastsInDim S4x65536x128 (![] : Fin 0 → Fin S4x65536x128.rank)
  bcast_S_S4x4096x128 : S_.BroadcastsInDim S4x4096x128 (![] : Fin 0 → Fin S4x4096x128.rank)
  dot_S4x4096x128_S128x128_S4x4096x128_2_1_01_0_n_n_wf : DotDims.WF S4x4096x128 S128x128 S4x4096x128 [2] [1] [0, 1] [0] [] []
  gather_S4x4096x128_S65536x1_S4x65536x128_02_1_n_n_1_1_41128_wf : GatherDims.WF S4x4096x128 S65536x1 S4x65536x128 [0, 2] [1] [] [1] [] 1 ![4, 1, 128]
  dot_S4x65536x128_S128x128_S4x65536x128_2_1_01_0_n_n_wf : DotDims.WF S4x65536x128 S128x128 S4x65536x128 [2] [1] [0, 1] [0] [] []
  scatter_S4x4096x128_S65536x1_S4x65536x128_02_1_1_1_wf : ScatterDims.WF S4x4096x128 S65536x1 S4x65536x128 [0, 2] [1] [1] 1

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def gather_S4x4096x128_S65536x1_S4x65536x128_02_1_n_n_1_1_41128 : GatherDims S4x4096x128 S65536x1 S4x65536x128 where
  offsetDims := [0, 2]
  collapsedSliceDims := [1]
  operandBatchingDims := []
  startIndicesBatchingDims := []
  startIndexMap := [1]
  indexVectorDim := 1
  sliceSizes := ![4, 1, 128]
  wf := gather_S4x4096x128_S65536x1_S4x65536x128_02_1_n_n_1_1_41128_wf
def dot_S4x65536x128_S128x128_S4x65536x128_2_1_01_0_n_n : DotDims S4x65536x128 S128x128 S4x65536x128 where
  lhsContracting := [2]
  rhsContracting := [1]
  lhsNonContracting := [0, 1]
  rhsNonContracting := [0]
  lhsBatch := []
  rhsBatch := []
  wf := dot_S4x65536x128_S128x128_S4x65536x128_2_1_01_0_n_n_wf
def scatter_S4x4096x128_S65536x1_S4x65536x128_02_1_1_1 : ScatterDims S4x4096x128 S65536x1 S4x65536x128 where
  updateWindowDims := [0, 2]
  insertedWindowDims := [1]
  scatterDimsToOperandDims := [1]
  indexVectorDim := 1
  wf := scatter_S4x4096x128_S65536x1_S4x65536x128_02_1_1_1_wf

class Facts : Prop extends Facts₀ where

variable [Facts]
-- ==== Proof.Spec.lean ====
/-
  The specification of the edge-gated graph convolution, index by index over the extended reals, with no
  program in sight.

  For batch q, node n, edge e and feature f, with i e and j e the two end nodes of edge e:
    lin x W b     = x · Wᵀ + b                                    (a linear layer, W is [out, in])
    y q e f       = (lin nf Wsg bsg (i e) + lin nf Wdg bdg (j e)) + lin ef Weg beg e
    σ q e f       = logistic (y q e f)
    msg q e f     = lin nf Wdu bdu (j e) · σ q e f
    sumH q n f    = ∑ over the edges e with i e = n of msg q e f,   sumS likewise of σ
    z q n f       = lin nf Wsu bsu n + sumH / (sumS + ε)
    xOut          = nf + z · logistic z,        yOut = ef + y · logistic y.
  Both programs compute these two arrays; what differs is how a row is fetched (a product with a one-hot row
  against an indexed read) and how the sum over edges is taken (tile by tile against all at once).
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

abbrev SNode : Shape := ⟨3, ![4, 4096, 128]⟩
abbrev SEdge : Shape := ⟨3, ![4, 65536, 128]⟩
abbrev SIx : Shape := ⟨1, ![65536]⟩
abbrev SW : Shape := ⟨2, ![128, 128]⟩
abbrev SB : Shape := ⟨1, ![128]⟩

/-- The fourteen inputs: node and edge features, the two end-node index lists, five weight matrices with
    their biases. -/
structure Inp where
  nf : SNode.Idx → EReal
  ef : SEdge.Idx → EReal
  iv : SIx.Idx → BitVec 32
  jv : SIx.Idx → BitVec 32
  Wsg : SW.Idx → EReal
  bsg : SB.Idx → EReal
  Wdg : SW.Idx → EReal
  bdg : SB.Idx → EReal
  Weg : SW.Idx → EReal
  beg : SB.Idx → EReal
  Wsu : SW.Idx → EReal
  bsu : SB.Idx → EReal
  Wdu : SW.Idx → EReal
  bdu : SB.Idx → EReal

/-- The node an index word names: its value, taken below 4096 so that it is total (an in-range word names
    itself). -/
def node (w : BitVec 32) : Fin 4096 := ⟨w.toNat % 4096, Nat.mod_lt _ (by decide)⟩

/-- An index word is in range when, read signed, it lies in [0, 4096). -/
def InRange (w : BitVec 32) : Prop := 0 ≤ w.toInt ∧ w.toInt < 4096

theorem InRange.toNat_lt {w : BitVec 32} (h : InRange w) : w.toNat < 4096 := by
  obtain ⟨h0, h1⟩ := h
  have := BitVec.toInt_eq_toNat_cond w
  have hw := w.isLt
  split at this <;> omega

theorem InRange.node_val {w : BitVec 32} (h : InRange w) : (node w).val = w.toNat := by
  show w.toNat % 4096 = w.toNat
  exact Nat.mod_eq_of_lt h.toNat_lt

theorem InRange.toInt_eq {w : BitVec 32} (h : InRange w) : w.toInt = (w.toNat : Int) := by
  have hc := BitVec.toInt_eq_toNat_cond w
  have hlt := h.toNat_lt
  split at hc <;> omega

/-- Reading an in-range word signed and clamping it into [0, 4095] names the same node. -/
theorem InRange.clamp {w : BitVec 32} (h : InRange w) : min w.toInt.toNat 4095 = (node w).val := by
  rw [h.node_val, h.toInt_eq, Int.toNat_natCast]
  exact Nat.min_eq_left (by have := h.toNat_lt; omega)

/-- A linear layer over node rows: row n of batch q of x, times Wᵀ, plus the bias, at output feature f. -/
def linN (x : SNode.Idx → EReal) (W : SW.Idx → EReal) (b : SB.Idx → EReal) (q : Fin 4) (n : Fin 4096) (f : Fin 128) : EReal :=
  (∑ k : Fin 128, x (ix3 q n k) * W (ix2 f k)) + b (ix1 f)

/-- The same over edge rows. -/
def linE (x : SEdge.Idx → EReal) (W : SW.Idx → EReal) (b : SB.Idx → EReal) (q : Fin 4) (e : Fin 65536) (f : Fin 128) : EReal :=
  (∑ k : Fin 128, x (ix3 q e k) * W (ix2 f k)) + b (ix1 f)

namespace Inp

variable (I : Inp)

/-- The source node of edge e. -/
def src (e : Fin 65536) : Fin 4096 := node (I.iv (ix1 e))
/-- The destination node of edge e. -/
def dst (e : Fin 65536) : Fin 4096 := node (I.jv (ix1 e))

/-- Every end-node index of every edge is in range. -/
def Ok : Prop := (∀ e : Fin 65536, InRange (I.iv (ix1 e))) ∧ (∀ e : Fin 65536, InRange (I.jv (ix1 e)))

/-- The gate's argument on edge e. -/
def y (q : Fin 4) (e : Fin 65536) (f : Fin 128) : EReal :=
  (linN I.nf I.Wsg I.bsg q (I.src e) f + linN I.nf I.Wdg I.bdg q (I.dst e) f) + linE I.ef I.Weg I.beg q e f

/-- The gate. -/
def sg (q : Fin 4) (e : Fin 65536) (f : Fin 128) : EReal := Ideal.logistic (I.y q e f)

/-- The gated message carried by edge e. -/
def msg (q : Fin 4) (e : Fin 65536) (f : Fin 128) : EReal := linN I.nf I.Wdu I.bdu q (I.dst e) f * I.sg q e f

/-- The messages gathered at node n: the sum over the edges whose source is n. -/
def sumH (q : Fin 4) (n : Fin 4096) (f : Fin 128) : EReal := ∑ e : Fin 65536, if I.src e = n then I.msg q e f else 0
/-- The gates gathered at node n. -/
def sumS (q : Fin 4) (n : Fin 4096) (f : Fin 128) : EReal := ∑ e : Fin 65536, if I.src e = n then I.sg q e f else 0

/-- The small constant in the quotient's denominator, as both programs carry it. -/
def eps : EReal := Ideal.ofBits .f32 0x358637BD#32

/-- The node update's argument. -/
def z (q : Fin 4) (n : Fin 4096) (f : Fin 128) : EReal :=
  linN I.nf I.Wsu I.bsu q n f + Ideal.div (I.sumH q n f) (I.sumS q n f + eps)

/-- The node result at coordinates. -/
def xAt (q : Fin 4) (n : Fin 4096) (f : Fin 128) : EReal := I.nf (ix3 q n f) + I.z q n f * Ideal.logistic (I.z q n f)
/-- The edge result at coordinates. -/
def yAt (q : Fin 4) (e : Fin 65536) (f : Fin 128) : EReal := I.ef (ix3 q e f) + I.y q e f * Ideal.logistic (I.y q e f)

/-- The node result array. -/
def xOut : SNode.Idx → EReal := fun i => I.xAt (i 0) (i 1) (i 2)
/-- The edge result array. -/
def yOut : SEdge.Idx → EReal := fun i => I.yAt (i 0) (i 1) (i 2)

theorem xOut_ix3 (q : Fin 4) (n : Fin 4096) (f : Fin 128) : I.xOut (ix3 q n f) = I.xAt q n f := rfl
theorem yOut_ix3 (q : Fin 4) (e : Fin 65536) (f : Fin 128) : I.yOut (ix3 q e f) = I.yAt q e f := rfl

end Inp

/-! ## One-hot rows -/

/-- The entry of a one-hot row: 1 where the word names node n, else 0. -/
def hot (w : BitVec 32) (n : Fin 4096) : EReal := if node w = n then 1 else 0

/-- Fetching a row by a product with a one-hot row is reading that row: every other term is 0 · P. -/
theorem sum_hot_mul (w : BitVec 32) (P : Fin 4096 → EReal) : ∑ n : Fin 4096, hot w n * P n = P (node w) := by
  unfold hot
  simp only [ite_mul, one_mul, zero_mul]
  rw [Finset.sum_ite_eq Finset.univ (node w) P]
  simp

/-- Adding rows into node n through the transposed one-hot: only the rows naming n contribute. -/
theorem sum_hot_mul_rows {R : Type} [Fintype R] (w : R → BitVec 32) (n : Fin 4096) (c : R → EReal) :
    ∑ r : R, hot (w r) n * c r = ∑ r : R, if node (w r) = n then c r else 0 := by
  refine Finset.sum_congr rfl fun r _ => ?_
  unfold hot
  split <;> simp

/-! ## Edges as 128 tiles of 512 -/

/-- Edge r of tile t. -/
def edgeOf (t : Fin 128) (r : Fin 512) : Fin 65536 := ⟨512 * t.val + r.val, by have := t.isLt; have := r.isLt; omega⟩

/-- A sum over all edges is the sum over the tiles of the sums inside each tile. -/
theorem sum_edges_tiles {M : Type} [AddCommMonoid M] (g : Fin 65536 → M) :
    ∑ e : Fin 65536, g e = ∑ t : Fin 128, ∑ r : Fin 512, g (edgeOf t r) := by
  rw [← Fintype.sum_prod_type' (f := fun t r => g (edgeOf t r))]
  refine (Equiv.sum_comp (finProdFinEquiv (m := 128) (n := 512)) g).symm.trans
    (Finset.sum_congr rfl fun p _ => congrArg g (Fin.ext ?_))
  rw [finProdFinEquiv_apply_val]
  show p.2.val + 512 * p.1.val = 512 * p.1.val + p.2.val
  omega

/-- The sum over the first k tiles. -/
def tilesUpTo {M : Type} [AddCommMonoid M] (g : Fin 65536 → M) (k : Nat) : M :=
  ∑ t : Fin 128, if t.val < k then ∑ r : Fin 512, g (edgeOf t r) else 0

theorem tilesUpTo_zero {M : Type} [AddCommMonoid M] (g : Fin 65536 → M) : tilesUpTo g 0 = 0 := by
  unfold tilesUpTo; simp

theorem tilesUpTo_succ {M : Type} [AddCommMonoid M] (g : Fin 65536 → M) (k : Nat) (hk : k < 128) :
    tilesUpTo g (k + 1) = tilesUpTo g k + ∑ r : Fin 512, g (edgeOf ⟨k, hk⟩ r) := by
  unfold tilesUpTo
  have hs : ∀ t : Fin 128, (if t.val < k + 1 then ∑ r : Fin 512, g (edgeOf t r) else 0)
      = (if t.val < k then ∑ r : Fin 512, g (edgeOf t r) else 0)
        + (if t = ⟨k, hk⟩ then ∑ r : Fin 512, g (edgeOf t r) else 0) := by
    intro t
    by_cases h1 : t.val < k
    · have h3 : t ≠ ⟨k, hk⟩ := fun h => by rw [h] at h1; exact lt_irrefl _ h1
      rw [if_pos (Nat.lt_succ_of_lt h1), if_pos h1, if_neg h3, add_zero]
    · by_cases h2 : t.val = k
      · have h3 : t = ⟨k, hk⟩ := Fin.ext h2
        rw [if_pos (by omega), if_neg h1, if_pos h3, zero_add]
      · have h3 : t ≠ ⟨k, hk⟩ := fun h => h2 (by rw [h])
        rw [if_neg (by omega), if_neg h1, if_neg h3, add_zero]
  rw [Finset.sum_congr rfl fun t _ => hs t, Finset.sum_add_distrib, Finset.sum_ite_eq' Finset.univ (⟨k, hk⟩ : Fin 128)]
  simp

theorem tilesUpTo_all {M : Type} [AddCommMonoid M] (g : Fin 65536 → M) : tilesUpTo g 128 = ∑ e : Fin 65536, g e := by
  rw [sum_edges_tiles]
  unfold tilesUpTo
  exact Finset.sum_congr rfl fun t _ => if_pos t.isLt

end Cert.Gnn

end
-- ==== Proof.KInp.lean ====
/-
  The kernel program's fourteen argument arrays on one core, bundled as the specification's inputs.
-/
import proofs.«404422_j30666066493673_3_alg».proof.KernelIdeal
import proofs.«404422_j30666066493673_3_alg».proof.Proof.Spec

set_option maxRecDepth 16384

noncomputable section

namespace Cert.KernelIdeal.KV

open Cert.KernelIdeal Idealize.ShloMosaic Idealize.ShloMosaic.TcCoe Idealize.SL.Sem Cert.Gnn

variable [Cert.KernelIdeal.Facts]

/-- The inputs as the memory holds them on core c, in the order of the entry point's parameters. -/
def inp (m : (ℓ : Loc nD τ sig) → Buf (Elt Ideal) ℓ) (c : Dev nD) : Inp :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13)⟩

end Cert.KernelIdeal.KV

end
-- ==== Proof.PreDecode.lean ====
/-
  The precondition, read: its last four conjuncts say that every entry of the two index lists, read signed,
  lies in [0, 4096).
-/
import proofs.«404422_j30666066493673_3_alg».proof.Defs
import proofs.«404422_j30666066493673_3_alg».proof.Proof.Gen.Pre_finite_inputs
import proofs.«404422_j30666066493673_3_alg».proof.Proof.KInp
import proofs.«404422_j30666066493673_3_alg».proof.Proof.Spec
import Idealize.ShloMosaic.Lib.ReduceAll
import Idealize.ShloMosaic.Lib.StableHlo.Predicate
import Idealize.ShloMosaic.Lib.ValueIdx

set_option maxRecDepth 16384

noncomputable section

namespace Cert.KernelIdeal.KV

open Idealize.ShloMosaic Idealize.ShloMosaic.TcCoe Idealize.SL.Sem Idealize.ShloMosaic.ValueIdx Cert.Gnn

namespace PreRead

open Cert.Pre_finite_inputs Cert.Pre_finite_inputs.Facts

/-- The shape of a scalar has one index. -/
local instance subsingleton_scalar_idx : Subsingleton S_.Idx := ⟨fun a b => funext fun d => d.elim0⟩

variable [Cert.Pre_finite_inputs.Facts]

/-- A conjunction over all entries of "the entry, read signed, is at least the scalar k" that came out true:
    every entry is at least k. -/
theorem all_sge (x : IVec S65536 32) (k : IVec S_ 32) (init : IVec S_ 1) (j : S_.Idx)
    (h : Host.reduce IntOp.andi (cmpi .sge x (broadcastInDim S65536 ![] bcast_S_S65536 k)) init
      reducesTo_S65536_S_d0 h_S_ j = 1#1) (i : S65536.Idx) : (k j).toInt ≤ (x i).toInt := by
  have e : IntOp.cmpi .sge (x i) (broadcastInDim S65536 ![] bcast_S_S65536 k i) = 1#1 :=
    Host.reduce_andi_all _ _ _ _ j h i
  rw [StableHlo.Predicate.bcast_scalar bcast_S_S65536 h_S_ k i, Subsingleton.elim (Shape.Idx.first h_S_) j] at e
  exact IntOp.cmpi_sge.1 e

/-- Likewise for "the entry, read signed, is below the scalar k". -/
theorem all_slt (x : IVec S65536 32) (k : IVec S_ 32) (init : IVec S_ 1) (j : S_.Idx)
    (h : Host.reduce IntOp.andi (cmpi .slt x (broadcastInDim S65536 ![] bcast_S_S65536 k)) init
      reducesTo_S65536_S_d0 h_S_ j = 1#1) (i : S65536.Idx) : (x i).toInt < (k j).toInt := by
  have e : IntOp.cmpi .slt (x i) (broadcastInDim S65536 ![] bcast_S_S65536 k i) = 1#1 :=
    Host.reduce_andi_all _ _ _ _ j h i
  rw [StableHlo.Predicate.bcast_scalar bcast_S_S65536 h_S_ k i, Subsingleton.elim (Shape.Idx.first h_S_) j] at e
  exact IntOp.cmpi_slt.1 e

/-- Every entry of a list of index words is in range. -/
def AllIn (x : IVec S65536 32) : Prop := ∀ i : S65536.Idx, InRange (x i)

variable {F : FTy → Type} [FloatOps F]

/-- The last part of the predicate is the conjunction of what came before with the two range tests of the
    second list (the lower bound being the scalar it is handed). -/
theorem part4_one (a3 : IVec S65536 32) (v66 : IVec S_ 1) (c26 : IVec S_ 32) (j : S_.Idx)
    (h : fn_part4 (F := F) a3 v66 c26 j = 1#1) :
    v66 j = 1#1 ∧ (∀ i : S65536.Idx, (c26 j).toInt ≤ (a3 i).toInt) ∧ ∀ i : S65536.Idx, (a3 i).toInt < 4096 := by
  unfold fn_part4 at h
  obtain ⟨h70, h73⟩ := IntOp.andi_eq_one.1 h
  obtain ⟨h66, h69⟩ := IntOp.andi_eq_one.1 h70
  refine ⟨h66, fun i => all_sge a3 c26 _ j h69 i, fun i => ?_⟩
  exact all_slt a3 (constantI S_ 32 4096#32) _ j h73 i

/-- The third part: its last four conjuncts are the range tests of the two lists. -/
theorem part3_one (a2 a3 : IVec S65536 32) (a13 : FVec F S128 .f32) (v48 : IVec S_ 1)
    (v49 v50 : FVec F S128x128 .f32) (j : S_.Idx)
    (h : fn_part3 (F := F) a2 a3 a13 v48 v49 v50 j = 1#1) : AllIn a2 ∧ AllIn a3 := by
  unfold fn_part3 at h
  obtain ⟨h66, h30, h31⟩ := part4_one (F := F) _ _ _ j h
  obtain ⟨h62, h65⟩ := IntOp.andi_eq_one.1 h66
  obtain ⟨h58, h61⟩ := IntOp.andi_eq_one.1 h62
  refine ⟨fun i => ⟨?_, ?_⟩, fun i => ⟨h30 i, h31 i⟩⟩
  · exact all_sge a2 (constantI S_ 32 0#32) _ j h61 i
  · exact all_slt a2 (constantI S_ 32 4096#32) _ j h65 i

theorem part2_one (a2 a3 : IVec S65536 32) (a9 : FVec F S128 .f32) (a10 : FVec F S128x128 .f32)
    (a11 : FVec F S128 .f32) (a12 : FVec F S128x128 .f32) (a13 : FVec F S128 .f32) (v33 : IVec S_ 1) (j : S_.Idx)
    (h : fn_part2 (F := F) a2 a3 a9 a10 a11 a12 a13 v33 j = 1#1) : AllIn a2 ∧ AllIn a3 := by
  unfold fn_part2 at h
  exact part3_one (F := F) _ _ _ _ _ _ j h

theorem part1_one (a2 a3 : IVec S65536 32) (a6 : FVec F S128x128 .f32) (a7 : FVec F S128 .f32)
    (a8 : FVec F S128x128 .f32) (a9 : FVec F S128 .f32) (a10 : FVec F S128x128 .f32) (a11 : FVec F S128 .f32)
    (a12 : FVec F S128x128 .f32) (a13 : FVec F S128 .f32) (v13 : IVec S_ 1) (v16 : IVec S128 1) (j : S_.Idx)
    (h : fn_part1 (F := F) a2 a3 a6 a7 a8 a9 a10 a11 a12 a13 v13 v16 j = 1#1) : AllIn a2 ∧ AllIn a3 := by
  unfold fn_part1 at h
  exact part2_one (F := F) _ _ _ _ _ _ _ _ j h

/-- The whole predicate true says, among the rest, that both index lists are in range. -/
theorem fn_one (a0 : FVec F S4x4096x128 .f32) (a1 : FVec F S4x65536x128 .f32) (a2 a3 : IVec S65536 32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (a12 : FVec F S128x128 .f32) (a13 : FVec F S128 .f32) (j : S_.Idx)
    (h : fn (F := F) a0 a1 a2 a3 a4 a5 a6 a7 a8 a9 a10 a11 a12 a13 j = 1#1) : AllIn a2 ∧ AllIn a3 := by
  unfold fn at h
  exact part1_one (F := F) _ _ _ _ _ _ _ _ _ _ _ _ j h

end PreRead

/-- Under the precondition the end-node indices of every edge are in range. -/
theorem ok_of_pre [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : (inp m c).Ok := by
  have h := congrFun (hpre c) ix0
  obtain ⟨hi, hj⟩ := PreRead.fn_one (F := Ideal) _ _ _ _ _ _ _ _ _ _ _ _ _ _ ix0 h
  exact ⟨fun e => hi (ix1 e), fun e => hj (ix1 e)⟩

end Cert.KernelIdeal.KV

end
-- ==== Proof.KBlocks.lean ====
/-
  What each window's block holds at grid point t = 128 · q + kv (batch q, edge tile kv), as elements of the argument
  arrays: the node block is batch q of the node features; the edge tile is rows 512 · kv … of batch q of the edge
  features; the two index tiles are entries 512 · kv … of the index lists; the fused table's two halves are the two
  destination weights (and biases), laid one after the other before the call; the other windows are whole arrays.
-/
import proofs.«404422_j30666066493673_3_alg».proof.Proof.Gen.KernelIdeal.Frame
import proofs.«404422_j30666066493673_3_alg».proof.Proof.KInp
import proofs.«404422_j30666066493673_3_alg».proof.Proof.Spec
import Idealize.ShloMosaic.Lib.Pipeline.Value
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx Cert.Gnn
open Idealize.ShloMosaic.Pipeline (Dat)
open scoped BigOperators

variable (m : (ℓ : Loc nD τ sig) → Buf (Elt Ideal) ℓ)

/-- The batch of grid point t. -/
def qOf (t : Fin cfg0.N) : Fin 4 := ⟨t.val / 128, by have := t.isLt; have hN : cfg0.N = 512 := N_0; omega⟩
/-- The edge tile of grid point t. -/
def kvOf (t : Fin cfg0.N) : Fin 128 := ⟨t.val % 128, Nat.mod_lt _ (by decide)⟩

/-- The blocks of the twelve input windows at point t, each at its literal type. -/
abbrev b0 (c : Dev nD) (t : Fin cfg0.N) : Vec Ideal S1x4096x128 .f32 := iblk m c 0 t
abbrev b1 (c : Dev nD) (t : Fin cfg0.N) : Vec Ideal S1x512x128 .f32 := iblk m c 1 t
abbrev b2 (c : Dev nD) (t : Fin cfg0.N) : Vec Ideal S1x512 .i32 := iblk m c 2 t
abbrev b3 (c : Dev nD) (t : Fin cfg0.N) : Vec Ideal S1x512 .i32 := iblk m c 3 t
abbrev b4 (c : Dev nD) (t : Fin cfg0.N) : Vec Ideal S128x128 .f32 := iblk m c 4 t
abbrev b5 (c : Dev nD) (t : Fin cfg0.N) : Vec Ideal S128 .f32 := iblk m c 5 t
abbrev b6 (c : Dev nD) (t : Fin cfg0.N) : Vec Ideal S256x128 .f32 := iblk m c 6 t
abbrev b7 (c : Dev nD) (t : Fin cfg0.N) : Vec Ideal S256 .f32 := iblk m c 7 t
abbrev b8 (c : Dev nD) (t : Fin cfg0.N) : Vec Ideal S128x128 .f32 := iblk m c 8 t
abbrev b9 (c : Dev nD) (t : Fin cfg0.N) : Vec Ideal S128 .f32 := iblk m c 9 t
abbrev b10 (c : Dev nD) (t : Fin cfg0.N) : Vec Ideal S128x128 .f32 := iblk m c 10 t
abbrev b11 (c : Dev nD) (t : Fin cfg0.N) : Vec Ideal S128 .f32 := iblk m c 11 t

/-! ## The index maps over the grid -/

/-- The node window sits at batch q on its first axis and at zero on the others. -/
theorem idx_node : ∀ t : Fin cfg0.N,
    win0_0.index t (0 : Fin 3) = t.val / 128 ∧ win0_0.index t (1 : Fin 3) = 0 ∧ win0_0.index t (2 : Fin 3) = 0 :=
  (by decide +kernel : ∀ t : Fin grid0.N, _)

/-- The edge window sits at batch q, edge tile kv, feature block zero. -/
theorem idx_edge : ∀ t : Fin cfg0.N,
    win0_1.index t (0 : Fin 3) = t.val / 128 ∧ win0_1.index t (1 : Fin 3) = t.val % 128 ∧ win0_1.index t (2 : Fin 3) = 0 :=
  (by decide +kernel : ∀ t : Fin grid0.N, _)

/-- The two index windows sit at row zero, tile kv. -/
theorem idx_iv : ∀ t : Fin cfg0.N,
    win0_2.index t (0 : Fin 2) = 0 ∧ win0_2.index t (1 : Fin 2) = t.val % 128 :=
  (by decide +kernel : ∀ t : Fin grid0.N, _)
theorem idx_jv : ∀ t : Fin cfg0.N,
    win0_3.index t (0 : Fin 2) = 0 ∧ win0_3.index t (1 : Fin 2) = t.val % 128 :=
  (by decide +kernel : ∀ t : Fin grid0.N, _)

/-- The weight and bias windows never move: block index zero on every axis. -/
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 1) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 1) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 1) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)
theorem idx_whole11 : ∀ t : Fin cfg0.N, win0_11.index t (0 : Fin 1) = 0 :=
  (by decide +kernel : ∀ t : Fin grid0.N, _)

/-! ## The arrays the host operations wrote before the call -/

/-- The first index list as a one-row table: the same entries in row-major order. -/
theorem V_iv (c : Dev nD) : (V m c main_v0 : S1x65536.Idx → BitVec 32)
    = shapeCast S1x65536 (m ((c : Thread nD τ).loc main_arg2) : S65536.Idx → BitVec 32) shapeCasts_S65536_S1x65536 := by
  dsimp only [V, hostOps0]; after_results; rfl

/-- The second index list as a one-row table. -/
theorem V_jv (c : Dev nD) : (V m c main_v1 : S1x65536.Idx → BitVec 32)
    = shapeCast S1x65536 (m ((c : Thread nD τ).loc main_arg3) : S65536.Idx → BitVec 32) shapeCasts_S65536_S1x65536 := by
  dsimp only [V, hostOps0]; after_results; rfl

/-- The fused destination table: the gate's weight rows, then the update's. -/
theorem V_Wd (c : Dev nD) : (V m c main_v2 : S256x128.Idx → EReal)
    = concatenate S256x128 0 [⟨S128x128, m ((c : Thread nD τ).loc main_arg6)⟩, ⟨S128x128, m ((c : Thread nD τ).loc main_arg12)⟩]
        concatenates_S128x128_S128x128_S256x128_d0 := by
  dsimp only [V, hostOps0]; after_results

/-- The fused destination bias: the gate's entries, then the update's. -/
theorem V_bd (c : Dev nD) : (V m c main_v3 : S256.Idx → EReal)
    = concatenate S256 0 [⟨S128, m ((c : Thread nD τ).loc main_arg7)⟩, ⟨S128, m ((c : Thread nD τ).loc main_arg13)⟩]
        concatenates_S128_S128_S256_d0 := by
  dsimp only [V, hostOps0]; after_results

/-! ## The tiled windows -/

theorem b0_at (c : Dev nD) (t : Fin cfg0.N) (n : Fin 4096) (k : Fin 128) :
    b0 m c t (ix3 0 n k) = (inp m c).nf (ix3 (qOf t) n k) := by
  have hi := idx_node t
  unfold b0 iblk
  rw [View.read_apply]
  show V m c main_arg0 _ = m ((c : Thread nD τ).loc main_arg0) (ix3 (qOf t) n k)
  rw [V_main_arg0]
  congr 1
  funext a
  apply Fin.ext
  match a with
  | ⟨0, _⟩ => show win0_0.index t (0 : Fin 3) * 1 + 1 * 0 = t.val / 128; rw [hi.1]; omega
  | ⟨1, _⟩ => show win0_0.index t (1 : Fin 3) * 4096 + 1 * n.val = n.val; rw [hi.2.1]; omega
  | ⟨2, _⟩ => show win0_0.index t (2 : Fin 3) * 128 + 1 * k.val = k.val; rw [hi.2.2]; omega

theorem b1_at (c : Dev nD) (t : Fin cfg0.N) (r : Fin 512) (k : Fin 128) :
    b1 m c t (ix3 0 r k) = (inp m c).ef (ix3 (qOf t) (edgeOf (kvOf t) r) k) := by
  have hi := idx_edge t
  unfold b1 iblk
  rw [View.read_apply]
  show V m c main_arg1 _ = m ((c : Thread nD τ).loc main_arg1) (ix3 (qOf t) (edgeOf (kvOf t) r) k)
  rw [V_main_arg1]
  congr 1
  funext a
  apply Fin.ext
  match a with
  | ⟨0, _⟩ => show win0_1.index t (0 : Fin 3) * 1 + 1 * 0 = t.val / 128; rw [hi.1]; omega
  | ⟨1, _⟩ => show win0_1.index t (1 : Fin 3) * 512 + 1 * r.val = 512 * (t.val % 128) + r.val; rw [hi.2.1]; omega
  | ⟨2, _⟩ => show win0_1.index t (2 : Fin 3) * 128 + 1 * k.val = k.val; rw [hi.2.2]; omega

theorem b2_at (c : Dev nD) (t : Fin cfg0.N) (r : Fin 512) :
    b2 m c t (ix2 0 r) = (inp m c).iv (ix1 (edgeOf (kvOf t) r)) := by
  have hi := idx_iv t
  unfold b2 iblk
  rw [View.read_apply]
  show (V m c main_v0 : S1x65536.Idx → BitVec 32) _ = m ((c : Thread nD τ).loc main_arg2) (ix1 (edgeOf (kvOf t) r))
  refine (congrFun (V_iv m c) _).trans ?_
  refine shapeCast_apply _ _ _ (ix1 (edgeOf (kvOf t) r)) ?_
  refine (Shape.rowMajor_val_one _).trans ?_
  refine Eq.trans ?_ (Shape.rowMajor_val_two _).symm
  show 512 * (t.val % 128) + r.val
    = (win0_2.index t (0 : Fin 2) * 1 + 1 * 0) * 65536 + (win0_2.index t (1 : Fin 2) * 512 + 1 * r.val)
  rw [hi.1, hi.2]; omega

theorem b3_at (c : Dev nD) (t : Fin cfg0.N) (r : Fin 512) :
    b3 m c t (ix2 0 r) = (inp m c).jv (ix1 (edgeOf (kvOf t) r)) := by
  have hi := idx_jv t
  unfold b3 iblk
  rw [View.read_apply]
  show (V m c main_v1 : S1x65536.Idx → BitVec 32) _ = m ((c : Thread nD τ).loc main_arg3) (ix1 (edgeOf (kvOf t) r))
  refine (congrFun (V_jv m c) _).trans ?_
  refine shapeCast_apply _ _ _ (ix1 (edgeOf (kvOf t) r)) ?_
  refine (Shape.rowMajor_val_one _).trans ?_
  refine Eq.trans ?_ (Shape.rowMajor_val_two _).symm
  show 512 * (t.val % 128) + r.val
    = (win0_3.index t (0 : Fin 2) * 1 + 1 * 0) * 65536 + (win0_3.index t (1 : Fin 2) * 512 + 1 * r.val)
  rw [hi.1, hi.2]; omega

/-! ## The windows that hold a whole array -/

theorem b4_eq (c : Dev nD) (t : Fin cfg0.N) : b4 m c t = (inp m c).Wsg := by
  funext j
  unfold b4 iblk
  rw [View.read_apply]
  show V m c main_arg4 _ = m ((c : Thread nD τ).loc main_arg4) j
  rw [V_main_arg4]
  congr 1
  funext a
  apply Fin.ext
  match a with
  | ⟨0, _⟩ => show win0_4.index t (0 : Fin 2) * 128 + 1 * (j 0).val = (j 0).val; rw [(idx_whole4 t).1]; omega
  | ⟨1, _⟩ => show win0_4.index t (1 : Fin 2) * 128 + 1 * (j 1).val = (j 1).val; rw [(idx_whole4 t).2]; omega

theorem b5_eq (c : Dev nD) (t : Fin cfg0.N) : b5 m c t = (inp m c).bsg := by
  funext j
  unfold b5 iblk
  rw [View.read_apply]
  show V m c main_arg5 _ = m ((c : Thread nD τ).loc main_arg5) j
  rw [V_main_arg5]
  congr 1
  funext a
  apply Fin.ext
  match a with
  | ⟨0, _⟩ => show win0_5.index t (0 : Fin 1) * 128 + 1 * (j 0).val = (j 0).val; rw [(idx_whole5 t)]; omega

/-- The fused table's window holds the whole fused table. -/
theorem b6_whole (c : Dev nD) (t : Fin cfg0.N) : b6 m c t = (V m c main_v2 : S256x128.Idx → EReal) := by
  funext j
  unfold b6 iblk
  rw [View.read_apply]
  show V m c main_v2 _ = V m c main_v2 j
  congr 1
  funext a
  apply Fin.ext
  match a with
  | ⟨0, _⟩ => show win0_6.index t (0 : Fin 2) * 256 + 1 * (j 0).val = (j 0).val; rw [(idx_whole6 t).1]; omega
  | ⟨1, _⟩ => show win0_6.index t (1 : Fin 2) * 128 + 1 * (j 1).val = (j 1).val; rw [(idx_whole6 t).2]; omega

/-- The fused bias's window holds the whole fused bias. -/
theorem b7_whole (c : Dev nD) (t : Fin cfg0.N) : b7 m c t = (V m c main_v3 : S256.Idx → EReal) := by
  funext j
  unfold b7 iblk
  rw [View.read_apply]
  show V m c main_v3 _ = V m c main_v3 j
  congr 1
  funext a
  apply Fin.ext
  match a with
  | ⟨0, _⟩ => show win0_7.index t (0 : Fin 1) * 256 + 1 * (j 0).val = (j 0).val; rw [(idx_whole7 t)]; omega

theorem b6_lo (c : Dev nD) (t : Fin cfg0.N) (f k : Fin 128) :
    b6 m c t (ix2 ⟨f.val, by have := f.isLt; omega⟩ k) = (inp m c).Wdg (ix2 f k) := by
  show _ = m ((c : Thread nD τ).loc main_arg6) (ix2 f k)
  refine (congrFun (b6_whole m c t) _).trans ?_
  refine (congrFun (V_Wd m c) _).trans ?_
  exact concatenate_pair_apply_left (t := S256x128) (s₁ := S128x128) (s₂ := S128x128) (0 : Fin 2)
    (m ((c : Thread nD τ).loc main_arg6)) (m ((c : Thread nD τ).loc main_arg12)) concatenates_S128x128_S128x128_S256x128_d0
    (ix2 ⟨f.val, by have := f.isLt; omega⟩ k) rfl (ix2 f k)
    (fun b => match b with | ⟨0, _⟩ => rfl | ⟨1, _⟩ => rfl)

theorem b6_hi (c : Dev nD) (t : Fin cfg0.N) (f k : Fin 128) :
    b6 m c t (ix2 ⟨f.val + 128, by have := f.isLt; omega⟩ k) = (inp m c).Wdu (ix2 f k) := by
  show _ = m ((c : Thread nD τ).loc main_arg12) (ix2 f k)
  refine (congrFun (b6_whole m c t) _).trans ?_
  refine (congrFun (V_Wd m c) _).trans ?_
  exact concatenate_pair_apply_right (t := S256x128) (s₁ := S128x128) (s₂ := S128x128) (0 : Fin 2)
    (m ((c : Thread nD τ).loc main_arg6)) (m ((c : Thread nD τ).loc main_arg12)) concatenates_S128x128_S128x128_S256x128_d0
    (ix2 ⟨f.val + 128, by have := f.isLt; omega⟩ k) rfl rfl (ix2 f k)
    (fun b => match b with | ⟨0, _⟩ => fun h => absurd rfl h | ⟨1, _⟩ => fun _ => rfl) rfl

theorem b7_lo (c : Dev nD) (t : Fin cfg0.N) (f : Fin 128) :
    b7 m c t (ix1 ⟨f.val, by have := f.isLt; omega⟩) = (inp m c).bdg (ix1 f) := by
  show _ = m ((c : Thread nD τ).loc main_arg7) (ix1 f)
  refine (congrFun (b7_whole m c t) _).trans ?_
  refine (congrFun (V_bd m c) _).trans ?_
  exact concatenate_pair_apply_left (t := S256) (s₁ := S128) (s₂ := S128) (0 : Fin 1)
    (m ((c : Thread nD τ).loc main_arg7)) (m ((c : Thread nD τ).loc main_arg13)) concatenates_S128_S128_S256_d0
    (ix1 ⟨f.val, by have := f.isLt; omega⟩) rfl (ix1 f)
    (fun b => match b with | ⟨0, _⟩ => rfl)

theorem b7_hi (c : Dev nD) (t : Fin cfg0.N) (f : Fin 128) :
    b7 m c t (ix1 ⟨f.val + 128, by have := f.isLt; omega⟩) = (inp m c).bdu (ix1 f) := by
  show _ = m ((c : Thread nD τ).loc main_arg13) (ix1 f)
  refine (congrFun (b7_whole m c t) _).trans ?_
  refine (congrFun (V_bd m c) _).trans ?_
  exact concatenate_pair_apply_right (t := S256) (s₁ := S128) (s₂ := S128) (0 : Fin 1)
    (m ((c : Thread nD τ).loc main_arg7)) (m ((c : Thread nD τ).loc main_arg13)) concatenates_S128_S128_S256_d0
    (ix1 ⟨f.val + 128, by have := f.isLt; omega⟩) rfl rfl (ix1 f)
    (fun b => match b with | ⟨0, _⟩ => fun h => absurd rfl h) rfl

theorem b8_eq (c : Dev nD) (t : Fin cfg0.N) : b8 m c t = (inp m c).Weg := by
  funext j
  unfold b8 iblk
  rw [View.read_apply]
  show V m c main_arg8 _ = m ((c : Thread nD τ).loc main_arg8) j
  rw [V_main_arg8]
  congr 1
  funext a
  apply Fin.ext
  match a with
  | ⟨0, _⟩ => show win0_8.index t (0 : Fin 2) * 128 + 1 * (j 0).val = (j 0).val; rw [(idx_whole8 t).1]; omega
  | ⟨1, _⟩ => show win0_8.index t (1 : Fin 2) * 128 + 1 * (j 1).val = (j 1).val; rw [(idx_whole8 t).2]; omega

theorem b9_eq (c : Dev nD) (t : Fin cfg0.N) : b9 m c t = (inp m c).beg := by
  funext j
  unfold b9 iblk
  rw [View.read_apply]
  show V m c main_arg9 _ = m ((c : Thread nD τ).loc main_arg9) j
  rw [V_main_arg9]
  congr 1
  funext a
  apply Fin.ext
  match a with
  | ⟨0, _⟩ => show win0_9.index t (0 : Fin 1) * 128 + 1 * (j 0).val = (j 0).val; rw [(idx_whole9 t)]; omega

theorem b10_eq (c : Dev nD) (t : Fin cfg0.N) : b10 m c t = (inp m c).Wsu := by
  funext j
  unfold b10 iblk
  rw [View.read_apply]
  show V m c main_arg10 _ = m ((c : Thread nD τ).loc main_arg10) j
  rw [V_main_arg10]
  congr 1
  funext a
  apply Fin.ext
  match a with
  | ⟨0, _⟩ => show win0_10.index t (0 : Fin 2) * 128 + 1 * (j 0).val = (j 0).val; rw [(idx_whole10 t).1]; omega
  | ⟨1, _⟩ => show win0_10.index t (1 : Fin 2) * 128 + 1 * (j 1).val = (j 1).val; rw [(idx_whole10 t).2]; omega

theorem b11_eq (c : Dev nD) (t : Fin cfg0.N) : b11 m c t = (inp m c).bsu := by
  funext j
  unfold b11 iblk
  rw [View.read_apply]
  show V m c main_arg11 _ = m ((c : Thread nD τ).loc main_arg11) j
  rw [V_main_arg11]
  congr 1
  funext a
  apply Fin.ext
  match a with
  | ⟨0, _⟩ => show win0_11.index t (0 : Fin 1) * 128 + 1 * (j 0).val = (j 0).val; rw [(idx_whole11 t)]; omega

end Cert.KernelIdeal.KV

end
-- ==== Proof.KInvDef.lean ====
/-
  What the two projection tables, the accumulator and the two output blocks hold after grid point n = 128 · q + kv:
  the tables are batch q's projections, the accumulator is the sum over the tiles 0 … kv of the edges' contributions
  to each node, the edge block is the edge result of tile kv, and, at kv = 127, the node block is batch q's node result.
-/
import proofs.«404422_j30666066493673_3_alg».proof.Proof.Gen.KernelIdeal.Frame
import proofs.«404422_j30666066493673_3_alg».proof.Proof.KBlocks
import proofs.«404422_j30666066493673_3_alg».proof.Proof.Spec

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx Cert.Gnn
open Idealize.ShloMosaic.Pipeline (Dat)
open scoped BigOperators

variable (m : (ℓ : Loc nD τ sig) → Buf (Elt Ideal) ℓ)

/-- The state after grid point n, as the specification's values. -/
def Inv (c : Dev nD) (n : ℕ) (h : n < cfg0.N) : Prop :=
  (∀ (p : Fin 4096) (f : Fin 128), (outsAt0 m c n h).2.2.1 (ix2 p f) = linN (inp m c).nf (inp m c).Wsg (inp m c).bsg (qOf ⟨n, h⟩) p f)
  ∧ (∀ (p : Fin 4096) (f : Fin 128), (outsAt0 m c n h).2.2.2.1 (ix2 p ⟨f.val, by have := f.isLt; omega⟩)
      = linN (inp m c).nf (inp m c).Wdg (inp m c).bdg (qOf ⟨n, h⟩) p f)
  ∧ (∀ (p : Fin 4096) (f : Fin 128), (outsAt0 m c n h).2.2.2.1 (ix2 p ⟨f.val + 128, by have := f.isLt; omega⟩)
      = linN (inp m c).nf (inp m c).Wdu (inp m c).bdu (qOf ⟨n, h⟩) p f)
  ∧ (∀ (p : Fin 4096) (f : Fin 128), (outsAt0 m c n h).2.2.2.2 (ix2 p ⟨f.val, by have := f.isLt; omega⟩)
      = tilesUpTo (fun e => if (inp m c).src e = p then (inp m c).msg (qOf ⟨n, h⟩) e f else 0) (n % 128 + 1))
  ∧ (∀ (p : Fin 4096) (f : Fin 128), (outsAt0 m c n h).2.2.2.2 (ix2 p ⟨f.val + 128, by have := f.isLt; omega⟩)
      = tilesUpTo (fun e => if (inp m c).src e = p then (inp m c).sg (qOf ⟨n, h⟩) e f else 0) (n % 128 + 1))
  ∧ (∀ (r : Fin 512) (f : Fin 128), (outsAt0 m c n h).2.1 (ix3 0 r f) = (inp m c).yAt (qOf ⟨n, h⟩) (edgeOf (kvOf ⟨n, h⟩) r) f)
  ∧ (n % 128 = 127 → ∀ (p : Fin 4096) (f : Fin 128), (outsAt0 m c n h).1 (ix3 0 p f) = (inp m c).xAt (qOf ⟨n, h⟩) p f)

end Cert.KernelIdeal.KV

end
-- ==== Proof.KPieces.lean ====
/-
  What each of the three control cases of the kernel body leaves behind, as the body's own arithmetic.
  Case A is the first edge tile of a batch (it also writes the two projection tables and clears the accumulator),
  case B a middle tile, case C the last tile (it also writes the node result). Each lemma says that what the case
  leaves in a buffer is one payload of the body applied to the blocks the case was given — the projection
  tables and the accumulator of the tile before, for B and C.
-/
import proofs.«404422_j30666066493673_3_alg».proof.Proof.Gen.KernelIdeal.Frame
import Idealize.ShloMosaic.Lib.ValueIdx
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.ShloMosaic.Tactic Idealize.ShloMosaic.ValueIdx

variable {F : FTy → Type} [FloatOps F]

/-- Columns 0 … 127 of an accumulator of 256 columns: the gated messages' sums. -/
def accLo (a : Vec F S4096x256 .f32) : Vec F S4096x128 .f32 :=
  fun j => a (ix2 (j 0) ⟨(j 1).val, by have := idx2_lt1 j; omega⟩)
/-- Columns 128 … 255: the gates' sums. -/
def accHi (a : Vec F S4096x256 .f32) : Vec F S4096x128 .f32 :=
  fun j => a (ix2 (j 0) ⟨(j 1).val + 128, by have := idx2_lt1 j; omega⟩)

/-- The zero offsets of a rank-1, rank-2 and rank-3 whole-buffer access, as constant functions. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of columns 0 … 127 of a buffer that one whole store has just filled reads the low half of what was stored. -/
theorem readCov_accLo {sg : RefSig} {κ : Kind} {sp : Space} (v : View sg κ sp S4096x256 .f32) (inbW) (inbL)
    (w : Vec F S4096x256 .f32) :
    v.readCov [(⟨Rect.unit ![0, 0] ![4096, 256] inbW, w⟩ : View.Piece (Elt F) S4096x256 .f32)]
      (Rect.unit ![0, 0] ![4096, 128] inbL).toLoadRect = accLo w := by
  rw [View.readCov_eq_canon', View.canon_unit_zero (S := S4096x256) hz2]
  funext j
  show w _ = w _
  congr 1
  funext a
  apply Fin.ext
  match a with
  | ⟨0, _⟩ => show 0 + 1 * (j 0).val = (j 0).val; omega
  | ⟨1, _⟩ => show 0 + 1 * (j 1).val = (j 1).val; omega

/-- A load of columns 128 … 255 of it reads the high half. -/
theorem readCov_accHi {sg : RefSig} {κ : Kind} {sp : Space} (v : View sg κ sp S4096x256 .f32) (inbW) (inbL)
    (w : Vec F S4096x256 .f32) :
    v.readCov [(⟨Rect.unit ![0, 0] ![4096, 256] inbW, w⟩ : View.Piece (Elt F) S4096x256 .f32)]
      (Rect.unit ![0, 128] ![4096, 128] inbL).toLoadRect = accHi w := by
  rw [View.readCov_eq_canon', View.canon_unit_zero (S := S4096x256) hz2]
  funext j
  show w _ = w _
  congr 1
  funext a
  apply Fin.ext
  match a with
  | ⟨0, _⟩ => show 0 + 1 * (j 0).val = (j 0).val; omega
  | ⟨1, _⟩ => show 128 + 1 * (j 1).val = (j 1).val + 128; omega

/-- Case A leaves the source-gate projection table. -/
theorem sout_A_0 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : cond0_0 i) (hc1 : ¬cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 = k0_pay6 x0 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  sl_unfold_words
  rw [View.canon_unit_zero (S := S4096x128) hz2]
  simp only [View.readAt_eq_ld, harg2.read_unread, harg6.read_unread, harg7.read_unread,
    View.ld_unit_zero (S := S1x4096x128) hz3, View.ld_unit_zero (S := S128x128) hz2, View.ld_unit_zero (S := S128) hz1]

/-- Case A leaves the fused destination-gate and destination-update projection table. -/
theorem sout_A_1 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : cond0_0 i) (hc1 : ¬cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 = k0_pay7 x0 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  sl_unfold_words
  rw [View.canon_unit_zero (S := S4096x256) hz2]
  simp only [View.readAt_eq_ld, harg2.read_unread, harg8.read_unread, harg9.read_unread,
    View.ld_unit_zero (S := S1x4096x128) hz3, View.ld_unit_zero (S := S256x128) hz2, View.ld_unit_zero (S := S256) hz1]

/-- Case A leaves the cleared accumulator plus the first tile's contribution. -/
theorem sout_A_2 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : cond0_0 i) (hc1 : ¬cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11
      = k0_pay2 (k0_pay9 x2) (k0_pay10 x2 (k0_pay6 x0 x4 x5)) (k0_pay12 x3 (k0_pay7 x0 x6 x7)) (k0_pay13 x3 (k0_pay7 x0 x6 x7)) (k0_pay15 x1 x8) (k0_pay16 x9) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  sl_unfold_words
  rw [View.canon_cons_unit_zero (S := S4096x256) hz2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x4096x128) hz3, View.ld_unit_zero (S := S1x512x128) hz3, View.ld_unit_zero (S := S1x512) hz2, View.ld_unit_zero (S := S128x128) hz2, View.ld_unit_zero (S := S256x128) hz2, View.ld_unit_zero (S := S128) hz1, View.ld_unit_zero (S := S256) hz1,
    View.readCov_unit_zero (S := S4096x128) _ hz2, View.readCov_unit_zero (S := S4096x256) _ hz2]

/-- Case A leaves the first tile's edge result. -/
theorem out_A_13 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : cond0_0 i) (hc1 : ¬cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11
      = k0_pay3 (k0_pay10 x2 (k0_pay6 x0 x4 x5)) (k0_pay12 x3 (k0_pay7 x0 x6 x7)) (k0_pay14 x1) (k0_pay15 x1 x8) (k0_pay16 x9) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  unfold kernelRun0_A
  dsimp only
  sl_unfold_words
  rw [View.canon_unit_zero (S := S1x512x128) hz3]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S1x4096x128) hz3, View.ld_unit_zero (S := S1x512x128) hz3, View.ld_unit_zero (S := S1x512) hz2, View.ld_unit_zero (S := S128x128) hz2, View.ld_unit_zero (S := S256x128) hz2, View.ld_unit_zero (S := S128) hz1, View.ld_unit_zero (S := S256) hz1,
    View.readCov_unit_zero (S := S4096x128) _ hz2, View.readCov_unit_zero (S := S4096x256) _ hz2]

/-- Case B leaves the accumulator of the tile before plus this tile's contribution. -/
theorem sout_B_2 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : ¬cond0_0 i) (hc1 : ¬cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) (xs0 : Vec F S4096x128 .bf16) (xs1 : Vec F S4096x256 .bf16) (xs2 : Vec F S4096x256 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2 = k0_pay2 (k0_pay9 x2) (k0_pay10 x2 xs0) (k0_pay12 x3 xs1) (k0_pay13 x3 xs1) (k0_pay15 x1 x8) (k0_pay16 x9) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun0_B
  dsimp only
  sl_unfold_words
  rw [View.canon_unit_zero (S := S4096x256) hz2]
  simp only [View.readAt_eq_ld, harg3.read_unread, harg4.read_unread, harg5.read_unread, harg10.read_unread, harg11.read_unread, harg16.read_unread, harg17.read_unread, harg18.read_unread,
    View.ld_unit_zero (S := S1x512) hz2, View.ld_unit_zero (S := S4096x128) hz2, View.ld_unit_zero (S := S4096x256) hz2, View.ld_unit_zero (S := S1x512x128) hz3, View.ld_unit_zero (S := S128x128) hz2, View.ld_unit_zero (S := S128) hz1]

/-- Case B leaves this tile's edge result. -/
theorem out_B_13 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : ¬cond0_0 i) (hc1 : ¬cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) (xs0 : Vec F S4096x128 .bf16) (xs1 : Vec F S4096x256 .bf16) (xs2 : Vec F S4096x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2 = k0_pay3 (k0_pay10 x2 xs0) (k0_pay12 x3 xs1) (k0_pay14 x1) (k0_pay15 x1 x8) (k0_pay16 x9) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun0_B
  dsimp only
  sl_unfold_words
  rw [View.canon_unit_zero (S := S1x512x128) hz3]
  simp only [View.readAt_eq_ld, harg3.read_unread, harg4.read_unread, harg5.read_unread, harg10.read_unread, harg11.read_unread, harg16.read_unread, harg17.read_unread,
    View.ld_unit_zero (S := S1x512) hz2, View.ld_unit_zero (S := S4096x128) hz2, View.ld_unit_zero (S := S4096x256) hz2, View.ld_unit_zero (S := S1x512x128) hz3, View.ld_unit_zero (S := S128x128) hz2, View.ld_unit_zero (S := S128) hz1]

/-- Case C leaves the accumulator of the tile before plus this tile's contribution. -/
theorem sout_C_2 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : ¬cond0_0 i) (hc1 : cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) (xs0 : Vec F S4096x128 .bf16) (xs1 : Vec F S4096x256 .bf16) (xs2 : Vec F S4096x256 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2 = k0_pay2 (k0_pay9 x2) (k0_pay10 x2 xs0) (k0_pay12 x3 xs1) (k0_pay13 x3 xs1) (k0_pay15 x1 x8) (k0_pay16 x9) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun0_C
  dsimp only
  sl_unfold_words
  rw [View.canon_unit_zero (S := S4096x256) hz2]
  simp only [View.readAt_eq_ld, harg3.read_unread, harg4.read_unread, harg5.read_unread, harg10.read_unread, harg11.read_unread, harg16.read_unread, harg17.read_unread, harg18.read_unread,
    View.ld_unit_zero (S := S1x512) hz2, View.ld_unit_zero (S := S4096x128) hz2, View.ld_unit_zero (S := S4096x256) hz2, View.ld_unit_zero (S := S1x512x128) hz3, View.ld_unit_zero (S := S128x128) hz2, View.ld_unit_zero (S := S128) hz1]

/-- Case C leaves this tile's edge result. -/
theorem out_C_13 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : ¬cond0_0 i) (hc1 : cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) (xs0 : Vec F S4096x128 .bf16) (xs1 : Vec F S4096x256 .bf16) (xs2 : Vec F S4096x256 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2 = k0_pay3 (k0_pay10 x2 xs0) (k0_pay12 x3 xs1) (k0_pay14 x1) (k0_pay15 x1 x8) (k0_pay16 x9) := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun0_C
  dsimp only
  sl_unfold_words
  rw [View.canon_unit_zero (S := S1x512x128) hz3]
  simp only [View.readAt_eq_ld, harg3.read_unread, harg4.read_unread, harg5.read_unread, harg10.read_unread, harg11.read_unread, harg16.read_unread, harg17.read_unread,
    View.ld_unit_zero (S := S1x512) hz2, View.ld_unit_zero (S := S4096x128) hz2, View.ld_unit_zero (S := S4096x256) hz2, View.ld_unit_zero (S := S1x512x128) hz3, View.ld_unit_zero (S := S128x128) hz2, View.ld_unit_zero (S := S128) hz1]

/-- Case C leaves the node result, computed from the two halves of the finished accumulator. -/
theorem out_C_12 (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S128x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S256 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x4096x128 .f32) (harg14 : arg14.IsWhole) (arg15 : Memref sig .tc .vmem S1x512x128 .f32) (harg15 : arg15.IsWhole) (arg16 : Memref sig .tc .vmem S4096x128 .bf16) (harg16 : arg16.IsWhole) (arg17 : Memref sig .tc .vmem S4096x256 .bf16) (harg17 : arg17.IsWhole) (arg18 : Memref sig .tc .vmem S4096x256 .f32) (harg18 : arg18.IsWhole) (hc0 : ¬cond0_0 i) (hc1 : cond0_1 i)
    (x0 : Vec F S1x4096x128 .f32) (x1 : Vec F S1x512x128 .f32) (x2 : Vec F S1x512 .i32) (x3 : Vec F S1x512 .i32) (x4 : Vec F S128x128 .f32) (x5 : Vec F S128 .f32) (x6 : Vec F S256x128 .f32) (x7 : Vec F S256 .f32) (x8 : Vec F S128x128 .f32) (x9 : Vec F S128 .f32) (x10 : Vec F S128x128 .f32) (x11 : Vec F S128 .f32) (xs0 : Vec F S4096x128 .bf16) (xs1 : Vec F S4096x256 .bf16) (xs2 : Vec F S4096x256 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2 = k0_pay4 (accLo (k0_pay2 (k0_pay9 x2) (k0_pay10 x2 xs0) (k0_pay12 x3 xs1) (k0_pay13 x3 xs1) (k0_pay15 x1 x8) (k0_pay16 x9) xs2)) (accHi (k0_pay2 (k0_pay9 x2) (k0_pay10 x2 xs0) (k0_pay12 x3 xs1) (k0_pay13 x3 xs1) (k0_pay15 x1 x8) (k0_pay16 x9) xs2)) x0 x10 x11 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0 xs1 xs2)]
  unfold kernelRun0_C
  dsimp only
  sl_unfold_words
  rw [View.canon_unit_zero (S := S1x4096x128) hz3]
  simp only [View.readAt_eq_ld, harg2.read_unread, harg3.read_unread, harg4.read_unread, harg5.read_unread, harg10.read_unread, harg11.read_unread, harg16.read_unread, harg17.read_unread, harg12.read_unread, harg13.read_unread, harg18.read_unread,
    View.ld_unit_zero (S := S1x4096x128) hz3, View.ld_unit_zero (S := S1x512) hz2, View.ld_unit_zero (S := S4096x128) hz2, View.ld_unit_zero (S := S4096x256) hz2, View.ld_unit_zero (S := S1x512x128) hz3, View.ld_unit_zero (S := S128x128) hz2, View.ld_unit_zero (S := S128) hz1,
    readCov_accLo, readCov_accHi]

end Cert.KernelIdeal.KV

end
-- ==== Proof.KPayA.lean ====
/-
  The body's matrix products and pointwise arithmetic read at one element, over the extended reals: each
  projection is a row of the block times a row of the weight plus the bias; the node result is the block plus
  z · logistic z with z the update projection plus the quotient of the two accumulated sums.
-/
import proofs.«404422_j30666066493673_3_alg».proof.Proof.Gen.KernelIdeal.Skeleton
import proofs.«404422_j30666066493673_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.ValueIdx Cert.Gnn
open scoped BigOperators

/-! ## Layout operations of the body at explicit coordinates -/

/-- Dropping the leading unit axis of a [1, R, C] block: element (r, c) is the block's (0, r, c). -/
private theorem dropUnit_at {R C : Nat} (x : (⟨3, ![1, R, C]⟩ : Shape).Idx → EReal)
    (h : (⟨3, ![1, R, C]⟩ : Shape).ShapeCasts ⟨2, ![R, C]⟩) (r : Fin R) (c : Fin C) :
    shapeCast ⟨2, ![R, C]⟩ x h (ix2 r c) = x (ix3 0 r c) := by
  refine (shapeCast_dropUnit_apply ![R, C] x h (ix2 r c)).trans (congrArg x ?_)
  funext a
  match a with
  | ⟨0, _⟩ => rfl
  | ⟨1, _⟩ => rfl
  | ⟨2, _⟩ => rfl

/-- A [C] vector cast to [1, C] and spread over R rows reads its entry c at every (r, c). -/
private theorem biasRow_at {R C : Nat} (hC : C ≠ 1) (b : (⟨1, ![C]⟩ : Shape).Idx → EReal)
    (h1 : (⟨1, ![C]⟩ : Shape).ShapeCasts ⟨2, ![1, C]⟩) (h2 : (⟨2, ![1, C]⟩ : Shape).Broadcasts ⟨2, ![R, C]⟩)
    (r : Fin R) (c : Fin C) :
    broadcastTo ⟨2, ![R, C]⟩ (shapeCast ⟨2, ![1, C]⟩ b h1) h2 (ix2 r c) = b (ix1 c) := by
  refine (broadcastTo_apply _ h2 (ix2 r c) (ix2 0 c) (fun a => ?_)).trans ?_
  · match a with
    | ⟨0, _⟩ => exact (if_pos rfl).symm
    | ⟨1, _⟩ => exact (if_neg hC).symm
  · refine (shapeCast_addUnit_apply ![C] b h1 (ix2 0 c)).trans (congrArg b ?_)
    funext a
    match a with
    | ⟨0, _⟩ => rfl

/-- Adding a leading unit axis to an [R, C] matrix: the block's (0, r, c) is the matrix's (r, c). -/
private theorem addUnit_at {R C : Nat} (x : (⟨2, ![R, C]⟩ : Shape).Idx → EReal)
    (h : (⟨2, ![R, C]⟩ : Shape).ShapeCasts ⟨3, ![1, R, C]⟩) (r : Fin R) (c : Fin C) :
    shapeCast ⟨3, ![1, R, C]⟩ x h (ix3 0 r c) = x (ix2 r c) := by
  refine (shapeCast_addUnit_apply ![R, C] x h (ix3 0 r c)).trans (congrArg x ?_)
  funext a
  match a with
  | ⟨0, _⟩ => rfl
  | ⟨1, _⟩ => rfl

/-- A transposed matrix at (k, f) is the matrix at (f, k). -/
private theorem transpose_at {α : Type} {A B : Nat} (x : (⟨2, ![A, B]⟩ : Shape).Idx → α)
    (h : (⟨2, ![A, B]⟩ : Shape).Transposes [1, 0] ⟨2, ![B, A]⟩) (k : Fin B) (f : Fin A) :
    transpose ⟨2, ![B, A]⟩ [1, 0] x h (ix2 k f) = x (ix2 f k) :=
  transpose_apply [1, 0] x h (ix2 k f) (ix2 f k) (fun b => match b with | ⟨0, _⟩ => rfl | ⟨1, _⟩ => rfl)

/-! ## The three matrix products read at an element -/

private theorem dA_lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
private theorem dA_lhs1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
private theorem dA_rhs0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
private theorem dA_rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into a zero accumulator at (r, c): the sum over k of the left operand at (r, k) times the right at (k, c). -/
private theorem dA_matmul_at {φ₁ φ₂ : FTy} (l : FVec Ideal S4096x128 φ₁) (w : FVec Ideal S128x128 φ₂) (r : Fin 4096) (c : Fin 128) :
    matmul dot_S4096x128_S128x128_S4096x128_1_0_0_1_n_n none l w (constant S4096x128 .f32 0x00000000#32) (ix2 r c)
      = ∑ k : Fin 128, l (ix2 r k) * w (ix2 k c) := by
  refine (Ideal.matmul_constant_zero_apply dot_S4096x128_S128x128_S4096x128_1_0_0_1_n_n none l w (ix2 r c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r c) ((contrEquiv1 dot_S4096x128_S128x128_S4096x128_1_0_0_1_n_n 128 rfl rfl).symm k) = ix2 r k := funext fun a => Fin.ext (by
    match a with
    | ⟨0, _⟩ => exact dA_lhs0 _ _
    | ⟨1, _⟩ => exact (dA_lhs1 _ _).trans hk)
  have er : dot_S4096x128_S128x128_S4096x128_1_0_0_1_n_n.rhsIdx (ix2 r c) ((contrEquiv1 dot_S4096x128_S128x128_S4096x128_1_0_0_1_n_n 128 rfl rfl).symm k) = ix2 k c := funext fun a => Fin.ext (by
    match a with
    | ⟨0, _⟩ => exact (dA_rhs0 _ _).trans hk
    | ⟨1, _⟩ => exact dA_rhs1 _ _)
  rw [el, er]

private theorem dB_lhs0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
private theorem dB_lhs1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
private theorem dB_rhs0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
private theorem dB_rhs1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The product into a zero accumulator at (r, c): the sum over k of the left operand at (r, k) times the right at (k, c). -/
private theorem dB_matmul_at {φ₁ φ₂ : FTy} (l : FVec Ideal S4096x128 φ₁) (w : FVec Ideal S128x256 φ₂) (r : Fin 4096) (c : Fin 256) :
    matmul dot_S4096x128_S128x256_S4096x256_1_0_0_1_n_n none l w (constant S4096x256 .f32 0x00000000#32) (ix2 r c)
      = ∑ k : Fin 128, l (ix2 r k) * w (ix2 k c) := by
  refine (Ideal.matmul_constant_zero_apply dot_S4096x128_S128x256_S4096x256_1_0_0_1_n_n none l w (ix2 r c)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r c) ((contrEquiv1 dot_S4096x128_S128x256_S4096x256_1_0_0_1_n_n 128 rfl rfl).symm k) = ix2 r k := funext fun a => Fin.ext (by
    match a with
    | ⟨0, _⟩ => exact dB_lhs0 _ _
    | ⟨1, _⟩ => exact (dB_lhs1 _ _).trans hk)
  have er : dot_S4096x128_S128x256_S4096x256_1_0_0_1_n_n.rhsIdx (ix2 r c) ((contrEquiv1 dot_S4096x128_S128x256_S4096x256_1_0_0_1_n_n 128 rfl rfl).symm k) = ix2 k c := funext fun a => Fin.ext (by
    match a with
    | ⟨0, _⟩ => exact (dB_rhs0 _ _).trans hk
    | ⟨1, _⟩ => exact dB_rhs1 _ _)
  rw [el, er]

private theorem dC_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
private theorem dC_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
private theorem dC_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
private theorem dC_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product into a zero accumulator at (r, c): the sum over k of the left operand at (r, k) times the right at (k, c). -/
private theorem dC_matmul_at {φ₁ φ₂ : FTy} (l : FVec Ideal S512x128 φ₁) (w : FVec Ideal S128x128 φ₂) (r : Fin 512) (c : Fin 128) :
    matmul dot_S512x128_S128x128_S512x128_1_0_0_1_n_n none l w (constant S512x128 .f32 0x00000000#32) (ix2 r c)
      = ∑ k : Fin 128, l (ix2 r k) * w (ix2 k c) := by
  refine (Ideal.matmul_constant_zero_apply dot_S512x128_S128x128_S512x128_1_0_0_1_n_n none l w (ix2 r c)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r c) ((contrEquiv1 dot_S512x128_S128x128_S512x128_1_0_0_1_n_n 128 rfl rfl).symm k) = ix2 r k := funext fun a => Fin.ext (by
    match a with
    | ⟨0, _⟩ => exact dC_lhs0 _ _
    | ⟨1, _⟩ => exact (dC_lhs1 _ _).trans hk)
  have er : dot_S512x128_S128x128_S512x128_1_0_0_1_n_n.rhsIdx (ix2 r c) ((contrEquiv1 dot_S512x128_S128x128_S512x128_1_0_0_1_n_n 128 rfl rfl).symm k) = ix2 k c := funext fun a => Fin.ext (by
    match a with
    | ⟨0, _⟩ => exact (dC_rhs0 _ _).trans hk
    | ⟨1, _⟩ => exact dC_rhs1 _ _)
  rw [el, er]

/-- A projection of the node block: row n of the block times row f of the weight, plus the bias. -/
private theorem projA_at (x0 : FVec Ideal S1x4096x128 .f32) (w : FVec Ideal S128x128 .f32) (b : FVec Ideal S128 .f32)
    (h1 : S1x4096x128.ShapeCasts S4096x128) (h2 : FTy.bits .bf16 < FTy.bits .f32) (h3 : S128x128.Transposes [1, 0] S128x128)
    (h4 : S128.ShapeCasts S1x128) (h5 : S1x128.Broadcasts S4096x128) (n : Fin 4096) (f : Fin 128) :
    matmul (F := Ideal) dot_S4096x128_S128x128_S4096x128_1_0_0_1_n_n none (truncf .bf16 (shapeCast S4096x128 x0 h1) h2)
        (transpose S128x128 [1, 0] (truncf .bf16 w h2) h3) (constant S4096x128 .f32 0x00000000#32) (ix2 n f)
      + broadcastTo S4096x128 (shapeCast S1x128 b h4) h5 (ix2 n f)
      = (∑ k : Fin 128, x0 (ix3 0 n k) * w (ix2 f k)) + b (ix1 f) := by
  refine (congrArg₂ (· + ·) (dA_matmul_at _ _ n f) (biasRow_at (by decide) b _ _ n f)).trans ?_
  refine congrArg (· + b (ix1 f)) (Finset.sum_congr rfl fun k _ => ?_)
  exact congrArg₂ (· * ·) (dropUnit_at x0 _ n k) (transpose_at w _ k f)

/-! ## The payloads -/

/-- The source-gate table at node row n, feature f: row n of the node block times row f of the weight, plus the bias. -/
theorem pay6_at (x0 : Vec Ideal S1x4096x128 .f32) (x4 : Vec Ideal S128x128 .f32) (x5 : Vec Ideal S128 .f32) (n : Fin 4096) (f : Fin 128) :
    k0_pay6 (F := Ideal) x0 x4 x5 (ix2 n f) = (∑ k : Fin 128, x0 (ix3 0 n k) * x4 (ix2 f k)) + x5 (ix1 f) := by
  unfold k0_pay6 k0_pay5
  refine (congrFun (shapeCast_self _ _) (ix2 n f)).trans ?_
  exact projA_at x0 x4 x5 _ _ _ _ _ n f

/-- The fused destination table at node row n, column c of 256. -/
theorem pay7_at (x0 : Vec Ideal S1x4096x128 .f32) (x6 : Vec Ideal S256x128 .f32) (x7 : Vec Ideal S256 .f32) (n : Fin 4096) (c : Fin 256) :
    k0_pay7 (F := Ideal) x0 x6 x7 (ix2 n c) = (∑ k : Fin 128, x0 (ix3 0 n k) * x6 (ix2 c k)) + x7 (ix1 c) := by
  unfold k0_pay7 k0_pay5
  refine (congrFun (shapeCast_self _ _) (ix2 n c)).trans ?_
  refine (congrArg₂ (· + ·) (dB_matmul_at _ _ n c) (biasRow_at (by decide) _ _ _ n c)).trans ?_
  refine congrArg₂ (· + ·) (Finset.sum_congr rfl fun k _ => ?_) (congrFun (shapeCast_self x7 _) (ix1 c))
  refine congrArg₂ (· * ·) (dropUnit_at x0 _ n k) ((transpose_at _ _ k c).trans ?_)
  exact congrFun (shapeCast_self x6 _) (ix2 c k)

/-- The cleared accumulator. -/
theorem pay8_at (n : Fin 4096) (c : Fin 256) : k0_pay8 (F := Ideal) (ix2 n c) = 0 := by
  unfold k0_pay8
  rw [shapeCast_self]
  exact Ideal.ofBits_zero_f32

/-- The edge tile, with its leading unit axis dropped. -/
theorem pay14_at (x1 : Vec Ideal S1x512x128 .f32) (r : Fin 512) (f : Fin 128) :
    k0_pay14 (F := Ideal) x1 (ix2 r f) = x1 (ix3 0 r f) := by
  unfold k0_pay14
  exact dropUnit_at x1 _ r f

/-- The edge projection without its bias: row r of the edge tile times row f of the weight. -/
theorem pay15_at (x1 : Vec Ideal S1x512x128 .f32) (x8 : Vec Ideal S128x128 .f32) (r : Fin 512) (f : Fin 128) :
    k0_pay15 (F := Ideal) x1 x8 (ix2 r f) = ∑ k : Fin 128, x1 (ix3 0 r k) * x8 (ix2 f k) := by
  unfold k0_pay15
  refine (dC_matmul_at _ _ r f).trans (Finset.sum_congr rfl fun k _ => ?_)
  exact congrArg₂ (· * ·) (pay14_at x1 r k) (transpose_at x8 _ k f)

/-- The edge bias, spread over the rows. -/
theorem pay16_at (x9 : Vec Ideal S128 .f32) (r : Fin 512) (f : Fin 128) :
    k0_pay16 (F := Ideal) x9 (ix2 r f) = x9 (ix1 f) := by
  unfold k0_pay16
  exact biasRow_at (by decide) x9 _ _ r f

/-- The node result at row n, feature f, from the two halves a (messages) and b (gates) of the accumulator. -/
theorem pay4_at (a b : Vec Ideal S4096x128 .f32) (x0 : Vec Ideal S1x4096x128 .f32) (x10 : Vec Ideal S128x128 .f32) (x11 : Vec Ideal S128 .f32)
    (n : Fin 4096) (f : Fin 128) :
    k0_pay4 (F := Ideal) a b x0 x10 x11 (ix3 0 n f)
      = x0 (ix3 0 n f)
        + (((∑ k : Fin 128, x0 (ix3 0 n k) * x10 (ix2 f k)) + x11 (ix1 f)) + Ideal.div (a (ix2 n f)) (b (ix2 n f) + Ideal.ofBits .f32 0x358637BD#32))
          * Ideal.logistic (((∑ k : Fin 128, x0 (ix3 0 n k) * x10 (ix2 f k)) + x11 (ix1 f)) + Ideal.div (a (ix2 n f)) (b (ix2 n f) + Ideal.ofBits .f32 0x358637BD#32)) := by
  unfold k0_pay4
  refine (addUnit_at _ _ n f).trans ?_
  have key : ∀ (X Z x z : EReal), X = x → Z = z → X + Z * Ideal.logistic Z = x + z * Ideal.logistic z := by
    intro X Z x z h1 h2; rw [h1, h2]
  refine key _ _ _ _ (dropUnit_at x0 _ n f) ?_
  exact congrArg (· + Ideal.div (a (ix2 n f)) (b (ix2 n f) + Ideal.ofBits .f32 0x358637BD#32)) (projA_at x0 x10 x11 _ _ _ _ _ n f)

end Cert.KernelIdeal.KV

end
-- ==== Proof.KPayB.lean ====
/-
  The one-hot part of the body read at one element, over the extended reals: the one-hot entry is 1 where the
  tile's index word names the node and 0 elsewhere; a product of the one-hot tile with a table reads the named
  row; the product of the transposed one-hot with the tile's values adds, into node n, the rows that name n.
-/
import proofs.«404422_j30666066493673_3_alg».proof.Proof.Gen.KernelIdeal.Skeleton
import proofs.«404422_j30666066493673_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.ValueIdx Cert.Gnn
open scoped BigOperators

/-- The index tile, transposed to a column and copied along the columns, reads index word r at (r, n). -/
private theorem col_read (x2 : Vec Ideal S1x512 .i32) (r : Fin 512) (n : Fin 4096) :
    broadcastTo S512x4096
        (transpose S512x1 [1, 0] (shapeCast S1x512 x2 shapeCasts_S1x512_S1x512) transposes_S1x512_p1_0_S512x1)
        broadcasts_S512x1_S512x4096 (ix2 r n) = x2 (ix2 0 r) := by
  refine (broadcastTo_apply _ broadcasts_S512x1_S512x4096 (ix2 r n) (ix2 r 0) (fun a => match a with
    | ⟨0, _⟩ => by show r.val = if (512 : Nat) = 1 then 0 else r.val; rw [if_neg (by decide)]
    | ⟨1, _⟩ => by show 0 = if (1 : Nat) = 1 then 0 else n.val; rw [if_pos rfl])).trans ?_
  refine (transpose_apply [1, 0] _ transposes_S1x512_p1_0_S512x1 (ix2 r 0) (ix2 0 r) (fun b => match b with
    | ⟨0, _⟩ => rfl
    | ⟨1, _⟩ => rfl)).trans ?_
  rw [shapeCast_self]

/-- The row of node numbers copied along the rows reads the word of n at (r, n). -/
private theorem row_read (r : Fin 512) (n : Fin 4096) :
    broadcastTo S512x4096 (iota Kind.tc S1x4096 32 [1] iota_S1x4096_d1_w32) broadcasts_S1x4096_S512x4096 (ix2 r n)
      = BitVec.ofNat 32 n.val := by
  refine (broadcastTo_apply _ broadcasts_S1x4096_S512x4096 (ix2 r n) (ix2 0 n) (fun a => match a with
    | ⟨0, _⟩ => by show 0 = if (1 : Nat) = 1 then 0 else r.val; rw [if_pos rfl]
    | ⟨1, _⟩ => by show n.val = if (4096 : Nat) = 1 then 0 else n.val; rw [if_neg (by decide)])).trans ?_
  exact iota_single_apply Kind.tc S1x4096 32 1 iota_S1x4096_d1_w32 (ix2 0 n)

/-- The widened comparison bit, read as a signed integer, is 1 where the two words agree and 0 elsewhere. -/
private theorem eq_bit_val (w v : BitVec 32) :
    ((((IntOp.cmpi CmpIPredicate.eq w v).setWidth 32).toInt : ℝ) : EReal) = if w = v then 1 else 0 := by
  by_cases hw : w = v
  · subst hw
    have e : IntOp.cmpi CmpIPredicate.eq w w = 1#1 := by simp [IntOp.cmpi]
    have e2 : ((1#1 : BitVec 1).setWidth 32).toInt = 1 := by decide
    rw [e, if_pos rfl, e2]; simp
  · have e : IntOp.cmpi CmpIPredicate.eq w v = 0#1 := by
      show BitVec.ofBool (w == v) = 0#1
      rw [beq_eq_false_iff_ne.2 hw]; rfl
    have e2 : ((0#1 : BitVec 1).setWidth 32).toInt = 0 := by decide
    rw [e, if_neg hw, e2]; simp

/-- An in-range word is the word of n exactly when it names node n. -/
private theorem word_eq_iff_node {w : BitVec 32} (h : InRange w) (n : Fin 4096) : w = BitVec.ofNat 32 n.val ↔ node w = n := by
  have hn : n.val % 2 ^ 32 = n.val := Nat.mod_eq_of_lt (by have := n.isLt; omega)
  constructor
  · intro e
    apply Fin.ext
    rw [h.node_val, e, BitVec.toNat_ofNat, hn]
  · intro e
    apply BitVec.eq_of_toNat_eq
    rw [BitVec.toNat_ofNat, hn, ← h.node_val, e]

/-- The one-hot tile built from an index tile: at (r, n) it is the one-hot entry of word r. -/
private theorem hot_read (x2 : Vec Ideal S1x512 .i32) (r : Fin 512) (n : Fin 4096) (h : InRange (x2 (ix2 0 r))) :
    (truncf (F := Ideal) .bf16
      (sitofp .f32
        (extui 32
          (cmpi CmpIPredicate.eq
            (broadcastTo S512x4096
              (transpose S512x1 [1, 0] (shapeCast S1x512 x2 shapeCasts_S1x512_S1x512) transposes_S1x512_p1_0_S512x1)
              broadcasts_S512x1_S512x4096)
            (broadcastTo S512x4096 (iota Kind.tc S1x4096 32 [1] iota_S1x4096_d1_w32) broadcasts_S1x4096_S512x4096))
          natLt_1_32))
      bitsLt_bf16_f32 : FVec Ideal S512x4096 .bf16) (ix2 r n) = hot (x2 (ix2 0 r)) n := by
  show ((((IntOp.cmpi CmpIPredicate.eq
      (broadcastTo S512x4096
        (transpose S512x1 [1, 0] (shapeCast S1x512 x2 shapeCasts_S1x512_S1x512) transposes_S1x512_p1_0_S512x1)
        broadcasts_S512x1_S512x4096 (ix2 r n))
      (broadcastTo S512x4096 (iota Kind.tc S1x4096 32 [1] iota_S1x4096_d1_w32) broadcasts_S1x4096_S512x4096 (ix2 r n))).setWidth 32).toInt : ℝ) : EReal) = _
  rw [col_read, row_read, eq_bit_val]
  unfold hot
  by_cases hn : node (x2 (ix2 0 r)) = n
  · rw [if_pos hn, if_pos ((word_eq_iff_node h n).2 hn)]
  · rw [if_neg hn, if_neg (fun e => hn ((word_eq_iff_node h n).1 e))]

/-- The one-hot entry at row r of the tile, node n: whether the tile's index word r names node n. -/
theorem pay9_at (x2 : Vec Ideal S1x512 .i32) (r : Fin 512) (n : Fin 4096) (h : InRange (x2 (ix2 0 r))) :
    k0_pay9 (F := Ideal) x2 (ix2 r n) = hot (x2 (ix2 0 r)) n := by
  unfold k0_pay9
  exact hot_read x2 r n h

/-! The three block products read at an index: the operand indices of each, axis by axis. -/

private theorem d1_lhs0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
private theorem d1_lhs1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
private theorem d1_rhs0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
private theorem d1_rhs1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- A [512, 4096] tile times a [4096, 128] table, into zero, at (r, f): the sum over the 4096 nodes. -/
private theorem mm1_at (A : FVec Ideal S512x4096 .bf16) (B : FVec Ideal S4096x128 .bf16) (r : Fin 512) (f : Fin 128) :
    FloatOps.matmul dot_S512x4096_S4096x128_S512x128_1_0_0_1_n_n none A B (constant S512x128 .f32 0x00000000#32) (ix2 r f)
      = ∑ k : Fin 4096, A (ix2 r k) * B (ix2 k f) := by
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 r f) ((contrEquiv1 dot_S512x4096_S4096x128_S512x128_1_0_0_1_n_n 4096 rfl rfl).symm k) = ix2 r k := funext fun a => Fin.ext (by
    match a with
    | ⟨0, _⟩ => exact d1_lhs0 _ _
    | ⟨1, _⟩ => exact (d1_lhs1 _ _).trans hk)
  have er : dot_S512x4096_S4096x128_S512x128_1_0_0_1_n_n.rhsIdx (ix2 r f) ((contrEquiv1 dot_S512x4096_S4096x128_S512x128_1_0_0_1_n_n 4096 rfl rfl).symm k) = ix2 k f := funext fun a => Fin.ext (by
    match a with
    | ⟨0, _⟩ => exact (d1_rhs0 _ _).trans hk
    | ⟨1, _⟩ => exact d1_rhs1 _ _)
  rw [el, er]

/-- Fetching the source-gate rows: row r of the result is the table's row named by index word r. -/
theorem pay10_at (x2 : Vec Ideal S1x512 .i32) (v22 : Vec Ideal S4096x128 .bf16) (r : Fin 512) (f : Fin 128)
    (h : InRange (x2 (ix2 0 r))) :
    k0_pay10 (F := Ideal) x2 v22 (ix2 r f) = v22 (ix2 (node (x2 (ix2 0 r))) f) := by
  unfold k0_pay10
  refine (mm1_at (k0_pay9 (F := Ideal) x2) v22 r f).trans ?_
  rw [Finset.sum_congr rfl fun k _ => congrArg (· * v22 (ix2 k f)) (pay9_at x2 r k h)]
  exact sum_hot_mul (x2 (ix2 0 r)) fun k => v22 (ix2 k f)

private theorem d2_lhs0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
private theorem d2_lhs1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
private theorem d2_rhs0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
private theorem d2_rhs1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- A [512, 4096] tile times a [4096, 256] table, into zero, at (r, c): the sum over the 4096 nodes. -/
private theorem mm2_at (A : FVec Ideal S512x4096 .bf16) (B : FVec Ideal S4096x256 .bf16) (r : Fin 512) (c : Fin 256) :
    FloatOps.matmul dot_S512x4096_S4096x256_S512x256_1_0_0_1_n_n none A B (constant S512x256 .f32 0x00000000#32) (ix2 r c)
      = ∑ k : Fin 4096, A (ix2 r k) * B (ix2 k c) := by
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 r c) ((contrEquiv1 dot_S512x4096_S4096x256_S512x256_1_0_0_1_n_n 4096 rfl rfl).symm k) = ix2 r k := funext fun a => Fin.ext (by
    match a with
    | ⟨0, _⟩ => exact d2_lhs0 _ _
    | ⟨1, _⟩ => exact (d2_lhs1 _ _).trans hk)
  have er : dot_S512x4096_S4096x256_S512x256_1_0_0_1_n_n.rhsIdx (ix2 r c) ((contrEquiv1 dot_S512x4096_S4096x256_S512x256_1_0_0_1_n_n 4096 rfl rfl).symm k) = ix2 k c := funext fun a => Fin.ext (by
    match a with
    | ⟨0, _⟩ => exact (d2_rhs0 _ _).trans hk
    | ⟨1, _⟩ => exact d2_rhs1 _ _)
  rw [el, er]

/-- Fetching the fused destination rows: row r of the result is the fused table's row named by index word r. -/
private theorem pay11_at (x3 : Vec Ideal S1x512 .i32) (v24 : Vec Ideal S4096x256 .bf16) (r : Fin 512) (c : Fin 256)
    (h : InRange (x3 (ix2 0 r))) :
    k0_pay11 (F := Ideal) x3 v24 (ix2 r c) = v24 (ix2 (node (x3 (ix2 0 r))) c) := by
  unfold k0_pay11
  refine (mm2_at _ v24 r c).trans ?_
  rw [Finset.sum_congr rfl fun k _ => congrArg (· * v24 (ix2 k c)) (hot_read x3 r k h)]
  exact sum_hot_mul (x3 (ix2 0 r)) fun k => v24 (ix2 k c)

/-- Fetching the destination-gate rows: columns 0 … 127 of the fused table's named row. -/
theorem pay12_at (x3 : Vec Ideal S1x512 .i32) (v24 : Vec Ideal S4096x256 .bf16) (r : Fin 512) (f : Fin 128)
    (h : InRange (x3 (ix2 0 r))) :
    k0_pay12 (F := Ideal) x3 v24 (ix2 r f) = v24 (ix2 (node (x3 (ix2 0 r))) ⟨f.val, by have := f.isLt; omega⟩) := by
  unfold k0_pay12
  refine (extractStridedSlice_apply ![0, 0] _ slices_S512x256_o0_0_S512x128 (ix2 r f)
    (ix2 r ⟨f.val, by have := f.isLt; omega⟩) (fun a => match a with
      | ⟨0, _⟩ => by show r.val = 0 + r.val; omega
      | ⟨1, _⟩ => by show f.val = 0 + f.val; omega)).trans ?_
  exact pay11_at x3 v24 r _ h

/-- Fetching the destination-update rows: columns 128 … 255 of the fused table's named row. -/
theorem pay13_at (x3 : Vec Ideal S1x512 .i32) (v24 : Vec Ideal S4096x256 .bf16) (r : Fin 512) (f : Fin 128)
    (h : InRange (x3 (ix2 0 r))) :
    k0_pay13 (F := Ideal) x3 v24 (ix2 r f) = v24 (ix2 (node (x3 (ix2 0 r))) ⟨f.val + 128, by have := f.isLt; omega⟩) := by
  unfold k0_pay13
  refine (extractStridedSlice_apply ![0, 128] _ slices_S512x256_o0_128_S512x128 (ix2 r f)
    (ix2 r ⟨f.val + 128, by have := f.isLt; omega⟩) (fun a => match a with
      | ⟨0, _⟩ => by show r.val = 0 + r.val; omega
      | ⟨1, _⟩ => by show f.val + 128 = 128 + f.val; omega)).trans ?_
  exact pay11_at x3 v24 r _ h

/-- The gate's argument: (source row + destination row) + (edge projection + edge bias). -/
theorem pay1_at (v23 v26 v34 v37 : FVec Ideal S512x128 .f32) (r : Fin 512) (f : Fin 128) :
    k0_pay1 (F := Ideal) v23 v26 v34 v37 (ix2 r f) = (v23 (ix2 r f) + v26 (ix2 r f)) + (v34 (ix2 r f) + v37 (ix2 r f)) := by
  rfl

/-- The edge result: the edge tile plus y · logistic y. -/
theorem pay3_at (v23 v26 v29 v34 v37 : FVec Ideal S512x128 .f32) (r : Fin 512) (f : Fin 128) :
    k0_pay3 (F := Ideal) v23 v26 v29 v34 v37 (ix3 0 r f)
      = v29 (ix2 r f) + k0_pay1 (F := Ideal) v23 v26 v34 v37 (ix2 r f) * Ideal.logistic (k0_pay1 (F := Ideal) v23 v26 v34 v37 (ix2 r f)) := by
  unfold k0_pay3
  refine (shapeCast_addUnit_apply ![512, 128] _ shapeCasts_S512x128_S1x512x128 (ix3 0 r f)).trans ?_
  have e : (fun a : Fin 2 => (ix3 (0 : Fin 1) r f) a.succ) = ix2 r f := by
    funext a; match a with | ⟨0, _⟩ => rfl | ⟨1, _⟩ => rfl
  rw [e]
  rfl

private theorem d3_lhs0 (i : S4096x256.Idx) (q : dot_S512x4096_S512x256_S4096x256_0_0_1_1_n_n.contr.Idx) :
    (dot_S512x4096_S512x256_S4096x256_0_0_1_1_n_n.lhsIdx i q 0).val = (q ⟨0, by decide⟩).val :=
  dot_S512x4096_S512x256_S4096x256_0_0_1_1_n_n.lhsIdx_val_of_single rfl i q
private theorem d3_lhs1 (i : S4096x256.Idx) (q : dot_S512x4096_S512x256_S4096x256_0_0_1_1_n_n.contr.Idx) :
    (dot_S512x4096_S512x256_S4096x256_0_0_1_1_n_n.lhsIdx i q 1).val = (i 0).val := by
  unfold DotDims.lhsIdx
  rw [dif_neg (show ¬(1 : Fin S512x4096.rank) ∈ dot_S512x4096_S512x256_S4096x256_0_0_1_1_n_n.lhsBatch by decide), dif_pos (show (1 : Fin S512x4096.rank) ∈ dot_S512x4096_S512x256_S4096x256_0_0_1_1_n_n.lhsNonContracting by decide)]
  rfl
private theorem d3_rhs0 (i : S4096x256.Idx) (q : dot_S512x4096_S512x256_S4096x256_0_0_1_1_n_n.contr.Idx) :
    (dot_S512x4096_S512x256_S4096x256_0_0_1_1_n_n.rhsIdx i q 0).val = (q ⟨0, by decide⟩).val :=
  dot_S512x4096_S512x256_S4096x256_0_0_1_1_n_n.rhsIdx_val_of_single rfl i q
private theorem d3_rhs1 (i : S4096x256.Idx) (q : dot_S512x4096_S512x256_S4096x256_0_0_1_1_n_n.contr.Idx) :
    (dot_S512x4096_S512x256_S4096x256_0_0_1_1_n_n.rhsIdx i q 1).val = (i 1).val := by
  unfold DotDims.rhsIdx
  rw [dif_neg (show ¬(1 : Fin S512x256.rank) ∈ dot_S512x4096_S512x256_S4096x256_0_0_1_1_n_n.rhsBatch by decide), dif_pos (show (1 : Fin S512x256.rank) ∈ dot_S512x4096_S512x256_S4096x256_0_0_1_1_n_n.rhsNonContracting by decide)]
  rfl

/-- The transposed [512, 4096] tile times a [512, 256] tile, into zero, at (n, c): the sum over the tile's 512 rows. -/
private theorem mm3_at (A : FVec Ideal S512x4096 .bf16) (B : FVec Ideal S512x256 .bf16) (n : Fin 4096) (c : Fin 256) :
    FloatOps.matmul dot_S512x4096_S512x256_S4096x256_0_0_1_1_n_n none A B (constant S4096x256 .f32 0x00000000#32) (ix2 n c)
      = ∑ r : Fin 512, A (ix2 r n) * B (ix2 r c) := by
  rw [Ideal.matmul_constant_zero_apply, ← Equiv.sum_comp (contrEquiv1 dot_S512x4096_S512x256_S4096x256_0_0_1_1_n_n 512 rfl rfl).symm]
  refine Finset.sum_congr rfl fun k _ => ?_
  have hk := contrEquiv1_symm_val dot_S512x4096_S512x256_S4096x256_0_0_1_1_n_n 512 rfl rfl k
  have el : dot_S512x4096_S512x256_S4096x256_0_0_1_1_n_n.lhsIdx (ix2 n c) ((contrEquiv1 dot_S512x4096_S512x256_S4096x256_0_0_1_1_n_n 512 rfl rfl).symm k) = ix2 k n := funext fun a => Fin.ext (by
    match a with
    | ⟨0, _⟩ => exact (d3_lhs0 _ _).trans hk
    | ⟨1, _⟩ => exact d3_lhs1 _ _)
  have er : dot_S512x4096_S512x256_S4096x256_0_0_1_1_n_n.rhsIdx (ix2 n c) ((contrEquiv1 dot_S512x4096_S512x256_S4096x256_0_0_1_1_n_n 512 rfl rfl).symm k) = ix2 k c := funext fun a => Fin.ext (by
    match a with
    | ⟨0, _⟩ => exact (d3_rhs0 _ _).trans hk
    | ⟨1, _⟩ => exact d3_rhs1 _ _)
  rw [el, er]

/-- The accumulator's message half after this tile: what it held plus, over the tile's rows, one-hot entry times
    (update row · gate). -/
theorem pay2_lo (v15 : FVec Ideal S512x4096 .bf16) (v23 v26 v27 v34 v37 : FVec Ideal S512x128 .f32) (v46 : Vec Ideal S4096x256 .f32)
    (n : Fin 4096) (f : Fin 128) :
    k0_pay2 (F := Ideal) v15 v23 v26 v27 v34 v37 v46 (ix2 n ⟨f.val, by have := f.isLt; omega⟩)
      = v46 (ix2 n ⟨f.val, by have := f.isLt; omega⟩)
        + ∑ r : Fin 512, v15 (ix2 r n) * (v27 (ix2 r f) * Ideal.logistic (k0_pay1 (F := Ideal) v23 v26 v34 v37 (ix2 r f))) := by
  unfold k0_pay2
  rw [shapeCast_self]
  refine congrArg (v46 (ix2 n ⟨f.val, by have := f.isLt; omega⟩) + ·) ?_
  refine (mm3_at v15 _ n ⟨f.val, by have := f.isLt; omega⟩).trans ?_
  refine Finset.sum_congr rfl fun r _ => congrArg (v15 (ix2 r n) * ·) ?_
  refine (concatenate_pair_apply_left (1 : Fin S512x256.rank) _ _ concatenates_S512x128_S512x128_S512x256_d1
    (ix2 r ⟨f.val, by have := f.isLt; omega⟩) rfl (ix2 r f) (fun b => match b with
      | ⟨0, _⟩ => rfl
      | ⟨1, _⟩ => rfl)).trans ?_
  rfl

/-- The accumulator's gate half after this tile. -/
theorem pay2_hi (v15 : FVec Ideal S512x4096 .bf16) (v23 v26 v27 v34 v37 : FVec Ideal S512x128 .f32) (v46 : Vec Ideal S4096x256 .f32)
    (n : Fin 4096) (f : Fin 128) :
    k0_pay2 (F := Ideal) v15 v23 v26 v27 v34 v37 v46 (ix2 n ⟨f.val + 128, by have := f.isLt; omega⟩)
      = v46 (ix2 n ⟨f.val + 128, by have := f.isLt; omega⟩)
        + ∑ r : Fin 512, v15 (ix2 r n) * Ideal.logistic (k0_pay1 (F := Ideal) v23 v26 v34 v37 (ix2 r f)) := by
  unfold k0_pay2
  rw [shapeCast_self]
  refine congrArg (v46 (ix2 n ⟨f.val + 128, by have := f.isLt; omega⟩) + ·) ?_
  refine (mm3_at v15 _ n ⟨f.val + 128, by have := f.isLt; omega⟩).trans ?_
  refine Finset.sum_congr rfl fun r _ => congrArg (v15 (ix2 r n) * ·) ?_
  refine (concatenate_pair_apply_right (1 : Fin S512x256.rank) _ _ concatenates_S512x128_S512x128_S512x256_d1
    (ix2 r ⟨f.val + 128, by have := f.isLt; omega⟩) rfl rfl (ix2 r f) (fun b hb => match b with
      | ⟨0, _⟩ => rfl
      | ⟨1, _⟩ => absurd rfl hb) rfl).trans ?_
  rfl

end Cert.KernelIdeal.KV

end
-- ==== Proof.KStepMath.lean ====
/-
  One grid point's arithmetic against the specification, over blocks given by what they hold. If the blocks of
  point (batch q, edge tile kv) are the argument arrays' elements and the two tables are batch q's projections,
  then: the body's edge block is the edge result of tile kv; its accumulator adds, into node p, the tile's edges
  whose source is p; and, once the accumulator holds all of batch q's edges, its node block is the node result.
-/
import proofs.«404422_j30666066493673_3_alg».proof.Proof.Gen.KernelIdeal.Skeleton
import proofs.«404422_j30666066493673_3_alg».proof.Proof.KPayA
import proofs.«404422_j30666066493673_3_alg».proof.Proof.KPayB
import proofs.«404422_j30666066493673_3_alg».proof.Proof.Spec

set_option maxRecDepth 16384

noncomputable section

namespace Cert.KernelIdeal.KV

open Cert.KernelIdeal Cert.KernelIdeal.Gen Idealize.ShloMosaic Idealize.ShloMosaic.ValueIdx Cert.Gnn
open scoped BigOperators

variable (I : Inp) (q : Fin 4) (kv : Fin 128)

/-- The twelve input blocks of grid point (q, kv) hold the argument arrays' elements. -/
structure Blocks (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32) : Prop where
  h0 : ∀ (n : Fin 4096) (k : Fin 128), x0 (ix3 0 n k) = I.nf (ix3 q n k)
  h1 : ∀ (r : Fin 512) (k : Fin 128), x1 (ix3 0 r k) = I.ef (ix3 q (edgeOf kv r) k)
  h2 : ∀ r : Fin 512, x2 (ix2 0 r) = I.iv (ix1 (edgeOf kv r))
  h3 : ∀ r : Fin 512, x3 (ix2 0 r) = I.jv (ix1 (edgeOf kv r))
  h4 : ∀ f k : Fin 128, x4 (ix2 f k) = I.Wsg (ix2 f k)
  h5 : ∀ f : Fin 128, x5 (ix1 f) = I.bsg (ix1 f)
  h6lo : ∀ f k : Fin 128, x6 (ix2 ⟨f.val, by have := f.isLt; omega⟩ k) = I.Wdg (ix2 f k)
  h6hi : ∀ f k : Fin 128, x6 (ix2 ⟨f.val + 128, by have := f.isLt; omega⟩ k) = I.Wdu (ix2 f k)
  h7lo : ∀ f : Fin 128, x7 (ix1 ⟨f.val, by have := f.isLt; omega⟩) = I.bdg (ix1 f)
  h7hi : ∀ f : Fin 128, x7 (ix1 ⟨f.val + 128, by have := f.isLt; omega⟩) = I.bdu (ix1 f)
  h8 : ∀ f k : Fin 128, x8 (ix2 f k) = I.Weg (ix2 f k)
  h9 : ∀ f : Fin 128, x9 (ix1 f) = I.beg (ix1 f)
  h10 : ∀ f k : Fin 128, x10 (ix2 f k) = I.Wsu (ix2 f k)
  h11 : ∀ f : Fin 128, x11 (ix1 f) = I.bsu (ix1 f)

/-- The two projection tables hold batch q's projections. -/
structure Tables (xs0 : Vec Ideal S4096x128 .bf16) (xs1 : Vec Ideal S4096x256 .bf16) : Prop where
  sg : ∀ (p : Fin 4096) (f : Fin 128), xs0 (ix2 p f) = linN I.nf I.Wsg I.bsg q p f
  dg : ∀ (p : Fin 4096) (f : Fin 128), xs1 (ix2 p ⟨f.val, by have := f.isLt; omega⟩) = linN I.nf I.Wdg I.bdg q p f
  du : ∀ (p : Fin 4096) (f : Fin 128), xs1 (ix2 p ⟨f.val + 128, by have := f.isLt; omega⟩) = linN I.nf I.Wdu I.bdu q p f

/-- A linear layer read off a block: if the block's row, the weight's row and the bias are the arrays'
    elements, then row times row plus bias is the layer's value. -/
private theorem lin_congr {xr wr : Fin 128 → EReal} {bb : EReal} (x : SNode.Idx → EReal) (W : SW.Idx → EReal) (b : SB.Idx → EReal)
    (n : Fin 4096) (f : Fin 128) (hx : ∀ k, xr k = x (ix3 q n k)) (hw : ∀ k, wr k = W (ix2 f k)) (hbb : bb = b (ix1 f)) :
    (∑ k : Fin 128, xr k * wr k) + bb = linN x W b q n f := by
  unfold linN
  rw [hbb]
  congr 1
  exact Finset.sum_congr rfl fun k _ => by rw [hx k, hw k]

/-- The tables the first tile writes are batch q's projections. -/
theorem tables_of_blocks (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (hb : Blocks I q kv x0 x1 x2 x3 x4 x5 x6 x7 x8 x9 x10 x11) : Tables I q (k0_pay6 (F := Ideal) x0 x4 x5) (k0_pay7 (F := Ideal) x0 x6 x7) := by
  constructor
  · intro p f
    refine (pay6_at x0 x4 x5 p f).trans ?_
    exact lin_congr q I.nf I.Wsg I.bsg p f (fun k => hb.h0 p k) (fun k => hb.h4 f k) (hb.h5 f)
  · intro p f
    refine (pay7_at x0 x6 x7 p ⟨f.val, by have := f.isLt; omega⟩).trans ?_
    exact lin_congr q I.nf I.Wdg I.bdg p f (fun k => hb.h0 p k) (fun k => hb.h6lo f k) (hb.h7lo f)
  · intro p f
    refine (pay7_at x0 x6 x7 p ⟨f.val + 128, by have := f.isLt; omega⟩).trans ?_
    exact lin_congr q I.nf I.Wdu I.bdu p f (fun k => hb.h0 p k) (fun k => hb.h6hi f k) (hb.h7hi f)

/-- The gate's argument on row r of the tile is the specification's on edge r of tile kv. -/
private theorem gate_arg (hok : I.Ok) (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (xs0 : Vec Ideal S4096x128 .bf16) (xs1 : Vec Ideal S4096x256 .bf16)
    (hb : Blocks I q kv x0 x1 x2 x3 x4 x5 x6 x7 x8 x9 x10 x11) (ht : Tables I q xs0 xs1) (r : Fin 512) (f : Fin 128) :
    k0_pay1 (F := Ideal) (k0_pay10 x2 xs0) (k0_pay12 x3 xs1) (k0_pay15 x1 x8) (k0_pay16 x9) (ix2 r f) = I.y q (edgeOf kv r) f := by
  have h2 : InRange (x2 (ix2 0 r)) := by rw [hb.h2 r]; exact hok.1 _
  have h3 : InRange (x3 (ix2 0 r)) := by rw [hb.h3 r]; exact hok.2 _
  have e1 : xs0 (ix2 (node (x2 (ix2 0 r))) f) = linN I.nf I.Wsg I.bsg q (I.src (edgeOf kv r)) f := by
    rw [hb.h2 r]; exact ht.sg _ f
  have e2 : xs1 (ix2 (node (x3 (ix2 0 r))) ⟨f.val, by have := f.isLt; omega⟩) = linN I.nf I.Wdg I.bdg q (I.dst (edgeOf kv r)) f := by
    rw [hb.h3 r]; exact ht.dg _ f
  have e3 : (∑ k : Fin 128, x1 (ix3 0 r k) * x8 (ix2 f k)) + x9 (ix1 f) = linE I.ef I.Weg I.beg q (edgeOf kv r) f := by
    unfold linE
    rw [hb.h9 f]
    congr 1
    exact Finset.sum_congr rfl fun k _ => by rw [hb.h1 r k, hb.h8 f k]
  rw [pay1_at, pay10_at x2 xs0 r f h2, pay12_at x3 xs1 r f h3, pay15_at, pay16_at, e1, e2, e3]
  rfl

/-- The update row fetched for row r of the tile is the destination node's update projection. -/
private theorem upd_row (hok : I.Ok) (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (xs0 : Vec Ideal S4096x128 .bf16) (xs1 : Vec Ideal S4096x256 .bf16)
    (hb : Blocks I q kv x0 x1 x2 x3 x4 x5 x6 x7 x8 x9 x10 x11) (ht : Tables I q xs0 xs1) (r : Fin 512) (f : Fin 128) :
    k0_pay13 (F := Ideal) x3 xs1 (ix2 r f) = linN I.nf I.Wdu I.bdu q (I.dst (edgeOf kv r)) f := by
  have h3 : InRange (x3 (ix2 0 r)) := by rw [hb.h3 r]; exact hok.2 _
  rw [pay13_at x3 xs1 r f h3, hb.h3 r]
  exact ht.du _ f

/-- The one-hot entry of row r at node p, by the tile's source word. -/
private theorem hot_row (hok : I.Ok) (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (hb : Blocks I q kv x0 x1 x2 x3 x4 x5 x6 x7 x8 x9 x10 x11) (r : Fin 512) (p : Fin 4096) :
    k0_pay9 (F := Ideal) x2 (ix2 r p) = hot (I.iv (ix1 (edgeOf kv r))) p := by
  have h2 : InRange (x2 (ix2 0 r)) := by rw [hb.h2 r]; exact hok.1 _
  rw [pay9_at x2 r p h2, hb.h2 r]

/-- The edge block is the edge result of tile kv. -/
theorem y_of (hok : I.Ok) (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (xs0 : Vec Ideal S4096x128 .bf16) (xs1 : Vec Ideal S4096x256 .bf16)
    (hb : Blocks I q kv x0 x1 x2 x3 x4 x5 x6 x7 x8 x9 x10 x11) (ht : Tables I q xs0 xs1) (r : Fin 512) (f : Fin 128) :
    k0_pay3 (F := Ideal) (k0_pay10 x2 xs0) (k0_pay12 x3 xs1) (k0_pay14 x1) (k0_pay15 x1 x8) (k0_pay16 x9) (ix3 0 r f)
      = I.yAt q (edgeOf kv r) f := by
  rw [pay3_at, gate_arg I q kv hok x0 x1 x2 x3 x4 x5 x6 x7 x8 x9 x10 x11 xs0 xs1 hb ht r f, pay14_at, hb.h1 r f]
  rfl

/-- The accumulator's message half: what it held plus the tile's messages whose source is node p. -/
theorem acc_lo_of (hok : I.Ok) (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (xs0 : Vec Ideal S4096x128 .bf16) (xs1 : Vec Ideal S4096x256 .bf16) (xs2 : Vec Ideal S4096x256 .f32)
    (hb : Blocks I q kv x0 x1 x2 x3 x4 x5 x6 x7 x8 x9 x10 x11) (ht : Tables I q xs0 xs1) (p : Fin 4096) (f : Fin 128) :
    k0_pay2 (F := Ideal) (k0_pay9 x2) (k0_pay10 x2 xs0) (k0_pay12 x3 xs1) (k0_pay13 x3 xs1) (k0_pay15 x1 x8) (k0_pay16 x9) xs2 (ix2 p ⟨f.val, by have := f.isLt; omega⟩)
      = xs2 (ix2 p ⟨f.val, by have := f.isLt; omega⟩) + ∑ r : Fin 512, (if I.src (edgeOf kv r) = p then I.msg q (edgeOf kv r) f else 0) := by
  refine (pay2_lo (k0_pay9 x2) (k0_pay10 x2 xs0) (k0_pay12 x3 xs1) (k0_pay13 x3 xs1) (k0_pay15 x1 x8) (k0_pay16 x9) xs2 p f).trans ?_
  congr 1
  have ht' : ∀ r : Fin 512,
      k0_pay9 (F := Ideal) x2 (ix2 r p) * (k0_pay13 (F := Ideal) x3 xs1 (ix2 r f) * Ideal.logistic (k0_pay1 (F := Ideal) (k0_pay10 x2 xs0) (k0_pay12 x3 xs1) (k0_pay15 x1 x8) (k0_pay16 x9) (ix2 r f)))
        = hot (I.iv (ix1 (edgeOf kv r))) p * I.msg q (edgeOf kv r) f := by
    intro r
    rw [hot_row I q kv hok x0 x1 x2 x3 x4 x5 x6 x7 x8 x9 x10 x11 hb r p,
      upd_row I q kv hok x0 x1 x2 x3 x4 x5 x6 x7 x8 x9 x10 x11 xs0 xs1 hb ht r f,
      gate_arg I q kv hok x0 x1 x2 x3 x4 x5 x6 x7 x8 x9 x10 x11 xs0 xs1 hb ht r f]
    rfl
  refine (Finset.sum_congr rfl fun r _ => ht' r).trans ?_
  exact sum_hot_mul_rows (fun r : Fin 512 => I.iv (ix1 (edgeOf kv r))) p (fun r => I.msg q (edgeOf kv r) f)

/-- The accumulator's gate half: what it held plus the tile's gates whose source is node p. -/
theorem acc_hi_of (hok : I.Ok) (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (xs0 : Vec Ideal S4096x128 .bf16) (xs1 : Vec Ideal S4096x256 .bf16) (xs2 : Vec Ideal S4096x256 .f32)
    (hb : Blocks I q kv x0 x1 x2 x3 x4 x5 x6 x7 x8 x9 x10 x11) (ht : Tables I q xs0 xs1) (p : Fin 4096) (f : Fin 128) :
    k0_pay2 (F := Ideal) (k0_pay9 x2) (k0_pay10 x2 xs0) (k0_pay12 x3 xs1) (k0_pay13 x3 xs1) (k0_pay15 x1 x8) (k0_pay16 x9) xs2 (ix2 p ⟨f.val + 128, by have := f.isLt; omega⟩)
      = xs2 (ix2 p ⟨f.val + 128, by have := f.isLt; omega⟩) + ∑ r : Fin 512, (if I.src (edgeOf kv r) = p then I.sg q (edgeOf kv r) f else 0) := by
  refine (pay2_hi (k0_pay9 x2) (k0_pay10 x2 xs0) (k0_pay12 x3 xs1) (k0_pay13 x3 xs1) (k0_pay15 x1 x8) (k0_pay16 x9) xs2 p f).trans ?_
  congr 1
  have ht' : ∀ r : Fin 512,
      k0_pay9 (F := Ideal) x2 (ix2 r p) * Ideal.logistic (k0_pay1 (F := Ideal) (k0_pay10 x2 xs0) (k0_pay12 x3 xs1) (k0_pay15 x1 x8) (k0_pay16 x9) (ix2 r f))
        = hot (I.iv (ix1 (edgeOf kv r))) p * I.sg q (edgeOf kv r) f := by
    intro r
    rw [hot_row I q kv hok x0 x1 x2 x3 x4 x5 x6 x7 x8 x9 x10 x11 hb r p,
      gate_arg I q kv hok x0 x1 x2 x3 x4 x5 x6 x7 x8 x9 x10 x11 xs0 xs1 hb ht r f]
    rfl
  refine (Finset.sum_congr rfl fun r _ => ht' r).trans ?_
  exact sum_hot_mul_rows (fun r : Fin 512 => I.iv (ix1 (edgeOf kv r))) p (fun r => I.sg q (edgeOf kv r) f)

/-- The node block is the node result, once the two halves hold the sums over all of the batch's edges. -/
theorem x_of (x0 : Vec Ideal S1x4096x128 .f32) (x1 : Vec Ideal S1x512x128 .f32) (x2 x3 : Vec Ideal S1x512 .i32) (x4 : Vec Ideal S128x128 .f32) (x5 : Vec Ideal S128 .f32) (x6 : Vec Ideal S256x128 .f32) (x7 : Vec Ideal S256 .f32) (x8 : Vec Ideal S128x128 .f32) (x9 : Vec Ideal S128 .f32) (x10 : Vec Ideal S128x128 .f32) (x11 : Vec Ideal S128 .f32)
    (a b : Vec Ideal S4096x128 .f32) (hb : Blocks I q kv x0 x1 x2 x3 x4 x5 x6 x7 x8 x9 x10 x11)
    (ha : ∀ (p : Fin 4096) (f : Fin 128), a (ix2 p f) = I.sumH q p f) (hbb : ∀ (p : Fin 4096) (f : Fin 128), b (ix2 p f) = I.sumS q p f)
    (p : Fin 4096) (f : Fin 128) :
    k0_pay4 (F := Ideal) a b x0 x10 x11 (ix3 0 p f) = I.xAt q p f := by
  have e1 : (∑ k : Fin 128, x0 (ix3 0 p k) * x10 (ix2 f k)) + x11 (ix1 f) = linN I.nf I.Wsu I.bsu q p f :=
    lin_congr q I.nf I.Wsu I.bsu p f (fun k => hb.h0 p k) (fun k => hb.h10 f k) (hb.h11 f)
  rw [pay4_at, e1, ha p f, hbb p f, hb.h0 p f]
  rfl

end Cert.KernelIdeal.KV

end
-- ==== Proof.KStepA.lean ====
/-
  The first tile of a batch: the body writes the two projection tables, clears the accumulator, and adds the first
  tile's contributions; the state after it is the invariant with one tile summed.
-/
import proofs.«404422_j30666066493673_3_alg».proof.Proof.Gen.KernelIdeal.Frame
import proofs.«404422_j30666066493673_3_alg».proof.Proof.KInvDef
import proofs.«404422_j30666066493673_3_alg».proof.Proof.KPieces
import proofs.«404422_j30666066493673_3_alg».proof.Proof.KStepMath
import proofs.«404422_j30666066493673_3_alg».proof.Proof.KBlocks
import proofs.«404422_j30666066493673_3_alg».proof.Proof.Spec

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx Cert.Gnn
open Idealize.ShloMosaic.Pipeline (Dat)
open scoped BigOperators

variable (m : (ℓ : Loc nD τ sig) → Buf (Elt Ideal) ℓ)

/-- The twelve blocks of a grid point hold the argument arrays' elements. -/
private theorem blocks_at (c : Dev nD) (t : Fin cfg0.N) :
    Blocks (inp m c) (qOf t) (kvOf t) (b0 m c t) (b1 m c t) (b2 m c t) (b3 m c t) (b4 m c t) (b5 m c t) (b6 m c t) (b7 m c t) (b8 m c t) (b9 m c t) (b10 m c t) (b11 m c t) where
  h0 := b0_at m c t
  h1 := b1_at m c t
  h2 := b2_at m c t
  h3 := b3_at m c t
  h4 := fun f k => congrFun (b4_eq m c t) (ix2 f k)
  h5 := fun f => congrFun (b5_eq m c t) (ix1 f)
  h6lo := b6_lo m c t
  h6hi := b6_hi m c t
  h7lo := b7_lo m c t
  h7hi := b7_hi m c t
  h8 := fun f k => congrFun (b8_eq m c t) (ix2 f k)
  h9 := fun f => congrFun (b9_eq m c t) (ix1 f)
  h10 := fun f k => congrFun (b10_eq m c t) (ix2 f k)
  h11 := fun f => congrFun (b11_eq m c t) (ix1 f)

/-- At the first tile of a batch the edge block is the edge payload over the freshly written tables. -/
private theorem edge_A (c : Dev nD) (t : Fin cfg0.N) (h0 : t.val % 128 = 0) (h1 : ¬t.val % 128 = 127) :
    (outsAt0 m c t.val t.isLt).2.1
      = k0_pay3 (F := Ideal) (k0_pay10 (b2 m c t) (k0_pay6 (F := Ideal) (b0 m c t) (b4 m c t) (b5 m c t))) (k0_pay12 (b3 m c t) (k0_pay7 (F := Ideal) (b0 m c t) (b6 m c t) (b7 m c t))) (k0_pay14 (b1 m c t)) (k0_pay15 (b1 m c t) (b8 m c t)) (k0_pay16 (b9 m c t)) := by
  rw [outsAt0_A m c t h0 h1]
  dsimp only
  exact out_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (fun h => h1 ((hcond0_1 t).mp h)) (b0 m c t) (b1 m c t) (b2 m c t) (b3 m c t) (b4 m c t) (b5 m c t) (b6 m c t) (b7 m c t) (b8 m c t) (b9 m c t) (b10 m c t) (b11 m c t)

/-- At the first tile of a batch the source-gate table is the one just written. -/
private theorem tab0_A (c : Dev nD) (t : Fin cfg0.N) (h0 : t.val % 128 = 0) (h1 : ¬t.val % 128 = 127) :
    (outsAt0 m c t.val t.isLt).2.2.1 = k0_pay6 (F := Ideal) (b0 m c t) (b4 m c t) (b5 m c t) := by
  rw [outsAt0_A m c t h0 h1]
  dsimp only
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (fun h => h1 ((hcond0_1 t).mp h)) (b0 m c t) (b1 m c t) (b2 m c t) (b3 m c t) (b4 m c t) (b5 m c t) (b6 m c t) (b7 m c t) (b8 m c t) (b9 m c t) (b10 m c t) (b11 m c t)

/-- At the first tile of a batch the fused destination table is the one just written. -/
private theorem tab1_A (c : Dev nD) (t : Fin cfg0.N) (h0 : t.val % 128 = 0) (h1 : ¬t.val % 128 = 127) :
    (outsAt0 m c t.val t.isLt).2.2.2.1 = k0_pay7 (F := Ideal) (b0 m c t) (b6 m c t) (b7 m c t) := by
  rw [outsAt0_A m c t h0 h1]
  dsimp only
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (fun h => h1 ((hcond0_1 t).mp h)) (b0 m c t) (b1 m c t) (b2 m c t) (b3 m c t) (b4 m c t) (b5 m c t) (b6 m c t) (b7 m c t) (b8 m c t) (b9 m c t) (b10 m c t) (b11 m c t)

/-- At the first tile of a batch the accumulator is the cleared one plus the tile's contribution. -/
private theorem acc_A (c : Dev nD) (t : Fin cfg0.N) (h0 : t.val % 128 = 0) (h1 : ¬t.val % 128 = 127) :
    (outsAt0 m c t.val t.isLt).2.2.2.2
      = k0_pay2 (F := Ideal) (k0_pay9 (b2 m c t)) (k0_pay10 (b2 m c t) (k0_pay6 (F := Ideal) (b0 m c t) (b4 m c t) (b5 m c t))) (k0_pay12 (b3 m c t) (k0_pay7 (F := Ideal) (b0 m c t) (b6 m c t) (b7 m c t))) (k0_pay13 (b3 m c t) (k0_pay7 (F := Ideal) (b0 m c t) (b6 m c t) (b7 m c t))) (k0_pay15 (b1 m c t) (b8 m c t)) (k0_pay16 (b9 m c t)) (k0_pay8 (F := Ideal)) := by
  rw [outsAt0_A m c t h0 h1]
  dsimp only
  exact sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (fun h => h1 ((hcond0_1 t).mp h)) (b0 m c t) (b1 m c t) (b2 m c t) (b3 m c t) (b4 m c t) (b5 m c t) (b6 m c t) (b7 m c t) (b8 m c t) (b9 m c t) (b10 m c t) (b11 m c t)

/-- One tile summed: when the tile index is 0, the sum over the first tile is the sum over tile kv's edges. -/
private theorem tiles_first (g : Fin 65536 → EReal) (n : ℕ) (h0 : n % 128 = 0) (kv : Fin 128) (hkv : kv.val = n % 128) :
    tilesUpTo g (n % 128 + 1) = ∑ r : Fin 512, g (edgeOf kv r) := by
  have hk : kv = ⟨0, by decide⟩ := Fin.ext (by rw [hkv, h0])
  rw [h0, hk, tilesUpTo_succ g 0 (by decide), tilesUpTo_zero, zero_add]

/-- The first tile of a batch. -/
theorem step_A (c : Dev nD) (hok : (inp m c).Ok) (t : Fin cfg0.N) (h0 : t.val % 128 = 0) : Inv m c t.val t.isLt := by
  have h1 : ¬t.val % 128 = 127 := by omega
  have hb := blocks_at m c t
  have ht := tables_of_blocks (inp m c) (qOf t) (kvOf t) (b0 m c t) (b1 m c t) (b2 m c t) (b3 m c t) (b4 m c t) (b5 m c t) (b6 m c t) (b7 m c t) (b8 m c t) (b9 m c t) (b10 m c t) (b11 m c t) hb
  unfold Inv
  refine ⟨?_, ?_, ?_, ?_, ?_, ?_, ?_⟩
  · intro p f
    rw [tab0_A m c t h0 h1]
    exact ht.sg p f
  · intro p f
    rw [tab1_A m c t h0 h1]
    exact ht.dg p f
  · intro p f
    rw [tab1_A m c t h0 h1]
    exact ht.du p f
  · intro p f
    rw [acc_A m c t h0 h1]
    refine (acc_lo_of (inp m c) (qOf t) (kvOf t) hok (b0 m c t) (b1 m c t) (b2 m c t) (b3 m c t) (b4 m c t) (b5 m c t) (b6 m c t) (b7 m c t) (b8 m c t) (b9 m c t) (b10 m c t) (b11 m c t) (k0_pay6 (F := Ideal) (b0 m c t) (b4 m c t) (b5 m c t)) (k0_pay7 (F := Ideal) (b0 m c t) (b6 m c t) (b7 m c t)) (k0_pay8 (F := Ideal)) hb ht p f).trans ?_
    rw [pay8_at, zero_add]
    exact (tiles_first (fun e => if (inp m c).src e = p then (inp m c).msg (qOf t) e f else 0) t.val h0 (kvOf t) rfl).symm
  · intro p f
    rw [acc_A m c t h0 h1]
    refine (acc_hi_of (inp m c) (qOf t) (kvOf t) hok (b0 m c t) (b1 m c t) (b2 m c t) (b3 m c t) (b4 m c t) (b5 m c t) (b6 m c t) (b7 m c t) (b8 m c t) (b9 m c t) (b10 m c t) (b11 m c t) (k0_pay6 (F := Ideal) (b0 m c t) (b4 m c t) (b5 m c t)) (k0_pay7 (F := Ideal) (b0 m c t) (b6 m c t) (b7 m c t)) (k0_pay8 (F := Ideal)) hb ht p f).trans ?_
    rw [pay8_at, zero_add]
    exact (tiles_first (fun e => if (inp m c).src e = p then (inp m c).sg (qOf t) e f else 0) t.val h0 (kvOf t) rfl).symm
  · intro r f
    rw [edge_A m c t h0 h1]
    exact y_of (inp m c) (qOf t) (kvOf t) hok (b0 m c t) (b1 m c t) (b2 m c t) (b3 m c t) (b4 m c t) (b5 m c t) (b6 m c t) (b7 m c t) (b8 m c t) (b9 m c t) (b10 m c t) (b11 m c t) (k0_pay6 (F := Ideal) (b0 m c t) (b4 m c t) (b5 m c t)) (k0_pay7 (F := Ideal) (b0 m c t) (b6 m c t) (b7 m c t)) hb ht r f
  · intro h
    omega

end Cert.KernelIdeal.KV

end
-- ==== Proof.KStepB.lean ====
/-
  A middle tile: the tables stay, the accumulator gains the tile's contributions, the edge block is the tile's edge
  result.
-/
import proofs.«404422_j30666066493673_3_alg».proof.Proof.Gen.KernelIdeal.Frame
import proofs.«404422_j30666066493673_3_alg».proof.Proof.KInvDef
import proofs.«404422_j30666066493673_3_alg».proof.Proof.KPieces
import proofs.«404422_j30666066493673_3_alg».proof.Proof.KStepMath
import proofs.«404422_j30666066493673_3_alg».proof.Proof.KBlocks
import proofs.«404422_j30666066493673_3_alg».proof.Proof.Spec

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx Cert.Gnn
open Idealize.ShloMosaic.Pipeline (Dat)
open scoped BigOperators

variable (m : (ℓ : Loc nD τ sig) → Buf (Elt Ideal) ℓ)

/-- The twelve blocks of a grid point hold the argument arrays' elements of its batch and its edge tile. -/
private theorem blocks_B (c : Dev nD) (t : Fin cfg0.N) :
    Blocks (inp m c) (qOf t) (kvOf t) (b0 m c t) (b1 m c t) (b2 m c t) (b3 m c t) (b4 m c t) (b5 m c t) (b6 m c t) (b7 m c t) (b8 m c t) (b9 m c t) (b10 m c t) (b11 m c t) where
  h0 := b0_at m c t
  h1 := b1_at m c t
  h2 := b2_at m c t
  h3 := b3_at m c t
  h4 := fun f k => congrFun (b4_eq m c t) (ix2 f k)
  h5 := fun f => congrFun (b5_eq m c t) (ix1 f)
  h6lo := b6_lo m c t
  h6hi := b6_hi m c t
  h7lo := b7_lo m c t
  h7hi := b7_hi m c t
  h8 := fun f k => congrFun (b8_eq m c t) (ix2 f k)
  h9 := fun f => congrFun (b9_eq m c t) (ix1 f)
  h10 := fun f k => congrFun (b10_eq m c t) (ix2 f k)
  h11 := fun f => congrFun (b11_eq m c t) (ix1 f)

/-- A middle tile leaves the source-gate table as it found it. -/
private theorem comp_sg_B (c : Dev nD) (t : Fin cfg0.N) (h0 : ¬t.val % 128 = 0) (h1 : ¬t.val % 128 = 127) :
    (outsAt0 m c t.val t.isLt).2.2.1 = (outsAt0 m c (t.val - 1) (Nat.lt_of_le_of_lt (Nat.sub_le _ _) t.isLt)).2.2.1 := by
  rw [outsAt0_B m c t h0 h1]
  dsimp only
  rfl

/-- A middle tile leaves the fused destination table as it found it. -/
private theorem comp_dst_B (c : Dev nD) (t : Fin cfg0.N) (h0 : ¬t.val % 128 = 0) (h1 : ¬t.val % 128 = 127) :
    (outsAt0 m c t.val t.isLt).2.2.2.1 = (outsAt0 m c (t.val - 1) (Nat.lt_of_le_of_lt (Nat.sub_le _ _) t.isLt)).2.2.2.1 := by
  rw [outsAt0_B m c t h0 h1]
  dsimp only
  rfl

/-- A middle tile's accumulator: the body's accumulation over the accumulator of the tile before. -/
private theorem comp_acc_B (c : Dev nD) (t : Fin cfg0.N) (h0 : ¬t.val % 128 = 0) (h1 : ¬t.val % 128 = 127) :
    (outsAt0 m c t.val t.isLt).2.2.2.2
      = k0_pay2 (F := Ideal) (k0_pay9 (b2 m c t)) (k0_pay10 (b2 m c t) (outsAt0 m c (t.val - 1) (Nat.lt_of_le_of_lt (Nat.sub_le _ _) t.isLt)).2.2.1) (k0_pay12 (b3 m c t) (outsAt0 m c (t.val - 1) (Nat.lt_of_le_of_lt (Nat.sub_le _ _) t.isLt)).2.2.2.1)
          (k0_pay13 (b3 m c t) (outsAt0 m c (t.val - 1) (Nat.lt_of_le_of_lt (Nat.sub_le _ _) t.isLt)).2.2.2.1) (k0_pay15 (b1 m c t) (b8 m c t)) (k0_pay16 (b9 m c t)) (outsAt0 m c (t.val - 1) (Nat.lt_of_le_of_lt (Nat.sub_le _ _) t.isLt)).2.2.2.2 := by
  rw [outsAt0_B m c t h0 h1]
  dsimp only
  exact sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (b0 m c t) (b1 m c t) (b2 m c t) (b3 m c t) (b4 m c t) (b5 m c t) (b6 m c t) (b7 m c t) (b8 m c t) (b9 m c t) (b10 m c t) (b11 m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- A middle tile's edge block: the body's edge result over the tables of the tile before. -/
private theorem comp_edge_B (c : Dev nD) (t : Fin cfg0.N) (h0 : ¬t.val % 128 = 0) (h1 : ¬t.val % 128 = 127) :
    (outsAt0 m c t.val t.isLt).2.1
      = k0_pay3 (F := Ideal) (k0_pay10 (b2 m c t) (outsAt0 m c (t.val - 1) (Nat.lt_of_le_of_lt (Nat.sub_le _ _) t.isLt)).2.2.1) (k0_pay12 (b3 m c t) (outsAt0 m c (t.val - 1) (Nat.lt_of_le_of_lt (Nat.sub_le _ _) t.isLt)).2.2.2.1)
          (k0_pay14 (b1 m c t)) (k0_pay15 (b1 m c t) (b8 m c t)) (k0_pay16 (b9 m c t)) := by
  rw [outsAt0_B m c t h0 h1]
  dsimp only
  exact out_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (b0 m c t) (b1 m c t) (b2 m c t) (b3 m c t) (b4 m c t) (b5 m c t) (b6 m c t) (b7 m c t) (b8 m c t) (b9 m c t) (b10 m c t) (b11 m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The sum over the tiles up to a middle tile is the sum up to the tile before plus the tile's own. -/
private theorem tiles_step (g : Fin 65536 → EReal) (a : ℕ) (h0 : ¬a % 128 = 0) (kv : Fin 128) (hkv : kv.val = a % 128) :
    tilesUpTo g ((a - 1) % 128 + 1) + ∑ r : Fin 512, g (edgeOf kv r) = tilesUpTo g (a % 128 + 1) := by
  have e : (a - 1) % 128 + 1 = a % 128 := by omega
  have hlt : a % 128 < 128 := Nat.mod_lt _ (by decide)
  have hk : kv = ⟨a % 128, hlt⟩ := Fin.ext hkv
  rw [e, hk]
  exact (tilesUpTo_succ g (a % 128) hlt).symm

/-- A middle tile, from the state after the tile before. -/
theorem step_B (c : Dev nD) (hok : (inp m c).Ok) (t : Fin cfg0.N) (h0 : ¬t.val % 128 = 0) (h1 : ¬t.val % 128 = 127)
    (ih : Inv m c (t.val - 1) (Nat.lt_of_le_of_lt (Nat.sub_le _ _) t.isLt)) : Inv m c t.val t.isLt := by
  have hN : cfg0.N = 512 := N_0
  have hb := blocks_B m c t
  -- the point before lies in the same batch
  have hq : qOf ⟨t.val - 1, Nat.lt_of_le_of_lt (Nat.sub_le _ _) t.isLt⟩ = qOf t := by
    apply Fin.ext
    show (t.val - 1) / 128 = t.val / 128
    omega
  unfold Inv at ih
  rw [hq] at ih
  obtain ⟨i1, i2, i3, i4, i5, i6, i7⟩ := ih
  have ht : Tables (inp m c) (qOf t) (outsAt0 m c (t.val - 1) (Nat.lt_of_le_of_lt (Nat.sub_le _ _) t.isLt)).2.2.1 (outsAt0 m c (t.val - 1) (Nat.lt_of_le_of_lt (Nat.sub_le _ _) t.isLt)).2.2.2.1 := ⟨i1, i2, i3⟩
  unfold Inv
  refine ⟨?_, ?_, ?_, ?_, ?_, ?_, ?_⟩
  · intro p f
    rw [comp_sg_B m c t h0 h1]
    exact i1 p f
  · intro p f
    rw [comp_dst_B m c t h0 h1]
    exact i2 p f
  · intro p f
    rw [comp_dst_B m c t h0 h1]
    exact i3 p f
  · intro p f
    rw [comp_acc_B m c t h0 h1]
    refine (acc_lo_of (inp m c) (qOf t) (kvOf t) hok (b0 m c t) (b1 m c t) (b2 m c t) (b3 m c t) (b4 m c t) (b5 m c t) (b6 m c t) (b7 m c t) (b8 m c t) (b9 m c t) (b10 m c t) (b11 m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 hb ht p f).trans ?_
    rw [i4 p f]
    exact tiles_step (fun e => if (inp m c).src e = p then (inp m c).msg (qOf t) e f else 0) t.val h0 (kvOf t) rfl
  · intro p f
    rw [comp_acc_B m c t h0 h1]
    refine (acc_hi_of (inp m c) (qOf t) (kvOf t) hok (b0 m c t) (b1 m c t) (b2 m c t) (b3 m c t) (b4 m c t) (b5 m c t) (b6 m c t) (b7 m c t) (b8 m c t) (b9 m c t) (b10 m c t) (b11 m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 hb ht p f).trans ?_
    rw [i5 p f]
    exact tiles_step (fun e => if (inp m c).src e = p then (inp m c).sg (qOf t) e f else 0) t.val h0 (kvOf t) rfl
  · intro r f
    rw [comp_edge_B m c t h0 h1]
    exact y_of (inp m c) (qOf t) (kvOf t) hok (b0 m c t) (b1 m c t) (b2 m c t) (b3 m c t) (b4 m c t) (b5 m c t) (b6 m c t) (b7 m c t) (b8 m c t) (b9 m c t) (b10 m c t) (b11 m c t) (outsAt0 m c (t.val - 1) (Nat.lt_of_le_of_lt (Nat.sub_le _ _) t.isLt)).2.2.1 (outsAt0 m c (t.val - 1) (Nat.lt_of_le_of_lt (Nat.sub_le _ _) t.isLt)).2.2.2.1 hb ht r f
  · intro h
    exact absurd h h1

end Cert.KernelIdeal.KV

end
-- ==== Proof.KStepC.lean ====
/-
  The last tile of a batch: as a middle tile, and the accumulator now holds the sums over all of the batch's edges,
  from which the node block is the node result.
-/
import proofs.«404422_j30666066493673_3_alg».proof.Proof.Gen.KernelIdeal.Frame
import proofs.«404422_j30666066493673_3_alg».proof.Proof.KInvDef
import proofs.«404422_j30666066493673_3_alg».proof.Proof.KPieces
import proofs.«404422_j30666066493673_3_alg».proof.Proof.KStepMath
import proofs.«404422_j30666066493673_3_alg».proof.Proof.KBlocks
import proofs.«404422_j30666066493673_3_alg».proof.Proof.Spec

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx Cert.Gnn
open Idealize.ShloMosaic.Pipeline (Dat)
open scoped BigOperators

variable (m : (ℓ : Loc nD τ sig) → Buf (Elt Ideal) ℓ)

/-- The source-gate table, the fused destination table and the accumulator as the point before left them. -/
private abbrev pT0 (c : Dev nD) (t : Fin cfg0.N) : Vec Ideal S4096x128 .bf16 :=
  (outsAt0 m c (t.val - 1) (Nat.lt_of_le_of_lt (Nat.sub_le _ _) t.isLt)).2.2.1
private abbrev pT1 (c : Dev nD) (t : Fin cfg0.N) : Vec Ideal S4096x256 .bf16 :=
  (outsAt0 m c (t.val - 1) (Nat.lt_of_le_of_lt (Nat.sub_le _ _) t.isLt)).2.2.2.1
private abbrev pAcc (c : Dev nD) (t : Fin cfg0.N) : Vec Ideal S4096x256 .f32 :=
  (outsAt0 m c (t.val - 1) (Nat.lt_of_le_of_lt (Nat.sub_le _ _) t.isLt)).2.2.2.2

/-- The accumulator after this tile: what it held plus the tile's contribution. -/
private abbrev accNow (c : Dev nD) (t : Fin cfg0.N) : Vec Ideal S4096x256 .f32 :=
  k0_pay2 (F := Ideal) (k0_pay9 (b2 m c t)) (k0_pay10 (b2 m c t) (pT0 m c t)) (k0_pay12 (b3 m c t) (pT1 m c t))
    (k0_pay13 (b3 m c t) (pT1 m c t)) (k0_pay15 (b1 m c t) (b8 m c t)) (k0_pay16 (b9 m c t)) (pAcc m c t)

/-- The twelve blocks of a grid point hold the argument arrays' elements. -/
private theorem blocks_at (c : Dev nD) (t : Fin cfg0.N) :
    Blocks (inp m c) (qOf t) (kvOf t) (b0 m c t) (b1 m c t) (b2 m c t) (b3 m c t) (b4 m c t) (b5 m c t) (b6 m c t) (b7 m c t) (b8 m c t) (b9 m c t) (b10 m c t) (b11 m c t) := by
  constructor
  · exact b0_at m c t
  · exact b1_at m c t
  · exact b2_at m c t
  · exact b3_at m c t
  · intro f k; rw [b4_eq]
  · intro f; rw [b5_eq]
  · exact b6_lo m c t
  · exact b6_hi m c t
  · exact b7_lo m c t
  · exact b7_hi m c t
  · intro f k; rw [b8_eq]
  · intro f; rw [b9_eq]
  · intro f k; rw [b10_eq]
  · intro f; rw [b11_eq]

/-- A point that is not the first of its batch lies in the batch of the point before. -/
private theorem qOf_pred (t : Fin cfg0.N) (h0 : ¬t.val % 128 = 0) :
    qOf ⟨t.val - 1, Nat.lt_of_le_of_lt (Nat.sub_le _ _) t.isLt⟩ = qOf t := by
  apply Fin.ext
  show (t.val - 1) / 128 = t.val / 128
  omega

/-- The tables the point before left are the batch's projections. -/
private theorem tables_prev (c : Dev nD) (t : Fin cfg0.N) (h0 : ¬t.val % 128 = 0)
    (ih : Inv m c (t.val - 1) (Nat.lt_of_le_of_lt (Nat.sub_le _ _) t.isLt)) :
    Tables (inp m c) (qOf t) (pT0 m c t) (pT1 m c t) := by
  have hq := qOf_pred t h0
  unfold Inv at ih
  obtain ⟨i1, i2, i3, -⟩ := ih
  rw [hq] at i1 i2 i3
  exact ⟨i1, i2, i3⟩

/-- The accumulator's message half after this tile: the sum over the tiles up to and including this one. -/
private theorem acc_lo_now (c : Dev nD) (hok : (inp m c).Ok) (t : Fin cfg0.N) (h0 : ¬t.val % 128 = 0)
    (ih : Inv m c (t.val - 1) (Nat.lt_of_le_of_lt (Nat.sub_le _ _) t.isLt)) (p : Fin 4096) (f : Fin 128) :
    accNow m c t (ix2 p ⟨f.val, by have := f.isLt; omega⟩)
      = tilesUpTo (fun e => if (inp m c).src e = p then (inp m c).msg (qOf t) e f else 0) (t.val % 128 + 1) := by
  have hq := qOf_pred t h0
  have hkk : (t.val - 1) % 128 + 1 = t.val % 128 := by omega
  have hk : t.val % 128 < 128 := Nat.mod_lt _ (by decide)
  have i4 := ih.2.2.2.1 p f
  rw [hq, hkk] at i4
  refine (acc_lo_of (inp m c) (qOf t) (kvOf t) hok (b0 m c t) (b1 m c t) (b2 m c t) (b3 m c t) (b4 m c t) (b5 m c t) (b6 m c t) (b7 m c t) (b8 m c t) (b9 m c t) (b10 m c t) (b11 m c t) (pT0 m c t) (pT1 m c t) (pAcc m c t)
    (blocks_at m c t) (tables_prev m c t h0 ih) p f).trans ?_
  rw [tilesUpTo_succ _ _ hk]
  exact congrArg (· + _) i4

/-- The accumulator's gate half after this tile. -/
private theorem acc_hi_now (c : Dev nD) (hok : (inp m c).Ok) (t : Fin cfg0.N) (h0 : ¬t.val % 128 = 0)
    (ih : Inv m c (t.val - 1) (Nat.lt_of_le_of_lt (Nat.sub_le _ _) t.isLt)) (p : Fin 4096) (f : Fin 128) :
    accNow m c t (ix2 p ⟨f.val + 128, by have := f.isLt; omega⟩)
      = tilesUpTo (fun e => if (inp m c).src e = p then (inp m c).sg (qOf t) e f else 0) (t.val % 128 + 1) := by
  have hq := qOf_pred t h0
  have hkk : (t.val - 1) % 128 + 1 = t.val % 128 := by omega
  have hk : t.val % 128 < 128 := Nat.mod_lt _ (by decide)
  have i5 := ih.2.2.2.2.1 p f
  rw [hq, hkk] at i5
  refine (acc_hi_of (inp m c) (qOf t) (kvOf t) hok (b0 m c t) (b1 m c t) (b2 m c t) (b3 m c t) (b4 m c t) (b5 m c t) (b6 m c t) (b7 m c t) (b8 m c t) (b9 m c t) (b10 m c t) (b11 m c t) (pT0 m c t) (pT1 m c t) (pAcc m c t)
    (blocks_at m c t) (tables_prev m c t h0 ih) p f).trans ?_
  rw [tilesUpTo_succ _ _ hk]
  exact congrArg (· + _) i5

/-- The last tile, from the state after the tile before. -/
theorem step_C (c : Dev nD) (hok : (inp m c).Ok) (t : Fin cfg0.N) (h0 : ¬t.val % 128 = 0) (h1 : t.val % 128 = 127)
    (ih : Inv m c (t.val - 1) (Nat.lt_of_le_of_lt (Nat.sub_le _ _) t.isLt)) : Inv m c t.val t.isLt := by
  have hb := blocks_at m c t
  have ht := tables_prev m c t h0 ih
  unfold Inv
  rw [outsAt0_C m c t h0 h1]
  dsimp only
  refine ⟨?_, ?_, ?_, ?_, ?_, ?_, ?_⟩
  · intro p f
    exact ht.sg p f
  · intro p f
    exact ht.dg p f
  · intro p f
    exact ht.du p f
  · intro p f
    rw [sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (b5 m c t) (b6 m c t) (b7 m c t) (b8 m c t) (b9 m c t) (b10 m c t) (b11 m c t) (pT0 m c t) (pT1 m c t) (pAcc m c t)]
    exact acc_lo_now m c hok t h0 ih p f
  · intro p f
    rw [sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (b5 m c t) (b6 m c t) (b7 m c t) (b8 m c t) (b9 m c t) (b10 m c t) (b11 m c t) (pT0 m c t) (pT1 m c t) (pAcc m c t)]
    exact acc_hi_now m c hok t h0 ih p f
  · intro r f
    rw [out_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (b5 m c t) (b6 m c t) (b7 m c t) (b8 m c t) (b9 m c t) (b10 m c t) (b11 m c t) (pT0 m c t) (pT1 m c t) (pAcc m c t)]
    exact y_of (inp m c) (qOf t) (kvOf t) hok (b0 m c t) (b1 m c t) (b2 m c t) (b3 m c t) (b4 m c t) (b5 m c t) (b6 m c t) (b7 m c t) (b8 m c t) (b9 m c t) (b10 m c t) (b11 m c t) (pT0 m c t) (pT1 m c t) hb ht r f
  · intro _ p f
    rw [out_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (b5 m c t) (b6 m c t) (b7 m c t) (b8 m c t) (b9 m c t) (b10 m c t) (b11 m c t) (pT0 m c t) (pT1 m c t) (pAcc m c t)]
    refine x_of (inp m c) (qOf t) (kvOf t) (b0 m c t) (b1 m c t) (b2 m c t) (b3 m c t) (b4 m c t) (b5 m c t) (b6 m c t) (b7 m c t) (b8 m c t) (b9 m c t) (b10 m c t) (b11 m c t) (accLo (accNow m c t)) (accHi (accNow m c t)) hb ?_ ?_ p f
    · intro p f
      show accNow m c t (ix2 p ⟨f.val, _⟩) = _
      rw [acc_lo_now m c hok t h0 ih p f, h1]
      exact tilesUpTo_all _
    · intro p f
      show accNow m c t (ix2 p ⟨f.val + 128, _⟩) = _
      rw [acc_hi_now m c hok t h0 ih p f, h1]
      exact tilesUpTo_all _

end Cert.KernelIdeal.KV

end
-- ==== Proof.KInv.lean ====
/-
  The state after every grid point, by induction on the point: the first tile of a batch starts afresh, every other
  tile continues from the one before.
-/
import proofs.«404422_j30666066493673_3_alg».proof.Proof.KInvDef
import proofs.«404422_j30666066493673_3_alg».proof.Proof.KStepA
import proofs.«404422_j30666066493673_3_alg».proof.Proof.KStepB
import proofs.«404422_j30666066493673_3_alg».proof.Proof.KStepC

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx Cert.Gnn
open Idealize.ShloMosaic.Pipeline (Dat)
open scoped BigOperators

variable (m : (ℓ : Loc nD τ sig) → Buf (Elt Ideal) ℓ)

/-- The state after every grid point. -/
theorem inv_all (c : Dev nD) (hok : (inp m c).Ok) : ∀ (n : ℕ) (h : n < cfg0.N), Inv m c n h := by
  intro n
  induction n with
  | zero => intro h; exact step_A m c hok ⟨0, h⟩ rfl
  | succ k ih =>
    intro h
    have hN : cfg0.N = 512 := N_0
    by_cases h0 : (k + 1) % 128 = 0
    · exact step_A m c hok ⟨k + 1, h⟩ h0
    · by_cases h1 : (k + 1) % 128 = 127
      · exact step_C m c hok ⟨k + 1, h⟩ h0 h1 (ih (Nat.lt_of_succ_lt h))
      · exact step_B m c hok ⟨k + 1, h⟩ h0 h1 (ih (Nat.lt_of_succ_lt h))

end Cert.KernelIdeal.KV

end
-- ==== Proof.KFinal.lean ====
/-
  The two result arrays after the kernel's run are the specification's: every block written back is the
  specification read through the block, and the blocks written back cover the arrays (the edge result by all 512
  points, the node result by the last point of each batch).
-/
import proofs.«404422_j30666066493673_3_alg».proof.Proof.Gen.KernelIdeal.Value
import proofs.«404422_j30666066493673_3_alg».proof.Proof.KInv
import proofs.«404422_j30666066493673_3_alg».proof.Proof.Spec
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx Cert.Gnn
open Idealize.ShloMosaic.Pipeline (Dat)
open scoped BigOperators

variable (m : (ℓ : Loc nD τ sig) → Buf (Elt Ideal) ℓ) (ρ : Dev nD → PrngReg)

/-! ## The two result windows over the grid -/

/-- The node result's window sits at batch q on its first axis and at zero on the others. -/
theorem result_idx12 : ∀ t : Fin cfg0.N,
    win0_12.index t (0 : Fin 3) = t.val / 128 ∧ win0_12.index t (1 : Fin 3) = 0 ∧ win0_12.index t (2 : Fin 3) = 0 :=
  (by decide +kernel : ∀ t : Fin grid0.N, _)

/-- The edge result's window sits at batch q, edge tile kv, feature block zero. -/
theorem result_idx13 : ∀ t : Fin cfg0.N,
    win0_13.index t (0 : Fin 3) = t.val / 128 ∧ win0_13.index t (1 : Fin 3) = t.val % 128 ∧ win0_13.index t (2 : Fin 3) = 0 :=
  (by decide +kernel : ∀ t : Fin grid0.N, _)

/-! ## What a point writes back is the specification read through its block -/

/-- The edge block written back at point t = 128 · q + kv is rows 512 · kv … of batch q of the edge result. -/
theorem written13_eq (c : Dev nD) (hok : (inp m c).Ok) (t : Fin cfg0.N) :
    (dats m 0 c).flushed 13 t = ((cfg0.win 13).blk t).view.read (Elt Ideal) ((inp m c).yOut) := by
  have hi := result_idx13 t
  have hinv := (inv_all m c hok t.val t.isLt).2.2.2.2.2.1
  rw [Value.flushed13]
  funext y
  obtain ⟨a, r, f, rfl⟩ : ∃ (a : Fin 1) (r : Fin 512) (f : Fin 128), y = ix3 a r f := ⟨y 0, y 1, y 2, eq_ix3 y⟩
  obtain rfl : a = 0 := Subsingleton.elim _ _
  rw [View.read_apply]
  show (outsAt0 m c t.val t.isLt).2.1 (ix3 0 r f) = (inp m c).yOut _
  rw [hinv r f]
  have he : ((cfg0.win 13).blk t).view.emb (ix3 0 r f) = ix3 (qOf t) (edgeOf (kvOf t) r) f := by
    funext a
    apply Fin.ext
    match a with
    | ⟨0, _⟩ => show win0_13.index t (0 : Fin 3) * 1 + 1 * 0 = t.val / 128; rw [hi.1]; omega
    | ⟨1, _⟩ => show win0_13.index t (1 : Fin 3) * 512 + 1 * r.val = 512 * (t.val % 128) + r.val; rw [hi.2.1]; omega
    | ⟨2, _⟩ => show win0_13.index t (2 : Fin 3) * 128 + 1 * f.val = f.val; rw [hi.2.2]; omega
  rw [he]
  rfl

/-- The node block written back at the last point of batch q is batch q of the node result. -/
theorem written12_eq (c : Dev nD) (hok : (inp m c).Ok) (t : Fin cfg0.N) (hf : (cfg0.win 12).flush t = true) :
    (dats m 0 c).flushed 12 t = ((cfg0.win 12).blk t).view.read (Elt Ideal) ((inp m c).xOut) := by
  have h127 : t.val % 128 = 127 := (flush0_12 t).mp hf
  have hi := result_idx12 t
  have hinv := (inv_all m c hok t.val t.isLt).2.2.2.2.2.2 h127
  rw [Value.flushed12]
  funext y
  obtain ⟨a, p, f, rfl⟩ : ∃ (a : Fin 1) (p : Fin 4096) (f : Fin 128), y = ix3 a p f := ⟨y 0, y 1, y 2, eq_ix3 y⟩
  obtain rfl : a = 0 := Subsingleton.elim _ _
  rw [View.read_apply]
  show (outsAt0 m c t.val t.isLt).1 (ix3 0 p f) = (inp m c).xOut _
  rw [hinv p f]
  have he : ((cfg0.win 12).blk t).view.emb (ix3 0 p f) = ix3 (qOf t) p f := by
    funext a
    apply Fin.ext
    match a with
    | ⟨0, _⟩ => show win0_12.index t (0 : Fin 3) * 1 + 1 * 0 = t.val / 128; rw [hi.1]; omega
    | ⟨1, _⟩ => show win0_12.index t (1 : Fin 3) * 4096 + 1 * p.val = p.val; rw [hi.2.1]; omega
    | ⟨2, _⟩ => show win0_12.index t (2 : Fin 3) * 128 + 1 * f.val = f.val; rw [hi.2.2]; omega
  rw [he]
  rfl

/-! ## The blocks written back cover the arrays -/

/-- An index of the node result is in point t's block iff each coordinate is in the block's range on its axis. -/
theorem result_mem12 (t : Fin cfg0.N) (i : S4x4096x128.Idx) :
    i ∈ ((cfg0.win 12).blk t).view.set ↔ ∀ a : Fin 3, win0_12.index t a * S1x4096x128.size a ≤ (i a).val ∧ (i a).val < win0_12.index t a * S1x4096x128.size a + S1x4096x128.size a := by
  show i ∈ ((View.whole main_v4_0).slice (win0_12.rect t)).set ↔ _
  rw [View.set_slice_whole, Rect.mem_set_unit]
  exact Iff.rfl

/-- An index of the edge result is in point t's block iff each coordinate is in the block's range on its axis. -/
theorem result_mem13 (t : Fin cfg0.N) (i : S4x65536x128.Idx) :
    i ∈ ((cfg0.win 13).blk t).view.set ↔ ∀ a : Fin 3, win0_13.index t a * S1x512x128.size a ≤ (i a).val ∧ (i a).val < win0_13.index t a * S1x512x128.size a + S1x512x128.size a := by
  show i ∈ ((View.whole main_v4_1).slice (win0_13.rect t)).set ↔ _
  rw [View.set_slice_whole, Rect.mem_set_unit]
  exact Iff.rfl

/-- Every index (q, n, f) of the node result lies in the block of the last point of batch q. -/
theorem result_cover12 (i : S4x4096x128.Idx) :
    ∃ t : Fin cfg0.N, (cfg0.win 12).flush t = true ∧ i ∈ ((cfg0.win 12).blk t).view.set := by
  have h0 : (i 0).val < 4 := (i 0).isLt
  have h1 : (i 1).val < 4096 := (i 1).isLt
  have h2 : (i 2).val < 128 := (i 2).isLt
  have hN : cfg0.N = 512 := N_0
  obtain ⟨t, ht⟩ : ∃ t : Fin cfg0.N, t.val = 128 * (i 0).val + 127 := ⟨⟨128 * (i 0).val + 127, by omega⟩, rfl⟩
  obtain ⟨e0, e1, e2⟩ := result_idx12 t
  refine ⟨t, (flush0_12 t).mpr (by omega), ?_⟩
  rw [result_mem12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 4096 ≤ (i 1).val ∧ (i 1).val < win0_12.index t (1 : Fin 3) * 4096 + 4096; omega
  | ⟨2, _⟩ => show win0_12.index t (2 : Fin 3) * 128 ≤ (i 2).val ∧ (i 2).val < win0_12.index t (2 : Fin 3) * 128 + 128; omega

/-- Every index (q, e, f) of the edge result lies in the block of the point of batch q and of e's tile. -/
theorem result_cover13 (i : S4x65536x128.Idx) :
    ∃ t : Fin cfg0.N, (cfg0.win 13).flush t = true ∧ i ∈ ((cfg0.win 13).blk t).view.set := by
  have h0 : (i 0).val < 4 := (i 0).isLt
  have h1 : (i 1).val < 65536 := (i 1).isLt
  have h2 : (i 2).val < 128 := (i 2).isLt
  have hN : cfg0.N = 512 := N_0
  obtain ⟨t, ht⟩ : ∃ t : Fin cfg0.N, t.val = 128 * (i 0).val + (i 1).val / 512 := ⟨⟨128 * (i 0).val + (i 1).val / 512, by omega⟩, rfl⟩
  obtain ⟨e0, e1, e2⟩ := result_idx13 t
  refine ⟨t, flush0_13 t, ?_⟩
  rw [result_mem13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 512 ≤ (i 1).val ∧ (i 1).val < win0_13.index t (1 : Fin 3) * 512 + 512; omega
  | ⟨2, _⟩ => show win0_13.index t (2 : Fin 3) * 128 ≤ (i 2).val ∧ (i 2).val < win0_13.index t (2 : Fin 3) * 128 + 128; omega

/-! ## The arrays after the run -/

/-- The node result array after the run. -/
theorem final12 (c : Dev nD) (hok : (inp m c).Ok) : (dats m 0 c).arrAt 12 cfg0.N = (inp m c).xOut :=
  (dats m 0 c).arrAt_eq_of_cover 12 ((inp m c).xOut) (fun t hf => written12_eq m c hok t hf) result_cover12

/-- The edge result array after the run. -/
theorem final13 (c : Dev nD) (hok : (inp m c).Ok) : (dats m 0 c).arrAt 13 cfg0.N = (inp m c).yOut :=
  (dats m 0 c).arrAt_eq_of_cover 13 ((inp m c).yOut) (fun t _ => written13_eq m c hok t) result_cover13

/-- The kernel program's run: it ends with the two results at the specification and the arguments unchanged. -/
theorem kernel_run (hok : ∀ c : Dev nD, (inp m c).Ok) :
    θ_run defs (onTc (τ := τ) (main (F := Ideal))) ⟨m, fun _ => 0, ρ⟩ fun r => ∀ c : Dev nD,
      r.2.mem ((c : Thread nD τ).loc main_v4_0) = (inp m c).xOut
      ∧ r.2.mem ((c : Thread nD τ).loc main_v4_1) = (inp m c).yOut
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final12 m c (hok c)), (h c).2.1.trans (final13 m c (hok c)), (h c).2.2⟩)
    (Cert.KernelIdeal.Value.run_blocks m ρ)

end Cert.KernelIdeal.KV

end
-- ==== Proof.RefIndex.lean ====
/-
  The reference's indexed read and indexed add, at one element, for in-range indices: the read of node rows by a
  list of 65536 indices returns, at edge e, the row the index names; the add of edge rows into node rows returns,
  at node n, what was there plus the sum of the rows whose index names n. Also: an in-range index is left alone by
  the wrap-around of negative indices that precedes both.
-/
import proofs.«404422_j30666066493673_3_alg».proof.Proof.Gen.ReferenceIdeal
import proofs.«404422_j30666066493673_3_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx Cert.Gnn
open scoped BigOperators

/-- The wrap-around of a negative index (add 4096 where the word is below zero) leaves an in-range word alone. -/
theorem norm_word (w : BitVec 32) (h : InRange w) :
    Scalar.select (IntOp.cmpi .slt w 0#32) (IntOp.addi w 4096#32) w = w := by
  -- read signed, the word is not below zero, so the comparison's bit is 0 and the selection keeps the word
  have hs : w.slt 0#32 = false := by
    unfold BitVec.slt
    exact decide_eq_false (by rw [BitVec.toInt_zero]; exact not_lt.mpr h.1)
  have hc : IntOp.cmpi .slt w 0#32 = 0#1 := by
    show BitVec.ofBool (w.slt 0#32) = 0#1
    rw [hs]; rfl
  rw [hc]
  exact select_zero _ _

/-- The read's dimension record, under a short name. -/
private abbrev G := gather_S4x4096x128_S65536x1_S4x65536x128_02_1_n_n_1_1_41128

/-- The indexed read of node rows: at edge e the result is the row named by index e. -/
theorem gather_rows {α : Type} (x : S4x4096x128.Idx → α) (idx : IVec S65536x1 32) (q : Fin 4) (e : Fin 65536) (f : Fin 128)
    (h : InRange (idx (ix2 e 0))) :
    Host.gather gather_S4x4096x128_S65536x1_S4x65536x128_02_1_n_n_1_1_41128 x idx (ix3 q e f) = x (ix3 q (node (idx (ix2 e 0))) f) := by
  unfold Host.gather
  congr 1
  funext a
  refine Fin.ext ?_
  -- axis by axis: the batch and feature axes carry the result's own coordinates, the node axis the clamped index
  match a with
  | ⟨0, _⟩ =>
    show G.start (ix3 q e f) idx 0 + G.batchCoord (ix3 q e f) 0 + G.offCoord (ix3 q e f) 0 = q.val
    rw [GatherDims.batchCoord_eq_zero _ _ _ List.not_mem_nil]
    have hs : G.start (ix3 q e f) idx 0 = 0 := by
      unfold GatherDims.start
      exact dif_neg (by decide)
    have ho : G.offCoord (ix3 q e f) 0 = q.val := by
      unfold GatherDims.offCoord
      rw [dif_pos (by decide)]
      rfl
    rw [hs, ho]; omega
  | ⟨1, _⟩ =>
    show G.start (ix3 q e f) idx 1 + G.batchCoord (ix3 q e f) 1 + G.offCoord (ix3 q e f) 1 = (node (idx (ix2 e 0))).val
    rw [GatherDims.batchCoord_eq_zero _ _ _ List.not_mem_nil,
      GatherDims.offCoord_eq_zero _ _ _ (by decide)]
    simp only [Nat.add_zero]
    unfold GatherDims.start
    rw [dif_pos (show (1 : Fin 3) ∈ G.startIndexMap from List.mem_singleton.mpr rfl)]
    have hsi : G.siIdx (ix3 q e f) ⟨List.idxOf (1 : Fin 3) G.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    exact h.clamp
  | ⟨2, _⟩ =>
    show G.start (ix3 q e f) idx 2 + G.batchCoord (ix3 q e f) 2 + G.offCoord (ix3 q e f) 2 = f.val
    rw [GatherDims.batchCoord_eq_zero _ _ _ List.not_mem_nil]
    have hs : G.start (ix3 q e f) idx 2 = 0 := by
      unfold GatherDims.start
      exact dif_neg (by decide)
    have ho : G.offCoord (ix3 q e f) 2 = f.val := by
      unfold GatherDims.offCoord
      rw [dif_pos (by decide)]
      rfl
    rw [hs, ho]; omega

/-- The add's dimension record, under a short name. -/
private abbrev Sc := scatter_S4x4096x128_S65536x1_S4x65536x128_02_1_1_1

/-- On the batch axis a row's window starts at 0. -/
private theorem sc_start0 (j : S4x65536x128.Idx) (idx : IVec S65536x1 32) : Sc.start j idx 0 = 0 := by
  unfold ScatterDims.start
  exact dif_neg (by decide)

/-- On the feature axis a row's window starts at 0. -/
private theorem sc_start2 (j : S4x65536x128.Idx) (idx : IVec S65536x1 32) : Sc.start j idx 2 = 0 := by
  unfold ScatterDims.start
  exact dif_neg (by decide)

/-- On the node axis a row's window starts at its index word, read signed. -/
private theorem sc_start1 (j : S4x65536x128.Idx) (idx : IVec S65536x1 32) :
    Sc.start j idx 1 = (idx (ix2 (j 1) 0)).toInt := by
  unfold ScatterDims.start
  rw [dif_pos (show (1 : Fin 3) ∈ Sc.scatterDimsToOperandDims from List.mem_singleton.mpr rfl)]
  have hsi : Sc.siIdx j ⟨List.idxOf (1 : Fin 3) Sc.scatterDimsToOperandDims,
      List.idxOf_lt_length_iff.2 (List.mem_singleton.mpr rfl)⟩ = ix2 (j 1) 0 := by
    funext b; refine Fin.ext ?_
    match b with
    | ⟨0, _⟩ => rfl
    | ⟨1, _⟩ => rfl
  exact congrArg (fun i => (idx i).toInt) hsi

/-- The window coordinate on the batch axis is the row's batch coordinate. -/
private theorem sc_window0 (j : S4x65536x128.Idx) : Sc.window j 0 = (j 0).val := by
  unfold ScatterDims.window
  rw [dif_pos (by decide)]
  rfl

/-- The node axis is inserted: no window coordinate there. -/
private theorem sc_window1 (j : S4x65536x128.Idx) : Sc.window j 1 = 0 := by
  unfold ScatterDims.window
  exact dif_neg (by decide)

/-- The window coordinate on the feature axis is the row's feature coordinate. -/
private theorem sc_window2 (j : S4x65536x128.Idx) : Sc.window j 2 = (j 2).val := by
  unfold ScatterDims.window
  rw [dif_pos (by decide)]
  rfl

/-- Where an update lands when its index word is in range: same batch and feature, the node the word names. -/
private theorem sc_resultIdx (idx : IVec S65536x1 32) (j : S4x65536x128.Idx) (h : InRange (idx (ix2 (j 1) 0))) :
    Sc.resultIdx? j idx = some (ix3 (j 0) (node (idx (ix2 (j 1) 0))) (j 2)) := by
  have hlt := h.toNat_lt
  have hti := h.toInt_eq
  have h0 : (j 0).val < 4 := (j 0).isLt
  have h2 : (j 2).val < 128 := (j 2).isLt
  have hc : ∀ a, 0 ≤ Sc.start j idx a + Sc.window j a ∧ Sc.start j idx a + (Sc.window j a : Int) < (S4x4096x128.size a : Int) := by
    intro a
    match a with
    | ⟨0, _⟩ =>
      show 0 ≤ Sc.start j idx 0 + Sc.window j 0 ∧ Sc.start j idx 0 + (Sc.window j 0 : Int) < ((4 : Nat) : Int)
      rw [sc_start0, sc_window0]; omega
    | ⟨1, _⟩ =>
      show 0 ≤ Sc.start j idx 1 + Sc.window j 1 ∧ Sc.start j idx 1 + (Sc.window j 1 : Int) < ((4096 : Nat) : Int)
      rw [sc_start1, sc_window1, hti]; omega
    | ⟨2, _⟩ =>
      show 0 ≤ Sc.start j idx 2 + Sc.window j 2 ∧ Sc.start j idx 2 + (Sc.window j 2 : Int) < ((128 : Nat) : Int)
      rw [sc_start2, sc_window2]; omega
  unfold ScatterDims.resultIdx?
  rw [dif_pos hc]
  congr 1
  funext a
  refine Fin.ext ?_
  match a with
  | ⟨0, _⟩ =>
    show (Sc.start j idx 0 + Sc.window j 0).toNat = (j 0).val
    rw [sc_start0, sc_window0]; omega
  | ⟨1, _⟩ =>
    show (Sc.start j idx 1 + Sc.window j 1).toNat = (node (idx (ix2 (j 1) 0))).val
    rw [sc_start1, sc_window1, h.node_val, hti]; omega
  | ⟨2, _⟩ =>
    show (Sc.start j idx 2 + Sc.window j 2).toNat = (j 2).val
    rw [sc_start2, sc_window2]; omega

/-- The indexed add of edge rows into node rows, over the extended reals: node n receives the rows whose index names n. -/
theorem scatter_rows (x : FVec Ideal S4x4096x128 .f32) (idx : IVec S65536x1 32) (upd : FVec Ideal S4x65536x128 .f32)
    (q : Fin 4) (n : Fin 4096) (f : Fin 128) (h : ∀ e : Fin 65536, InRange (idx (ix2 e 0))) :
    Host.scatterAdd (F := Ideal) (φ := .f32) scatter_S4x4096x128_S65536x1_S4x65536x128_02_1_1_1 x idx upd (ix3 q n f)
      = x (ix3 q n f) + ∑ e : Fin 65536, if node (idx (ix2 e 0)) = n then upd (ix3 q e f) else 0 := by
  unfold Host.scatterAdd
  rw [Ideal.hostScatterAdd_def]
  unfold Ideal.hostScatterAdd
  refine congrArg (fun s => x (ix3 q n f) + s) ?_
  rw [← Finset.sum_filter]
  -- the rows landing at (q, n, f) are the rows (q, e, f) with e's index naming n
  have key : ∀ j : S4x65536x128.Idx, Sc.resultIdx? j idx = some (ix3 q n f) →
      j 0 = q ∧ node (idx (ix2 (j 1) 0)) = n ∧ j 2 = f := by
    intro j hj
    rw [sc_resultIdx idx j (h (j 1))] at hj
    have hi := Option.some.inj hj
    exact ⟨congrArg (fun i : S4x4096x128.Idx => i 0) hi, congrArg (fun i : S4x4096x128.Idx => i 1) hi,
      congrArg (fun i : S4x4096x128.Idx => i 2) hi⟩
  refine Finset.sum_nbij' (fun j => j 1) (fun e => ix3 q e f) ?_ ?_ ?_ ?_ ?_
  · intro j hj
    exact Finset.mem_filter.mpr ⟨Finset.mem_univ _, (key j (Finset.mem_filter.mp hj).2).2.1⟩
  · intro e he
    refine Finset.mem_filter.mpr ⟨Finset.mem_univ _, ?_⟩
    rw [sc_resultIdx idx (ix3 q e f) (h e)]
    show some (ix3 q (node (idx (ix2 e 0))) f) = some (ix3 q n f)
    rw [(Finset.mem_filter.mp he).2]
  · intro j hj
    obtain ⟨e0, _, e2⟩ := key j (Finset.mem_filter.mp hj).2
    show ix3 q (j 1) f = j
    rw [← e0, ← e2]; exact (eq_ix3 j).symm
  · intro e he
    rfl
  · intro j hj
    obtain ⟨e0, _, e2⟩ := key j (Finset.mem_filter.mp hj).2
    show upd j = upd (ix3 q (j 1) f)
    rw [← e0, ← e2]; exact congrArg upd (eq_ix3 j)

end Cert.ReferenceIdeal.RefValue

end
-- ==== Proof.RefEdge.lean ====
/-
  The reference's edge-level stages are the specification's: the gate's argument y, the gate σ, the gated message,
  and the edge result, each read at one element through the generated one-operation-at-a-time lemmas; the three
  indexed reads of node rows are read by hand.
-/
import proofs.«404422_j30666066493673_3_alg».proof.Proof.Gen.ReferenceIdeal.Read
import proofs.«404422_j30666066493673_3_alg».proof.Proof.RefIndex
import proofs.«404422_j30666066493673_3_alg».proof.Proof.Spec
import Idealize.ShloMosaic.PureOps.IdealRules

set_option maxRecDepth 16384

noncomputable section

namespace Cert.ReferenceIdeal.RefValue

open Cert.ReferenceIdeal Cert.ReferenceIdeal.Gen Idealize.ShloMosaic Idealize.ShloMosaic.ValueIdx Cert.Gnn
open scoped BigOperators
open Cert.ReferenceIdeal.Read

/-! ### The index functions of the product, the bias broadcast and the index-list broadcast, at coordinates -/

/-- The left operand of a node-row product is read at (q, n, k). -/
private theorem lidxN (q : Fin 4) (n : Fin 4096) (f k : Fin 128) : lidx_main_v0 (ix3 q n f) k = ix3 q n k :=
  funext fun a => by match a with | ⟨0, _⟩ => rfl | ⟨1, _⟩ => rfl | ⟨2, _⟩ => rfl

/-- The weight is read at (f, k): the product is with the transpose. -/
private theorem ridxN (q : Fin 4) (n : Fin 4096) (f k : Fin 128) : ridx_main_v0 (ix3 q n f) k = ix2 f k :=
  funext fun a => by match a with | ⟨0, _⟩ => rfl | ⟨1, _⟩ => rfl

/-- The same two for an edge-row product. -/
private theorem lidxE (q : Fin 4) (e : Fin 65536) (f k : Fin 128) : lidx_main_v23 (ix3 q e f) k = ix3 q e k :=
  funext fun a => by match a with | ⟨0, _⟩ => rfl | ⟨1, _⟩ => rfl | ⟨2, _⟩ => rfl

private theorem ridxE (q : Fin 4) (e : Fin 65536) (f k : Fin 128) : ridx_main_v23 (ix3 q e f) k = ix2 f k :=
  funext fun a => by match a with | ⟨0, _⟩ => rfl | ⟨1, _⟩ => rfl

/-- The bias, broadcast over batch and row, is read at the feature. -/
private theorem bidxN (q : Fin 4) (n : Fin 4096) (f : Fin 128) : idx_main_v1 (idx_main_v2 (ix3 q n f)) = ix1 f :=
  funext fun a => by match a with | ⟨0, _⟩ => rfl

private theorem bidxE (q : Fin 4) (e : Fin 65536) (f : Fin 128) : idx_main_v24 (idx_main_v25 (ix3 q e f)) = ix1 f :=
  funext fun a => by match a with | ⟨0, _⟩ => rfl

/-- The index list with a unit axis appended is read at the edge. -/
private theorem iidx (e : Fin 65536) : idx_main_v9 (ix2 e (0 : Fin 1)) = ix1 e :=
  funext fun a => by match a with | ⟨0, _⟩ => rfl

/-- The pattern of 1.0 is 1. -/
private theorem one_bits : FloatOps.ofBits (F := Ideal) .f32 0x3F800000#32 = (1 : EReal) :=
  IdealRules.sign_bit.ideal_onePat .f32

/-! ### A projection of the node rows is a linear layer -/

private theorem proj_node (x : SNode.Idx → EReal) (W : SW.Idx → EReal) (b : SB.Idx → EReal)
    (q : Fin 4) (n : Fin 4096) (f : Fin 128) :
    val_main_v3 (F := Ideal) x W b (ix3 q n f) = linN x W b q n f := by
  rw [val_main_v3_apply, val_main_v0_apply, val_main_v2_apply, val_main_v1_apply, bidxN]
  simp only [lidxN, ridxN]
  rfl

/-! ### The normalised index list is the input list, for in-range words -/

private theorem norm_idx (x : SIx.Idx → BitVec 32) (e : Fin 65536) (h : InRange (x (ix1 e))) :
    val_main_v9 (F := Ideal) x (ix2 e (0 : Fin 1)) = x (ix1 e) := by
  rw [val_main_v9_apply, iidx, val_main_v8_apply, val_main_v5_apply, val_main_v7_apply, val_main_v4_apply,
    val_main_v6_apply, val_main_c_apply, val_main_c_0_apply]
  exact norm_word _ h

/-! ### An indexed read of a projection is the linear layer at the named node -/

private theorem gath (x : SNode.Idx → EReal) (ix : SIx.Idx → BitVec 32) (W : SW.Idx → EReal) (b : SB.Idx → EReal)
    (q : Fin 4) (e : Fin 65536) (f : Fin 128) (h : InRange (ix (ix1 e))) :
    val_main_v10 (F := Ideal) x ix W b (ix3 q e f) = linN x W b q (node (ix (ix1 e))) f := by
  have hn := norm_idx ix e h
  show Host.gather gather_S4x4096x128_S65536x1_S4x65536x128_02_1_n_n_1_1_41128 (val_main_v3 (F := Ideal) x W b)
    (val_main_v9 (F := Ideal) ix) (ix3 q e f) = _
  rw [gather_rows _ _ q e f (by rw [hn]; exact h), hn, proj_node]

/-- The second and third indexed reads are the same program text under other names. -/
private theorem v21_eq (x : SNode.Idx → EReal) (ix : SIx.Idx → BitVec 32) (W : SW.Idx → EReal) (b : SB.Idx → EReal) :
    val_main_v21 (F := Ideal) x ix W b = val_main_v10 (F := Ideal) x ix W b := rfl

private theorem v44_eq (x : SNode.Idx → EReal) (ix : SIx.Idx → BitVec 32) (W : SW.Idx → EReal) (b : SB.Idx → EReal) :
    val_main_v44 (F := Ideal) x ix W b = val_main_v10 (F := Ideal) x ix W b := rfl

variable (I : Inp)

/-- The gate's argument. -/
theorem v27_at (hok : I.Ok) (q : Fin 4) (e : Fin 65536) (f : Fin 128) :
    val_main_v27 (F := Ideal) I.nf I.ef I.iv I.jv I.Wsg I.bsg I.Wdg I.bdg I.Weg I.beg (ix3 q e f) = I.y q e f := by
  rw [val_main_v27_apply, val_main_v22_apply, val_main_v26_apply, v21_eq, gath _ _ _ _ q e f (hok.1 e),
    gath _ _ _ _ q e f (hok.2 e), val_main_v23_apply, val_main_v25_apply, val_main_v24_apply, bidxE]
  simp only [lidxE, ridxE]
  rfl

/-- The gate: the reference spells the logistic function out as 1 / (1 + exp (−y)). -/
theorem v33_at (hok : I.Ok) (q : Fin 4) (e : Fin 65536) (f : Fin 128) :
    val_main_v33 (F := Ideal) I.nf I.ef I.iv I.jv I.Wsg I.bsg I.Wdg I.bdg I.Weg I.beg (ix3 q e f) = I.sg q e f := by
  rw [val_main_v33_apply, val_main_v32_apply, val_main_cst_3_apply, val_main_v31_apply, val_main_v30_apply,
    val_main_cst_apply, val_main_v29_apply, val_main_v28_apply, v27_at I hok, one_bits]
  rfl

/-- The gated message. -/
theorem v45_at (hok : I.Ok) (q : Fin 4) (e : Fin 65536) (f : Fin 128) :
    val_main_v45 (F := Ideal) I.nf I.ef I.iv I.jv I.Wsg I.bsg I.Wdg I.bdg I.Weg I.beg I.Wdu I.bdu (ix3 q e f) = I.msg q e f := by
  rw [val_main_v45_apply, v33_at I hok, v44_eq, gath _ _ _ _ q e f (hok.2 e)]
  rfl

/-- The edge result array. -/
theorem ref_y (hok : I.Ok) : val_main_v72 (F := Ideal) I.nf I.ef I.iv I.jv I.Wsg I.bsg I.Wdg I.bdg I.Weg I.beg = I.yOut := by
  funext i
  obtain ⟨q, e, f, rfl⟩ : ∃ q e f, i = ix3 q e f := ⟨i 0, i 1, i 2, eq_ix3 i⟩
  rw [val_main_v72_apply, val_main_v70_apply, val_main_call1_v5_apply, val_main_call1_v4_apply,
    val_main_call1_cst_0_apply, val_main_call1_v3_apply, val_main_call1_v2_apply, val_main_call1_cst_apply,
    val_main_call1_v1_apply, val_main_call1_v0_apply, v27_at I hok, one_bits]
  rfl

end Cert.ReferenceIdeal.RefValue

end
-- ==== Proof.RefNode.lean ====
/-
  The reference's node-level stages are the specification's: the two indexed adds give the gathered messages and
  gathered gates of each node, and the node result follows pointwise.
-/
import proofs.«404422_j30666066493673_3_alg».proof.Proof.Gen.ReferenceIdeal.Read
import proofs.«404422_j30666066493673_3_alg».proof.Proof.RefIndex
import proofs.«404422_j30666066493673_3_alg».proof.Proof.RefEdge
import proofs.«404422_j30666066493673_3_alg».proof.Proof.Spec
import Idealize.ShloMosaic.PureOps.IdealRules

set_option maxRecDepth 16384

noncomputable section

namespace Cert.ReferenceIdeal.RefValue

open Cert.ReferenceIdeal Cert.ReferenceIdeal.Gen Idealize.ShloMosaic Idealize.ShloMosaic.ValueIdx Cert.Gnn
open scoped BigOperators
open Cert.ReferenceIdeal.Read

variable (I : Inp)

/-! ## The pieces the two indexed adds are made of -/

/-- The array both indexed adds start from is zero everywhere. -/
theorem v46_zero (i : S4x4096x128.Idx) : val_main_v46 (F := Ideal) i = 0 := by
  rw [val_main_v46_apply, val_main_cst_6_apply]
  exact Ideal.ofBits_zero_f32

/-- The index list of the first indexed add: at edge e, the source index word of e (an in-range word is not wrapped). -/
theorem v52_word (x2 : S65536.Idx → BitVec 32) (e : Fin 65536) (h : InRange (x2 (ix1 e))) :
    val_main_v52 (F := Ideal) x2 (ix2 e 0) = x2 (ix1 e) := by
  have hi : idx_main_v52 (ix2 e 0) = ix1 e := funext fun a => by
    match a with
    | ⟨0, _⟩ => rfl
  rw [val_main_v52_apply, hi, val_main_v51_apply, val_main_v48_apply, val_main_v50_apply, val_main_v47_apply,
    val_main_v49_apply, val_main_c_7_apply, val_main_c_8_apply]
  exact norm_word _ h

/-- The index list of the second indexed add: the same words. -/
theorem v59_word (x2 : S65536.Idx → BitVec 32) (e : Fin 65536) (h : InRange (x2 (ix1 e))) :
    val_main_v59 (F := Ideal) x2 (ix2 e 0) = x2 (ix1 e) := by
  have hi : idx_main_v59 (ix2 e 0) = ix1 e := funext fun a => by
    match a with
    | ⟨0, _⟩ => rfl
  rw [val_main_v59_apply, hi, val_main_v58_apply, val_main_v55_apply, val_main_v57_apply, val_main_v54_apply,
    val_main_v56_apply, val_main_c_9_apply, val_main_c_10_apply]
  exact norm_word _ h

/-- The gathered messages of node n. -/
theorem v53_at (hok : I.Ok) (q : Fin 4) (n : Fin 4096) (f : Fin 128) :
    val_main_v53 (F := Ideal) I.nf I.ef I.iv I.jv I.Wsg I.bsg I.Wdg I.bdg I.Weg I.beg I.Wdu I.bdu (ix3 q n f) = I.sumH q n f := by
  have hidx : ∀ e : Fin 65536, val_main_v52 (F := Ideal) I.iv (ix2 e 0) = I.iv (ix1 e) :=
    fun e => v52_word I.iv e (hok.1 e)
  unfold val_main_v53
  refine (scatter_rows _ _ _ q n f (fun e => by rw [hidx e]; exact hok.1 e)).trans ?_
  rw [v46_zero, zero_add]
  unfold Inp.sumH
  refine Finset.sum_congr rfl fun e _ => ?_
  rw [hidx e, v45_at I hok q e f]
  rfl

/-- The gathered gates of node n. -/
theorem v60_at (hok : I.Ok) (q : Fin 4) (n : Fin 4096) (f : Fin 128) :
    val_main_v60 (F := Ideal) I.nf I.ef I.iv I.jv I.Wsg I.bsg I.Wdg I.bdg I.Weg I.beg (ix3 q n f) = I.sumS q n f := by
  have hidx : ∀ e : Fin 65536, val_main_v59 (F := Ideal) I.iv (ix2 e 0) = I.iv (ix1 e) :=
    fun e => v59_word I.iv e (hok.1 e)
  unfold val_main_v60
  refine (scatter_rows _ _ _ q n f (fun e => by rw [hidx e]; exact hok.1 e)).trans ?_
  rw [v46_zero, zero_add]
  unfold Inp.sumS
  refine Finset.sum_congr rfl fun e _ => ?_
  rw [hidx e, v33_at I hok q e f]
  rfl

/-! ## The node update -/

/-- The linear layer of the node update, at one element. -/
theorem v67_at (q : Fin 4) (n : Fin 4096) (f : Fin 128) :
    val_main_v67 (F := Ideal) I.nf I.Wsu I.bsu (ix3 q n f) = linN I.nf I.Wsu I.bsu q n f := by
  have hl : ∀ k : Fin 128, lidx_main_v64 (ix3 q n f) k = ix3 q n k := fun k => funext fun a => by
    match a with
    | ⟨0, _⟩ => rfl
    | ⟨1, _⟩ => rfl
    | ⟨2, _⟩ => rfl
  have hr : ∀ k : Fin 128, ridx_main_v64 (ix3 q n f) k = ix2 f k := fun k => funext fun a => by
    match a with
    | ⟨0, _⟩ => rfl
    | ⟨1, _⟩ => rfl
  have hb : idx_main_v65 (idx_main_v66 (ix3 q n f)) = ix1 f := funext fun a => by
    match a with
    | ⟨0, _⟩ => rfl
  rw [val_main_v67_apply, val_main_v64_apply, val_main_v66_apply, val_main_v65_apply, hb]
  unfold linN
  rw [Ideal.addf_def]
  exact congrArg (· + I.bsu (ix1 f)) (Finset.sum_congr rfl fun k _ => by rw [hl k, hr k])

/-- The small constant, broadcast. -/
theorem v61_eps (i : S4x4096x128.Idx) : val_main_v61 (F := Ideal) i = Inp.eps := by
  rw [val_main_v61_apply, val_main_cst_11_apply]
  rfl

/-- The node update's argument. -/
theorem v68_at (hok : I.Ok) (q : Fin 4) (n : Fin 4096) (f : Fin 128) :
    val_main_v68 (F := Ideal) I.nf I.ef I.iv I.jv I.Wsg I.bsg I.Wdg I.bdg I.Weg I.beg I.Wsu I.bsu I.Wdu I.bdu (ix3 q n f)
      = I.z q n f := by
  rw [val_main_v68_apply, val_main_v63_apply, val_main_v62_apply, v67_at I q n f, v53_at I hok q n f, v60_at I hok q n f,
    v61_eps]
  rfl

/-- The reference spells x · logistic x out as x · (1 / (1 + exp (−x))). -/
theorem silu_spelled (z : EReal) :
    FloatOps.mulf (F := Ideal) (φ := .f32) z
        (FloatOps.hostDivf (FloatOps.ofBits .f32 0x3F800000#32)
          (FloatOps.addf (FloatOps.ofBits .f32 0x3F800000#32) (FloatOps.hostUnary .exp (FloatOps.hostNegf z))))
      = z * Ideal.logistic z := by
  have one : Ideal.ofBits .f32 0x3F800000#32 = 1 := IdealRules.sign_bit.ideal_onePat .f32
  rw [Ideal.mulf_def, Ideal.hostDivf_def, Ideal.addf_def, Ideal.hostUnary_exp_def, Ideal.hostNegf_def, Ideal.negf_def,
    Ideal.ofBits_def, one]
  rfl

/-- The node result array. -/
theorem ref_x (hok : I.Ok) : val_main_v71 (F := Ideal) I.nf I.ef I.iv I.jv I.Wsg I.bsg I.Wdg I.bdg I.Weg I.beg I.Wsu I.bsu I.Wdu I.bdu = I.xOut := by
  funext i
  obtain ⟨q, n, f, rfl⟩ : ∃ q n f, i = ix3 q n f := ⟨i 0, i 1, i 2, eq_ix3 i⟩
  rw [Inp.xOut_ix3]
  unfold Inp.xAt
  rw [val_main_v71_apply, val_main_v69_apply, val_main_call0_v5_apply, val_main_call0_v4_apply, val_main_call0_cst_0_apply,
    val_main_call0_v3_apply, val_main_call0_v2_apply, val_main_call0_cst_apply, val_main_call0_v1_apply,
    val_main_call0_v0_apply, v68_at I hok q n f, silu_spelled]
  rfl

end Cert.ReferenceIdeal.RefValue

end
-- ==== Proof.lean ====
/-
  The edge-gated graph convolution: the kernel fetches node rows by products with one-hot rows and adds the
  gated messages into the nodes tile by tile through the transposed one-hot, where the reference reads the rows
  by index and adds all the messages of a node at once. Over the extended reals the two are the same arrays
  (Proof/Spec.lean states them index by index): 0 · x = 0 and 1 · x = x make a one-hot row sum one term, and a
  sum over the edges is the sum over the tiles of the sums inside each tile. The end-node indices are assumed in
  range, where the reference's indexed read and add are defined.
-/
import proofs.«404422_j30666066493673_3_alg».proof.Defs
import proofs.«404422_j30666066493673_3_alg».proof.Proof.Gen.Kernel
import proofs.«404422_j30666066493673_3_alg».proof.Proof.Gen.Kernel.Frame
import proofs.«404422_j30666066493673_3_alg».proof.Proof.Gen.KernelIdeal
import proofs.«404422_j30666066493673_3_alg».proof.Proof.Gen.KernelIdeal.Frame
import proofs.«404422_j30666066493673_3_alg».proof.Proof.Gen.KernelIdeal.Value
import proofs.«404422_j30666066493673_3_alg».proof.Proof.Gen.ReferenceIdeal
import proofs.«404422_j30666066493673_3_alg».proof.Proof.Gen.ReferenceIdeal.Run
import proofs.«404422_j30666066493673_3_alg».proof.Proof.Gen.ReferenceIdeal.Read
import proofs.«404422_j30666066493673_3_alg».proof.Proof.Gen.Pre_finite_inputs
import proofs.«404422_j30666066493673_3_alg».proof.Proof.Spec
import proofs.«404422_j30666066493673_3_alg».proof.Proof.PreDecode
import proofs.«404422_j30666066493673_3_alg».proof.Proof.KFinal
import proofs.«404422_j30666066493673_3_alg».proof.Proof.RefEdge
import proofs.«404422_j30666066493673_3_alg».proof.Proof.RefNode
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading over the extended reals. -/
theorem preserves : Cert.preserves_Kernel_KernelIdeal := trivial

/-- Both programs end with the specification's two arrays of the same inputs: the kernel's accumulated one-hot
    products are the reference's indexed reads and adds. -/
theorem algebraic : Cert.algebraic_KernelIdeal_ReferenceIdeal := by
  intro m ρ m' ρ' hpre hagree
  have hok : ∀ c, (Cert.KernelIdeal.KV.inp m c).Ok := fun c => Cert.KernelIdeal.KV.ok_of_pre m hpre c
  refine ⟨fun c => (Cert.KernelIdeal.KV.inp m c).xOut, fun c => (Cert.KernelIdeal.KV.inp m c).yOut,
    Cert.KernelIdeal.KV.kernel_run m ρ hok, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6, e7, e8, e9, e10, e11, e12, e13⟩ := hagree c
    refine (h c).1.trans ?_
    rw [Cert.ReferenceIdeal.Read.val_main_v71_eq, e0, e1, e2, e3, e4, e5, e6, e7, e8, e9, e10, e11, e12, e13]
    exact Cert.ReferenceIdeal.RefValue.ref_x (Cert.KernelIdeal.KV.inp m c) (hok c)
  · obtain ⟨e0, e1, e2, e3, e4, e5, e6, e7, e8, e9, e10, e11, e12, e13⟩ := hagree c
    refine (h c).2.1.trans ?_
    rw [Cert.ReferenceIdeal.Read.val_main_v72_eq, e0, e1, e2, e3, e4, e5, e6, e7, e8, e9]
    exact Cert.ReferenceIdeal.RefValue.ref_y (Cert.KernelIdeal.KV.inp m c) (hok c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
